-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x128 : Shape := ⟨3, ![128, 2048, 128]⟩
abbrev S128 : Shape := ⟨1, ![128]⟩
abbrev S384x64 : Shape := ⟨2, ![384, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S128x2048x128 : S_.BroadcastsInDim S128x2048x128 (![] : Fin 0 → Fin S128x2048x128.rank)
  reducesTo_S128x2048x128_S_d0_1_2 : S128x2048x128.ReducesTo [0, 1, 2] S_
  h_S_ : 0 < S_.numel
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg1 : IVec S128 32) (main_arg5 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_c_8 : IVec S_ 32 := constantI S_ 32 2#32
  let main_v24 : IVec S128 32 := broadcastInDim S128 ![] bcast_S_S128 main_c_8
  let main_v25 : IVec S128 1 := cmpi .sge main_arg1 main_v24
  let main_c_9 : IVec S_ 32 := constantI S_ 32 2048#32
  let main_v26 : IVec S128 32 := broadcastInDim S128 ![] bcast_S_S128 main_c_9
  let main_v27 : IVec S128 1 := cmpi .sle main_arg1 main_v26
  let main_v28 : IVec S128 1 := andi main_v25 main_v27
  let main_c_10 : IVec S_ 1 := constantI S_ 1 1#1
  let main_v29 : IVec S_ 1 := (fun x v => Host.reduce IntOp.andi x v reducesTo_S128_S_d0 h_S_) main_v28 main_c_10
  let main_v30 : IVec S_ 1 := andi main_v23 main_v29
  main_v30

def fn {F : FTy → Type} [FloatOps F] (main_arg0 : FVec F S128x2048x128 .f32) (main_arg1 : IVec S128 32) (main_arg2 : FVec F S384x64 .f32) (main_arg3 : FVec F S64 .f32) (main_arg4 : FVec F S64x8 .f32) (main_arg5 : FVec F S8 .f32) : IVec S_ 1 :=
  let main_v0 : FVec F S128x2048x128 .f32 := Host.absf main_arg0
  let main_cst : FVec F S_ .f32 := constant S_ .f32 0x7F800000#32
  let main_v1 : FVec F S128x2048x128 .f32 := broadcastInDim S128x2048x128 ![] bcast_S_S128x2048x128 main_cst
  let main_v2 : IVec S128x2048x128 1 := cmpf .olt main_v0 main_v1
  let main_c : IVec S_ 1 := constantI S_ 1 1#1
  let main_v3 : IVec S_ 1 := (fun x v => Host.reduce IntOp.andi x v reducesTo_S128x2048x128_S_d0_1_2 h_S_) main_v2 main_c
  let main_v4 : FVec F S384x64 .f32 := Host.absf main_arg2
  let main_cst_0 : FVec F S_ .f32 := constant S_ .f32 0x7F800000#32
  let main_v5 : FVec F S384x64 .f32 := broadcastInDim S384x64 ![] bcast_S_S384x64 main_cst_0
  let main_v6 : IVec S384x64 1 := cmpf .olt main_v4 main_v5
  let main_c_1 : IVec S_ 1 := constantI S_ 1 1#1
  let main_v7 : IVec S_ 1 := (fun x v => Host.reduce IntOp.andi x v reducesTo_S384x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg4
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg1 main_arg5 main_v13 main_v16
-- ==== Kernel.lean ====
abbrev S128x2048x128 : Shape := ⟨3, ![128, 2048, 128]⟩
abbrev S128 : Shape := ⟨1, ![128]⟩
abbrev S384x64 : Shape := ⟨2, ![384, 64]⟩
abbrev S64 : Shape := ⟨1, ![64]⟩
abbrev S64x8 : Shape := ⟨2, ![64, 8]⟩
abbrev S8 : Shape := ⟨1, ![8]⟩
abbrev S128x1 : Shape := ⟨2, ![128, 1]⟩
abbrev S128x384 : Shape := ⟨2, ![128, 384]⟩
abbrev S64x1 : Shape := ⟨2, ![64, 1]⟩
abbrev S64x512x128 : Shape := ⟨3, ![64, 512, 128]⟩
abbrev S64x384 : Shape := ⟨2, ![64, 384]⟩
abbrev S64x128 : Shape := ⟨2, ![64, 128]⟩
abbrev S64x512 : Shape := ⟨2, ![64, 512]⟩
abbrev S64x512x1 : Shape := ⟨3, ![64, 512, 1]⟩
abbrev S128x8 : Shape := ⟨2, ![128, 8]⟩
abbrev S128x64 : Shape := ⟨2, ![128, 64]⟩
abbrev S1x64 : Shape := ⟨2, ![1, 64]⟩
abbrev S1x8 : Shape := ⟨2, ![1, 8]⟩

abbrev nBuf : Space → Nat
  | .hbm => 9
  | .vmem => 15
  | .smem => 0
  | _ => 0

abbrev bufTy : (tb : Table) → Fin (tcTables nBuf tb) → BufTy
  | .hbm, ⟨0, _⟩ => ⟨S128x2048x128, .f32⟩
  | .hbm, ⟨1, _⟩ => ⟨S128, .i32⟩
  | .hbm, ⟨2, _⟩ => ⟨S384x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S128x1, .i32⟩
  | .hbm, ⟨7, _⟩ => ⟨S128x384, .f32⟩
  | .hbm, ⟨8, _⟩ => ⟨S128x8, .f32⟩
  | .local _ .vmem, ⟨0, _⟩ => ⟨S64x1, .i32⟩
  | .local _ .vmem, ⟨1, _⟩ => ⟨S64x1, .i32⟩
  | .local _ .vmem, ⟨2, _⟩ => ⟨S64x512x128, .f32⟩
  | .local _ .vmem, ⟨3, _⟩ => ⟨S64x512x128, .f32⟩
  | .local _ .vmem, ⟨4, _⟩ => ⟨S64x384, .f32⟩
  | .local _ .vmem, ⟨5, _⟩ => ⟨S64x384, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S128x384, .f32⟩
  | .local _ .vmem, ⟨10, _⟩ => ⟨S384x64, .f32⟩
  | .local _ .vmem, ⟨11, _⟩ => ⟨S64, .f32⟩
  | .local _ .vmem, ⟨12, _⟩ => ⟨S64x8, .f32⟩
  | .local _ .vmem, ⟨13, _⟩ => ⟨S8, .f32⟩
  | .local _ .vmem, ⟨14, _⟩ => ⟨S128x8, .f32⟩
  | _, _ => ⟨S128x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_19 : BitVec 32 := 0#32
  let v50 : BitVec 1 := Scalar.cmpi .ne v49 c0_i32_19
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S128_S128x1 : S128.ShapeCasts S128x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S64x512_d1_w32 : S64x512.Iotas .tc 32 [1]
  broadcasts_S64x1_S64x512 : S64x1.Broadcasts S64x512
  natLt_1_32 : 1 < 32
  inb_S64x512x128_S64x512x128_0_0_0 : ∀ a, (![0, 0, 0] : Fin 3 → Nat) a + S64x512x128.size a ≤ S64x512x128.size a
  h_S64x512x128 : 0 < S64x512x128.numel
  shapeCasts_S64x512_S64x512x1 : S64x512.ShapeCasts S64x512x1
  broadcasts_S64x512x1_S64x512x128 : S64x512x1.Broadcasts S64x512x128
  reduces_S64x512x128_S64x128 : S64x512x128.Reduces [1] S64x128
  broadcasts_S64x1_S64x128 : S64x1.Broadcasts S64x128
  concatenates_S64x128_S64x128_S64x128_S64x384_d1 : Shape.Concatenates [S64x128, S64x128, S64x128] S64x384 1
  inb_S64x384_S64x384_0_0 : ∀ a, (![0, 0] : Fin 2 → Nat) a + S64x384.size a ≤ S64x384.size a
  h_S64x384 : 0 < S64x384.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384x64_S384x64_0_0 : ∀ a, (![0, 0] : Fin 2 → Nat) a + S384x64.size a ≤ S384x64.size a
  h_S384x64 : 0 < S384x64.numel
  inb_S64_S64_0 : ∀ a, (![0] : Fin 1 → Nat) a + S64.size a ≤ S64.size a
  h_S64 : 0 < S64.numel
  shapeCasts_S64_S1x64 : S64.ShapeCasts S1x64
  broadcasts_S1x64_S128x64 : S1x64.Broadcasts S128x64
  inb_S64x8_S64x8_0_0 : ∀ a, (![0, 0] : Fin 2 → Nat) a + S64x8.size a ≤ S64x8.size a
  h_S64x8 : 0 < S64x8.numel
  inb_S8_S8_0 : ∀ a, (![0] : Fin 1 → Nat) a + S8.size a ≤ S8.size a
  h_S8 : 0 < S8.numel
  shapeCasts_S8_S1x8 : S8.ShapeCasts S1x8
  broadcasts_S1x8_S128x8 : S1x8.Broadcasts S128x8
  inb_S128x8_S128x8_0_0 : ∀ a, (![0, 0] : Fin 2 → Nat) a + S128x8.size a ≤ S128x8.size a
  h_S128x8 : 0 < S128x8.numel
  dot_S128x384_S384x64_S128x64_1_0_0_1_n_n_wf : DotDims.WF S128x384 S384x64 S128x64 [1] [0] [0] [1] [] []
  dot_S128x64_S64x8_S128x8_1_0_0_1_n_n_wf : DotDims.WF S128x64 S64x8 S128x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1.size a ≤ S128x1.size a
  hwx0_0 : ∀ i : grid0.Coords, EltTy.bits .i32 = 32 ∨ (Rect.block (s := S128x1) S64x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512x128.size a ≤ S128x2048x128.size a
  hwx0_1 : ∀ i : grid0.Coords, EltTy.bits .f32 = 32 ∨ (Rect.block (s := S128x2048x128) S64x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x384.size a ≤ S128x384.size a
  hwx0_2 : ∀ i : grid0.Coords, EltTy.bits .f32 = 32 ∨ (Rect.block (s := S128x384) S64x384.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x384.size a ≤ S128x384.size a
  hwx1_0 : ∀ i : grid1.Coords, EltTy.bits .f32 = 32 ∨ (Rect.block (s := S128x384) S128x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x64.size a ≤ S384x64.size a
  hwx1_1 : ∀ i : grid1.Coords, EltTy.bits .f32 = 32 ∨ (Rect.block (s := S384x64) S384x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x8.size a ≤ S64x8.size a
  hwx1_3 : ∀ i : grid1.Coords, EltTy.bits .f32 = 32 ∨ (Rect.block (s := S64x8) S64x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8.size a ≤ S8.size a
  hwx1_4 : ∀ i : grid1.Coords, EltTy.bits .f32 = 32 ∨ (Rect.block (s := S8) S8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x8.size a ≤ S128x8.size a
  hwx1_5 : ∀ i : grid1.Coords, EltTy.bits .f32 = 32 ∨ (Rect.block (s := S128x8) S128x8.size (cc1_transform_5 i) (hinb1_5 i)).WholeWords (EltTy.packing .f32)

variable [Facts₀]

def dot_S128x384_S384x64_S128x64_1_0_0_1_n_n : DotDims S128x384 S384x64 S128x64 where
  lhsContracting := [1]
  rhsContracting := [0]
  lhsNonContracting := [0]
  rhsNonContracting := [1]
  lhsBatch := []
  rhsBatch := []
  wf := dot_S128x384_S384x64_S128x64_1_0_0_1_n_n_wf
def dot_S128x64_S64x8_S128x8_1_0_0_1_n_n : DotDims S128x64 S64x8 S128x8 where
  lhsContracting := [1]
  rhsContracting := [0]
  lhsNonContracting := [0]
  rhsNonContracting := [1]
  lhsBatch := []
  rhsBatch := []
  wf := dot_S128x64_S64x8_S128x8_1_0_0_1_n_n_wf

abbrev win0_0 : Pipeline.Window sig grid0 :=
  Pipeline.Window.ofSpec (Memref.whole main_v0) S64x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S128x384.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S128x8.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S128x2048x128 : Shape := ⟨3, ![128, 2048, 128]⟩
abbrev S128 : Shape := ⟨1, ![128]⟩
abbrev S384x64 : Shape := ⟨2, ![384, 64]⟩
abbrev S64 : Shape := ⟨1, ![64]⟩
abbrev S64x8 : Shape := ⟨2, ![64, 8]⟩
abbrev S8 : Shape := ⟨1, ![8]⟩
abbrev S2048 : Shape := ⟨1, ![2048]⟩
abbrev S1x2048 : Shape := ⟨2, ![1, 2048]⟩
abbrev S128x1 : Shape := ⟨2, ![128, 1]⟩
abbrev S128x2048 : Shape := ⟨2, ![128, 2048]⟩
abbrev S128x2048x1 : Shape := ⟨3, ![128, 2048, 1]⟩
abbrev S_ : Shape := ⟨0, ![]⟩
abbrev S128x128 : Shape := ⟨2, ![128, 128]⟩
abbrev S128x1x128 : Shape := ⟨3, ![128, 1, 128]⟩
abbrev S128x2 : Shape := ⟨2, ![128, 2]⟩
abbrev S128x384 : Shape := ⟨2, ![128, 384]⟩
abbrev S128x64 : Shape := ⟨2, ![128, 64]⟩
abbrev S1x64 : Shape := ⟨2, ![1, 64]⟩
abbrev S128x8 : Shape := ⟨2, ![128, 8]⟩
abbrev S1x8 : Shape := ⟨2, ![1, 8]⟩

abbrev nBuf : Space → Nat
  | .hbm => 70
  | .vmem => 0
  | .smem => 0
  | _ => 0

abbrev bufTy : (tb : Table) → Fin (tcTables nBuf tb) → BufTy
  | .hbm, ⟨0, _⟩ => ⟨S128x2048x128, .f32⟩
  | .hbm, ⟨1, _⟩ => ⟨S128, .i32⟩
  | .hbm, ⟨2, _⟩ => ⟨S384x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S2048, .i32⟩
  | .hbm, ⟨7, _⟩ => ⟨S1x2048, .i32⟩
  | .hbm, ⟨8, _⟩ => ⟨S128x1, .i32⟩
  | .hbm, ⟨9, _⟩ => ⟨S128x2048, .i32⟩
  | .hbm, ⟨10, _⟩ => ⟨S128x2048, .i32⟩
  | .hbm, ⟨11, _⟩ => ⟨S128x2048, .i1⟩
  | .hbm, ⟨12, _⟩ => ⟨S128x2048, .f32⟩
  | .hbm, ⟨13, _⟩ => ⟨S128x2048x1, .f32⟩
  | .hbm, ⟨14, _⟩ => ⟨S128, .f32⟩
  | .hbm, ⟨15, _⟩ => ⟨S128x1, .f32⟩
  | .hbm, ⟨16, _⟩ => ⟨S128x2048x128, .f32⟩
  | .hbm, ⟨17, _⟩ => ⟨S128x2048x128, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x1x128, .f32⟩
  | .hbm, ⟨23, _⟩ => ⟨S128x2048x128, .f32⟩
  | .hbm, ⟨24, _⟩ => ⟨S128x2048x128, .f32⟩
  | .hbm, ⟨25, _⟩ => ⟨S128x2048x128, .f32⟩
  | .hbm, ⟨26, _⟩ => ⟨S128x2048x128, .f32⟩
  | .hbm, ⟨27, _⟩ => ⟨S128x2048x128, .f32⟩
  | .hbm, ⟨28, _⟩ => ⟨S_, .f32⟩
  | .hbm, ⟨29, _⟩ => ⟨S128x128, .f32⟩
  | .hbm, ⟨30, _⟩ => ⟨S_, .f32⟩
  | .hbm, ⟨31, _⟩ => ⟨S128x1, .f32⟩
  | .hbm, ⟨32, _⟩ => ⟨S128x1, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S_, .i32⟩
  | .hbm, ⟨41, _⟩ => ⟨S128, .i32⟩
  | .hbm, ⟨42, _⟩ => ⟨S128, .i1⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S_, .i32⟩
  | .hbm, ⟨48, _⟩ => ⟨S128, .i32⟩
  | .hbm, ⟨49, _⟩ => ⟨S128, .i1⟩
  | .hbm, ⟨50, _⟩ => ⟨S_, .i32⟩
  | .hbm, ⟨51, _⟩ => ⟨S128, .i32⟩
  | .hbm, ⟨52, _⟩ => ⟨S128, .i32⟩
  | .hbm, ⟨53, _⟩ => ⟨S128, .i32⟩
  | .hbm, ⟨54, _⟩ => ⟨S128x1, .i32⟩
  | .hbm, ⟨55, _⟩ => ⟨S128x1, .i32⟩
  | .hbm, ⟨56, _⟩ => ⟨S128x2, .i32⟩
  | .hbm, ⟨57, _⟩ => ⟨S128x128, .f32⟩
  | .hbm, ⟨58, _⟩ => ⟨S128x384, .f32⟩
  | .hbm, ⟨59, _⟩ => ⟨S128x64, .f32⟩
  | .hbm, ⟨60, _⟩ => ⟨S1x64, .f32⟩
  | .hbm, ⟨61, _⟩ => ⟨S128x64, .f32⟩
  | .hbm, ⟨62, _⟩ => ⟨S128x64, .f32⟩
  | .hbm, ⟨63, _⟩ => ⟨S_, .f32⟩
  | .hbm, ⟨64, _⟩ => ⟨S128x64, .f32⟩
  | .hbm, ⟨65, _⟩ => ⟨S128x64, .f32⟩
  | .hbm, ⟨66, _⟩ => ⟨S128x8, .f32⟩
  | .hbm, ⟨67, _⟩ => ⟨S1x8, .f32⟩
  | .hbm, ⟨68, _⟩ => ⟨S128x8, .f32⟩
  | .hbm, ⟨69, _⟩ => ⟨S128x8, .f32⟩
  | _, _ => ⟨S128x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_v28 : Ref sig .tc := ⟨.hbm, 38, rfl⟩
abbrev main_v29 : Ref sig .tc := ⟨.hbm, 39, rfl⟩
abbrev main_c_2 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_call0_cst : Ref sig .tc := ⟨.hbm, 63, rfl⟩
abbrev main_call0_v0 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S128_S128x1_0 : S128.BroadcastsInDim S128x1 (![0] : Fin 1 → Fin S128x1.rank)
  bcast_S1x2048_S128x2048_0_1 : S1x2048.BroadcastsInDim S128x2048 (![0, 1] : Fin 2 → Fin S128x2048.rank)
  bcast_S128x1_S128x2048_0_1 : S128x1.BroadcastsInDim S128x2048 (![0, 1] : Fin 2 → Fin S128x2048.rank)
  bcast_S128x2048_S128x2048x1_0_1 : S128x2048.BroadcastsInDim S128x2048x1 (![0, 1] : Fin 2 → Fin S128x2048x1.rank)
  bcast_S128x2048x1_S128x2048x128_0_1_2 : S128x2048x1.BroadcastsInDim S128x2048x128 (![0, 1, 2] : Fin 3 → Fin S128x2048x128.rank)
  reducesTo_S128x2048x128_S128x128_d1 : S128x2048x128.ReducesTo [1] S128x128
  h_S_ : 0 < S_.numel
  bcast_S128x1_S128x128_0_1 : S128x1.BroadcastsInDim S128x128 (![0, 1] : Fin 2 → Fin S128x128.rank)
  bcast_S128x128_S128x1x128_0_2 : S128x128.BroadcastsInDim S128x1x128 (![0, 2] : Fin 2 → Fin S128x1x128.rank)
  bcast_S128x1x128_S128x2048x128_0_1_2 : S128x1x128.BroadcastsInDim S128x2048x128 (![0, 1, 2] : Fin 3 → Fin S128x2048x128.rank)
  bcast_S_S128x1 : S_.BroadcastsInDim S128x1 (![] : Fin 0 → Fin S128x1.rank)
  bcast_S_S128 : S_.BroadcastsInDim S128 (![] : Fin 0 → Fin S128.rank)
  concatenates_S128x1_S128x1_S128x2_d1 : Shape.Concatenates [S128x1, S128x1] S128x2 1
  concatenates_S128x128_S128x128_S128x128_S128x384_d1 : Shape.Concatenates [S128x128, S128x128, S128x128] S128x384 1
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  gather_S128x2048x128_S128x2_S128x128_1_01_n_n_01_1_11128_wf : GatherDims.WF S128x2048x128 S128x2 S128x128 [1] [0, 1] [] [0, 1] [] 1 ![1, 1, 128]
  dot_S128x384_S384x64_S128x64_1_0_0_1_n_n_wf : DotDims.WF S128x384 S384x64 S128x64 [1] [0] [0] [1] [] []
  dot_S128x64_S64x8_S128x8_1_0_0_1_n_n_wf : DotDims.WF S128x64 S64x8 S128x8 [1] [0] [0] [1] [] []

variable [Facts₀]

def gather_S128x2048x128_S128x2_S128x128_1_01_n_n_01_1_11128 : GatherDims S128x2048x128 S128x2 S128x128 where
  offsetDims := [1]
  collapsedSliceDims := [0, 1]
  operandBatchingDims := []
  startIndicesBatchingDims := []
  startIndexMap := [0, 1]
  indexVectorDim := 1
  sliceSizes := ![1, 1, 128]
  wf := gather_S128x2048x128_S128x2_S128x128_1_01_n_n_01_1_11128_wf
def dot_S128x384_S384x64_S128x64_1_0_0_1_n_n : DotDims S128x384 S384x64 S128x64 where
  lhsContracting := [1]
  rhsContracting := [0]
  lhsNonContracting := [0]
  rhsNonContracting := [1]
  lhsBatch := []
  rhsBatch := []
  wf := dot_S128x384_S384x64_S128x64_1_0_0_1_n_n_wf
def dot_S128x64_S64x8_S128x8_1_0_0_1_n_n : DotDims S128x64 S64x8 S128x8 where
  lhsContracting := [1]
  rhsContracting := [0]
  lhsNonContracting := [0]
  rhsNonContracting := [1]
  lhsBatch := []
  rhsBatch := []
  wf := dot_S128x64_S64x8_S128x8_1_0_0_1_n_n_wf

class Facts : Prop extends Facts₀ where

variable [Facts]
-- ==== Proof.K.R0Defs.lean ====
/-
  The first kernel region (the masked reduction over time), point by point.  A grid point (i0, j) holds a block of
  64 rows and 512 time steps.  Three running sums per (row, feature) live in scratch between points: the masked sum of
  x, the masked sum of x², and the sum of x against the indicator of the last valid step.  At j = 0 they restart from
  zero, at every point the block's contribution is added, and at j = 3 the features (mean, standard deviation, last
  valid row) are written to the output block.
-/
import proofs.«421534_j64965675320093_2_alg».proof.Proof.Gen.Kernel.Launch
import proofs.«421534_j64965675320093_2_alg».proof.Proof.Gen.Kernel.Skeleton
import proofs.«421534_j64965675320093_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The time axis restarts: the second grid coordinate is 0. -/
abbrev isFirst (i : grid0.Coords) : Prop :=
  (Scalar.cmpi .ne (Scalar.extui (Scalar.cmpi .eq (BitVec.ofNat 32 (i 1).val) 0#32)) 0#32) = 1#1
/-- The time axis ends: the second grid coordinate is 3. -/
abbrev isLast (i : grid0.Coords) : Prop := k0_cond2 i = 1#1

theorem isFirst_iff : ∀ t : Fin cfg0.N, isFirst (grid0.coords t) ↔ t.val % 4 = 0 :=
  (by decide +kernel : ∀ t : Fin grid0.N, isFirst (grid0.coords t) ↔ t.val % 4 = 0)
theorem isLast_iff : ∀ t : Fin cfg0.N, isLast (grid0.coords t) ↔ t.val % 4 = 3 :=
  (by decide +kernel : ∀ t : Fin grid0.N, isLast (grid0.coords t) ↔ t.val % 4 = 3)

/-- The running sums' start: all zeros. -/
def zeroAcc : Vec F S64x128 .f32 := k0_pay4 (F := F)

/-- The masked sum of x after one more block: a + Σ_t x[·,t,·]·[t < len]. -/
def sumStep (i : grid0.Coords) (L : Vec F S64x1 .i32) (X : Vec F S64x512x128 .f32) (a : Vec F S64x128 .f32) : Vec F S64x128 .f32 :=
  k0_pay12 i L X a
/-- The masked sum of x² after one more block: a + Σ_t x²·[t < len]. -/
def sqStep (i : grid0.Coords) (L : Vec F S64x1 .i32) (X : Vec F S64x512x128 .f32) (a : Vec F S64x128 .f32) : Vec F S64x128 .f32 :=
  k0_pay1 (k0_pay13 i L X a)
/-- The last-valid-step pick after one more block: a + Σ_t x·[t = len − 1]. -/
def lastStep (i : grid0.Coords) (L : Vec F S64x1 .i32) (X : Vec F S64x512x128 .f32) (a : Vec F S64x128 .f32) : Vec F S64x128 .f32 :=
  k0_pay2 X (k0_pay11 i L) a
/-- The features of 64 rows from the three finished sums: mean = s/n, std = √max((q − n·mean·mean)/(n − 1), 0), last. -/
def featsOf (L : Vec F S64x1 .i32) (s q l : Vec F S64x128 .f32) : Vec F S64x384 .f32 :=
  k0_pay3 (k0_pay8 L) s q l

/-- The three scratch operands as whole memrefs. -/
abbrev scM0 : Memref sig .tc .vmem S64x128 .f32 := Memref.whole cc0_scratch0
abbrev scM1 : Memref sig .tc .vmem S64x128 .f32 := Memref.whole cc0_scratch1
abbrev scM2 : Memref sig .tc .vmem S64x128 .f32 := Memref.whole cc0_scratch2

end Cert.Kernel.Hand

end
-- ==== Proof.K.R0Run.lean ====
/-
  The reduction kernel's body as a triple, in each of the three situations a grid point can be in: the first step of
  the time axis (the sums restart from zero), a middle step (the sums continue), the last step (the sums continue and
  the features are written).  In each, the scratch buffers end at the step functions of what they held.
-/
import proofs.«421534_j64965675320093_2_alg».proof.Proof.K.R0Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 and of a rank-3 access, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- A store through the whole-shape rectangle at zero offsets, made last, read back through the view, is its payload,
    whatever was stored before it and whatever the buffer held. -/
private theorem read_store_whole {S : Shape} {e : EltTy} (v : View sig .tc .vmem S e) (f : v.ty.Contents (Elt F))
    {off : Fin S.rank → Nat} (h : off = fun _ => 0) (inb : ∀ a, off a + S.size a ≤ S.size a) (w : S.Idx → Elt F e)
    (Ls : List (View.Piece (Elt F) S e)) :
    v.read (Elt F) (v.writes (Elt F) f ((⟨Rect.unit off S.size inb, w⟩ : View.Piece (Elt F) S e) :: Ls)) = w := by
  rw [View.read_writes_eq_canon _ _ _ (fun y => ⟨_, List.mem_cons_self, View.mem_set_unit_zero h inb y⟩),
    View.canon_cons_unit_zero h]

/-- First step of the time axis: whatever the scratch held, it ends at one step from zero; the output buffer is not touched. -/
theorem run_first (c : Dev nD) (E : Set ℕ) (i : grid0.Coords) (hF : isFirst i) (hL : ¬ isLast i)
    (arg2 : Memref sig .tc .vmem S64x1 .i32) (harg2 : arg2.IsWhole) (arg3 : Memref sig .tc .vmem S64x512x128 .f32) (harg3 : arg3.IsWhole) (arg4 : Memref sig .tc .vmem S64x384 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole)
    (L : Vec F S64x1 .i32) (X : Vec F S64x512x128 .f32) (K : PUnit → sProp 𝕄) :
    iprop(owns (c : Thread nD τ) arg2 fullShare L ∗ owns (c : Thread nD τ) arg3 fullShare X
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare L ∗ owns (c : Thread nD τ) arg3 fullShare X
            ∗ owns (c : Thread nD τ) arg5 fullShare (sumStep i L X zeroAcc)
            ∗ owns (c : Thread nD τ) arg6 fullShare (sqStep i L X zeroAcc)
            ∗ owns (c : Thread nD τ) arg7 fullShare (lastStep i L X zeroAcc)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%d5, %f5, -, H5⟩, ⟨%d6, %f6, -, H6⟩, ⟨%d7, %f7, -, H7⟩, Hk⟩
  obtain rfl := harg2.eq_unread hf2; obtain rfl := harg3.eq_unread hf3
  sl_exec (disch := first | exact hF | exact hL)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; swap; · iexact H5
    ipureintro
    refine (read_store_whole _ _ hz2 _ _ _).trans ?_
    sl_unfold_words
    simp only [View.readAt_eq_ld, Memref.IsWhole.read_unread, View.ld_unit_zero (S := S64x1) hz2,
      View.ld_unit_zero (S := S64x128) hz2, View.ld_unit_zero (S := S64x512x128) hz3,
      View.readCov_unit_zero (S := S64x128) _ hz2]
    rfl
  isplitl [H6]
  · iexists _; isplitr; swap; · iexact H6
    ipureintro
    refine (read_store_whole _ _ hz2 _ _ _).trans ?_
    sl_unfold_words
    simp only [View.readAt_eq_ld, Memref.IsWhole.read_unread, View.ld_unit_zero (S := S64x1) hz2,
      View.ld_unit_zero (S := S64x128) hz2, View.ld_unit_zero (S := S64x512x128) hz3,
      View.readCov_unit_zero (S := S64x128) _ hz2]
    rfl
  · iexists _; isplitr; swap; · iexact H7
    ipureintro
    refine (read_store_whole _ _ hz2 _ _ _).trans ?_
    sl_unfold_words
    simp only [View.readAt_eq_ld, Memref.IsWhole.read_unread, View.ld_unit_zero (S := S64x1) hz2,
      View.ld_unit_zero (S := S64x128) hz2, View.ld_unit_zero (S := S64x512x128) hz3,
      View.readCov_unit_zero (S := S64x128) _ hz2]
    rfl

/-- A middle step: the scratch continues from what it held; the output buffer is not touched. -/
theorem run_mid (c : Dev nD) (E : Set ℕ) (i : grid0.Coords) (hF : ¬ isFirst i) (hL : ¬ isLast i)
    (arg2 : Memref sig .tc .vmem S64x1 .i32) (harg2 : arg2.IsWhole) (arg3 : Memref sig .tc .vmem S64x512x128 .f32) (harg3 : arg3.IsWhole) (arg4 : Memref sig .tc .vmem S64x384 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole)
    (L : Vec F S64x1 .i32) (X : Vec F S64x512x128 .f32) (a b l : Vec F S64x128 .f32) (K : PUnit → sProp 𝕄) :
    iprop(owns (c : Thread nD τ) arg2 fullShare L ∗ owns (c : Thread nD τ) arg3 fullShare X
        ∗ owns (c : Thread nD τ) arg5 fullShare a ∗ owns (c : Thread nD τ) arg6 fullShare b ∗ owns (c : Thread nD τ) arg7 fullShare l
        ∗ (iprop(owns (c : Thread nD τ) arg2 fullShare L ∗ owns (c : Thread nD τ) arg3 fullShare X
            ∗ owns (c : Thread nD τ) arg5 fullShare (sumStep i L X a)
            ∗ owns (c : Thread nD τ) arg6 fullShare (sqStep i L X b)
            ∗ owns (c : Thread nD τ) arg7 fullShare (lastStep i L X l)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%f5, %hf5, H5⟩, ⟨%f6, %hf6, H6⟩, ⟨%f7, %hf7, H7⟩, Hk⟩
  obtain rfl := harg2.eq_unread hf2; obtain rfl := harg3.eq_unread hf3
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; swap; · iexact H5
    ipureintro
    refine (read_store_whole _ _ hz2 _ _ _).trans ?_
    simp only [View.readAt_eq_ld, Memref.IsWhole.read_unread, View.ld_unit_zero (S := S64x1) hz2,
      View.ld_unit_zero (S := S64x128) hz2, View.ld_unit_zero (S := S64x512x128) hz3]
    rfl
  isplitl [H6]
  · iexists _; isplitr; swap; · iexact H6
    ipureintro
    refine (read_store_whole _ _ hz2 _ _ _).trans ?_
    sl_unfold_words
    simp only [View.readAt_eq_ld, Memref.IsWhole.read_unread, View.ld_unit_zero (S := S64x1) hz2,
      View.ld_unit_zero (S := S64x128) hz2, View.ld_unit_zero (S := S64x512x128) hz3]
    rfl
  · iexists _; isplitr; swap; · iexact H7
    ipureintro
    refine (read_store_whole _ _ hz2 _ _ _).trans ?_
    sl_unfold_words
    simp only [View.readAt_eq_ld, Memref.IsWhole.read_unread, View.ld_unit_zero (S := S64x1) hz2,
      View.ld_unit_zero (S := S64x128) hz2, View.ld_unit_zero (S := S64x512x128) hz3]
    rfl

/-- The last step: the scratch continues from what it held, and the output buffer ends at the features of the finished sums. -/
theorem run_last (c : Dev nD) (E : Set ℕ) (i : grid0.Coords) (hF : ¬ isFirst i) (hL : isLast i)
    (arg2 : Memref sig .tc .vmem S64x1 .i32) (harg2 : arg2.IsWhole) (arg3 : Memref sig .tc .vmem S64x512x128 .f32) (harg3 : arg3.IsWhole) (arg4 : Memref sig .tc .vmem S64x384 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole)
    (L : Vec F S64x1 .i32) (X : Vec F S64x512x128 .f32) (a b l : Vec F S64x128 .f32) (K : PUnit → sProp 𝕄) :
    iprop(owns (c : Thread nD τ) arg2 fullShare L ∗ owns (c : Thread nD τ) arg3 fullShare X
        ∗ (∃ d, owns (c : Thread nD τ) arg4 fullShare d)
        ∗ owns (c : Thread nD τ) arg5 fullShare a ∗ owns (c : Thread nD τ) arg6 fullShare b ∗ owns (c : Thread nD τ) arg7 fullShare l
        ∗ (iprop(owns (c : Thread nD τ) arg2 fullShare L ∗ owns (c : Thread nD τ) arg3 fullShare X
            ∗ owns (c : Thread nD τ) arg4 fullShare (featsOf L (sumStep i L X a) (sqStep i L X b) (lastStep i L X l))
            ∗ owns (c : Thread nD τ) arg5 fullShare (sumStep i L X a)
            ∗ owns (c : Thread nD τ) arg6 fullShare (sqStep i L X b)
            ∗ owns (c : Thread nD τ) arg7 fullShare (lastStep i L X l)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%d4, %f4, -, H4⟩, ⟨%f5, %hf5, H5⟩, ⟨%f6, %hf6, H6⟩, ⟨%f7, %hf7, H7⟩, Hk⟩
  obtain rfl := harg2.eq_unread hf2; obtain rfl := harg3.eq_unread hf3
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    refine (read_store_whole _ _ hz2 _ _ _).trans ?_
    sl_unfold_words
    simp only [View.readAt_eq_ld, Memref.IsWhole.read_unread, View.ld_unit_zero (S := S64x1) hz2,
      View.ld_unit_zero (S := S64x128) hz2, View.ld_unit_zero (S := S64x512x128) hz3,
      View.readCov_unit_zero (S := S64x128) _ hz2]
    rfl
  isplitl [H5]
  · iexists _; isplitr; swap; · iexact H5
    ipureintro
    sl_unfold_words
    refine (read_store_whole _ _ hz2 _ _ _).trans ?_
    simp only [View.readAt_eq_ld, Memref.IsWhole.read_unread, View.ld_unit_zero (S := S64x1) hz2,
      View.ld_unit_zero (S := S64x128) hz2, View.ld_unit_zero (S := S64x512x128) hz3,
      View.readCov_unit_zero (S := S64x128) _ hz2]
    rfl
  isplitl [H6]
  · iexists _; isplitr; swap; · iexact H6
    ipureintro
    sl_unfold_words
    refine (read_store_whole _ _ hz2 _ _ _).trans ?_
    simp only [View.readAt_eq_ld, Memref.IsWhole.read_unread, View.ld_unit_zero (S := S64x1) hz2,
      View.ld_unit_zero (S := S64x128) hz2, View.ld_unit_zero (S := S64x512x128) hz3,
      View.readCov_unit_zero (S := S64x128) _ hz2]
    rfl
  · iexists _; isplitr; swap; · iexact H7
    ipureintro
    sl_unfold_words
    refine (read_store_whole _ _ hz2 _ _ _).trans ?_
    simp only [View.readAt_eq_ld, Memref.IsWhole.read_unread, View.ld_unit_zero (S := S64x1) hz2,
      View.ld_unit_zero (S := S64x128) hz2, View.ld_unit_zero (S := S64x512x128) hz3,
      View.readCov_unit_zero (S := S64x128) _ hz2]
    rfl

end Cert.Kernel.Hand

end
-- ==== Proof.K.R0Dat.lean ====
/-
  The reduction region's proof data.  The grid has 8 points t = 4·i0 + j: two row blocks of 64 rows, four time
  blocks of 512 steps each.  After point t the three scratch buffers hold the running sums over the time blocks
  0..j of row block i0 (restarting at j = 0); the output block is written at j = 3 only, with the features of the
  finished sums, and is idle before.
-/
import proofs.«421534_j64965675320093_2_alg».proof.Proof.K.R0Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 64 lengths of the point's row block. -/
abbrev lenBlk (c : Dev nD) (t : Fin cfg0.N) : Vec F S64x1 .i32 := iblk0 V c 0 t
/-- The point's 64 × 512 × 128 block of samples. -/
abbrev xBlk (c : Dev nD) (t : Fin cfg0.N) : Vec F S64x512x128 .f32 := iblk0 V c 1 t

/-- One point's update of the three running sums. -/
def stepFrom (c : Dev nD) (t : Fin cfg0.N) (p : Vec F S64x128 .f32 × Vec F S64x128 .f32 × Vec F S64x128 .f32) :
    Vec F S64x128 .f32 × Vec F S64x128 .f32 × Vec F S64x128 .f32 :=
  (sumStep (grid0.coords t) (lenBlk V c t) (xBlk V c t) p.1,
   sqStep (grid0.coords t) (lenBlk V c t) (xBlk V c t) p.2.1,
   lastStep (grid0.coords t) (lenBlk V c t) (xBlk V c t) p.2.2)

/-- The three running sums after point n: restarted from zero where the time axis restarts (n ≡ 0 mod 4), continued otherwise. -/
def accAt (c : Dev nD) : (n : ℕ) → n < cfg0.N → Vec F S64x128 .f32 × Vec F S64x128 .f32 × Vec F S64x128 .f32
  | 0, hn => stepFrom V c ⟨0, hn⟩ (zeroAcc, zeroAcc, zeroAcc)
  | n + 1, hn =>
    if (n + 1) % 4 = 0 then stepFrom V c ⟨n + 1, hn⟩ (zeroAcc, zeroAcc, zeroAcc)
    else stepFrom V c ⟨n + 1, hn⟩ (accAt c n (Nat.lt_of_succ_lt hn))

theorem accAt_first (c : Dev nD) (t : Fin cfg0.N) (h : t.val % 4 = 0) :
    accAt V c t.val t.isLt = stepFrom V c t (zeroAcc, zeroAcc, zeroAcc) := by
  obtain ⟨n, hn⟩ := t
  cases n with
  | zero => rfl
  | succ n => exact if_pos h

theorem accAt_next (c : Dev nD) (t : Fin cfg0.N) (h : ¬ t.val % 4 = 0) :
    accAt V c t.val t.isLt = stepFrom V c t (accAt V c (t.val - 1) (Nat.lt_of_le_of_lt (Nat.sub_le _ _) t.isLt)) := by
  obtain ⟨n, hn⟩ := t
  cases n with
  | zero => exact absurd (Nat.zero_mod _) h
  | succ n => exact if_neg h

/-- The features a point's sums give (written to the output block where the time axis ends). -/
def featsAt (c : Dev nD) (t : Fin cfg0.N) : Vec F S64x384 .f32 :=
  featsOf (lenBlk V c t) (accAt V c t.val t.isLt).1 (accAt V c t.val t.isLt).2.1 (accAt V c t.val t.isLt).2.2

/-- The second kernel's six staging buffers, which this region does not use, each whole at some contents. -/
def otherStage (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f))

/-- The class invariant (the scoped buffers that are no staging buffer of this region, the generator register) with
    the three scratch operands as memrefs owned at some contents. -/
theorem PhiA0_split (c : Dev nD) :
    (Pipeline.ΦA spec0 c : sProp 𝕄) ⊢ iprop((∃ d, owns (c : Thread nD τ) scM0 fullShare d) ∗ (∃ d, owns (c : Thread nD τ) scM1 fullShare d)
      ∗ (∃ d, owns (c : Thread nD τ) scM2 fullShare d) ∗ otherStage (F := F) c ∗ (∃ r, prngReg c r)) := by
  unfold Pipeline.ΦA otherStage; rw [scopedRest0_eq]; simp only [scM0, scM1, scM2, owns_whole]
  iintro ⟨⟨H0, H1, H2, H3, H4, H5, H6, H7, H8⟩, Hg⟩
  isplitl [H0]; · iexact H0
  isplitl [H1]; · iexact H1
  isplitl [H2]; · iexact H2
  isplitr [Hg]
  · isplitl [H3]; · iexact H3
    isplitl [H4]; · iexact H4
    isplitl [H5]; · iexact H5
    isplitl [H6]; · iexact H6
    isplitl [H7]; · iexact H7
    iexact H8
  iexact Hg
theorem PhiA0_join (c : Dev nD) :
    iprop((∃ d, owns (c : Thread nD τ) scM0 fullShare d) ∗ (∃ d, owns (c : Thread nD τ) scM1 fullShare d)
      ∗ (∃ d, owns (c : Thread nD τ) scM2 fullShare d) ∗ otherStage (F := F) c ∗ (∃ r, prngReg c r)) ⊢ (Pipeline.ΦA spec0 c : sProp 𝕄) := by
  unfold Pipeline.ΦA otherStage; rw [scopedRest0_eq]; simp only [scM0, scM1, scM2, owns_whole]
  iintro ⟨H0, H1, H2, ⟨H3, H4, H5, H6, H7, H8⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- The region's invariant before point n: at the start the class invariant; afterwards the three scratch buffers at
    the running sums the point before left, the other scoped buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (accAt V c n hn).1
      ∗ owns (c : Thread nD τ) scM1 fullShare (accAt V c n hn).2.1
      ∗ owns (c : Thread nD τ) scM2 fullShare (accAt V c n hn).2.2
      ∗ otherStage (F := F) c ∗ (∃ r, prngReg c r))

theorem PhiS0_zero (c : Dev nD) (n : ℕ) (h : n ≤ cfg0.N) (hz : n = 0) : PhiS0 V c n h = Pipeline.ΦA spec0 c := by
  subst hz; rfl

/-- Before a point that is not the first: the three scratch buffers at the running sums the point before left. -/
theorem PhiS0_pos (c : Dev nD) (n : ℕ) (h : n ≤ cfg0.N) (hz : n ≠ 0) :
    PhiS0 V c n h = iprop(owns (c : Thread nD τ) scM0 fullShare (accAt V c (n - 1) (by omega)).1
      ∗ owns (c : Thread nD τ) scM1 fullShare (accAt V c (n - 1) (by omega)).2.1
      ∗ owns (c : Thread nD τ) scM2 fullShare (accAt V c (n - 1) (by omega)).2.2
      ∗ otherStage (F := F) c ∗ (∃ r, prngReg c r)) := by
  cases n with
  | zero => exact absurd rfl hz
  | succ n => rfl

/-- After point n (before point n + 1): the three scratch buffers at that point's running sums. -/
theorem PhiS0_succ (c : Dev nD) (n : ℕ) (hn : n < cfg0.N) :
    PhiS0 V c (n + 1) hn = iprop(owns (c : Thread nD τ) scM0 fullShare (accAt V c n hn).1
      ∗ owns (c : Thread nD τ) scM1 fullShare (accAt V c n hn).2.1
      ∗ owns (c : Thread nD τ) scM2 fullShare (accAt V c n hn).2.2
      ∗ otherStage (F := F) c ∗ (∃ r, prngReg c r)) := rfl

/-- The proof data of the reduction's pipeline on core c: the arrays as the region finds them; after the body each
    input's buffer at its block, the output's at the features of the point's sums (consulted only where the time axis
    ends); the invariant PhiS0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => featsAt V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = featsAt V c t := by dsimp only [dat0]

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## Where the windows are live, where the output is idle -/

/-- The two inputs are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output is idle wherever the time axis does not end, and is not written back there. -/
theorem idleAt0_2 : ∀ t : Fin cfg0.N, ¬ isLast (grid0.coords t) → cfg0.idle 2 (grid0.coords t) = true := by decide +kernel
theorem noFlush0_2 : ∀ t : Fin cfg0.N, ¬ isLast (grid0.coords t) → (cfg0.win 2).flush t = false := by decide +kernel
/-- Where the time axis ends the output is live. -/
theorem liveAt0_2 : ∀ t : Fin cfg0.N, isLast (grid0.coords t) → cfg0.idle 2 (grid0.coords t) = false := by decide +kernel

/-! ## What the body finds in the inputs' buffers, what it leaves in the windows' -/

/-- The lengths' buffer holds the point's row block at every point, although it is fetched only where the time
    axis restarts: in between the block index does not move. -/
theorem before0_0 (c : Dev nD) (t : Fin cfg0.N) (d) : (dat0 V c).before 0 t d = iblk0 V c 0 t := by
  have hkeep : ∀ t, (cfg0.win 0).cut (cfg0.grid.coords t) ((dat0 V c).after 0 t) = (dat0 V c).blockOf 0 t := fun t => by
    rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The samples' buffer holds the point's block (it is fetched at every point). -/
theorem before0_1 (c : Dev nD) (t : Fin cfg0.N) (d) : (dat0 V c).before 1 t d = iblk0 V c 1 t := by
  have hkeep : ∀ t, (cfg0.win 1).cut (cfg0.grid.coords t) ((dat0 V c).after 1 t) = (dat0 V c).blockOf 1 t := fun t => by
    rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-- The body leaves each input's buffer at its block. -/
theorem leaves0_0 (c : Dev nD) (t : Fin cfg0.N) :
    (dat0 V c).leavesExact 0 t = owns (c : Thread nD τ) (win0_0.stage (cfg0.slots t 0)) fullShare (lenBlk V c t) := by
  unfold Dat.leavesExact; rw [liveAt0_0 t, after0_0]
theorem leaves0_1 (c : Dev nD) (t : Fin cfg0.N) :
    (dat0 V c).leavesExact 1 t = owns (c : Thread nD τ) (win0_1.stage (cfg0.slots t 1)) fullShare (xBlk V c t) := by
  unfold Dat.leavesExact; rw [liveAt0_1 t, after0_1]
/-- Where the time axis does not end the output's buffer is handed back as found. -/
theorem leaves0_2_idle (c : Dev nD) (t : Fin cfg0.N) (h : ¬ t.val % 4 = 3) :
    (dat0 V c).leavesExact 2 t = iprop(∃ d, owns (c : Thread nD τ) (win0_2.stage (cfg0.slots t 2)) fullShare ((dat0 V c).before 2 t d)) :=
  Dat.leavesExact_idle (dat0 V c) 2 t (idleAt0_2 t fun hl => h ((isLast_iff t).mp hl)) (noFlush0_2 t fun hl => h ((isLast_iff t).mp hl))
/-- Where it ends, the output's buffer is left at the features of the point's sums. -/
theorem leaves0_2_live (c : Dev nD) (t : Fin cfg0.N) (h : t.val % 4 = 3) :
    (dat0 V c).leavesExact 2 t = owns (c : Thread nD τ) (win0_2.stage (cfg0.slots t 2)) fullShare (featsAt V c t) := by
  unfold Dat.leavesExact; rw [liveAt0_2 t ((isLast_iff t).mpr h), after0_2]

/-! ## The body obligation, at a generic point -/

/-- What the body is called with at point t: the invariant, nothing owed, each window's current buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d)))

/-- What it returns: the next invariant, nothing owed, each window's current buffer at what the body leaves. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The body at any point.  The inputs' buffers hold the point's blocks.  Where the time axis restarts the scratch is
    handed over at whatever it holds (the class invariant at the very first point, the previous row block's finished
    sums afterwards, forgotten) and comes back one step from zero; elsewhere it is handed over at the running sums of
    the point before and comes back one step further; where the axis ends the output's buffer comes back at the
    features of the finished sums, and elsewhere it comes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, leaves0_0, leaves0_1, PhiS0_castSucc]
  have hN : t.val < 8 := lt_of_lt_of_eq t.isLt (show cfg0.N = 8 from N_0)
  by_cases h0 : t.val % 4 = 0
  · have h1 : ¬ t.val % 4 = 3 := by omega
    have hF : isFirst (grid0.coords t) := (isFirst_iff t).mpr h0
    have hL : ¬ isLast (grid0.coords t) := fun h => h1 ((isLast_iff t).mp h)
    rw [leaves0_2_idle V c t h1, accAt_first V c t h0]
    unfold stepFrom; dsimp only
    by_cases hz : t.val = 0
    · rw [PhiS0_zero V c _ _ hz]
      iintro ⟨HA, Ho, ⟨%d0, H0⟩, ⟨%d1, H1⟩, H2⟩
      icases (PhiA0_split c) $$ HA with ⟨S0, S1, S2, Hst, Hg⟩
      iapply (run_first c Set.univ (grid0.coords t) hF hL _ _ _ _ _ _ _ _ _ _ _ _ (lenBlk V c t) (xBlk V c t) _)
      isplitl [H0]; · iexact H0
      isplitl [H1]; · iexact H1
      isplitl [S0]; · iexact S0
      isplitl [S1]; · iexact S1
      isplitl [S2]; · iexact S2
      iintro ⟨H0, H1, S0, S1, S2⟩
      isplitl [S0 S1 S2 Hst Hg]
      · isplitl [S0]; · iexact S0
        isplitl [S1]; · iexact S1
        isplitl [S2]; · iexact S2
        isplitl [Hst]; · iexact Hst
        iexact Hg
      isplitl [Ho]; · iexact Ho
      isplitl [H0]; · iexact H0
      isplitl [H1]; · iexact H1
      iexact H2
    · rw [PhiS0_pos V c _ _ hz]
      iintro ⟨⟨S0, S1, S2, Hst, Hg⟩, Ho, ⟨%d0, H0⟩, ⟨%d1, H1⟩, H2⟩
      iapply (run_first c Set.univ (grid0.coords t) hF hL _ _ _ _ _ _ _ _ _ _ _ _ (lenBlk V c t) (xBlk V c t) _)
      isplitl [H0]; · iexact H0
      isplitl [H1]; · iexact H1
      isplitl [S0]; · iexists _; iexact S0
      isplitl [S1]; · iexists _; iexact S1
      isplitl [S2]; · iexists _; iexact S2
      iintro ⟨H0, H1, S0, S1, S2⟩
      isplitl [S0 S1 S2 Hst Hg]
      · isplitl [S0]; · iexact S0
        isplitl [S1]; · iexact S1
        isplitl [S2]; · iexact S2
        isplitl [Hst]; · iexact Hst
        iexact Hg
      isplitl [Ho]; · iexact Ho
      isplitl [H0]; · iexact H0
      isplitl [H1]; · iexact H1
      iexact H2
  · have hz : t.val ≠ 0 := fun hz => h0 (by rw [hz])
    have hF : ¬ isFirst (grid0.coords t) := fun h => h0 ((isFirst_iff t).mp h)
    by_cases h1 : t.val % 4 = 3
    · have hL : isLast (grid0.coords t) := (isLast_iff t).mpr h1
      rw [leaves0_2_live V c t h1]
      unfold featsAt
      rw [accAt_next V c t h0]
      unfold stepFrom; dsimp only
      rw [PhiS0_pos V c _ _ hz]
      iintro ⟨⟨S0, S1, S2, Hst, Hg⟩, Ho, ⟨%d0, H0⟩, ⟨%d1, H1⟩, ⟨%d2, H2⟩⟩
      iapply (run_last c Set.univ (grid0.coords t) hF hL _ _ _ _ _ _ _ _ _ _ _ _ (lenBlk V c t) (xBlk V c t) _ _ _ _)
      isplitl [H0]; · iexact H0
      isplitl [H1]; · iexact H1
      isplitl [H2]; · iexists _; iexact H2
      isplitl [S0]; · iexact S0
      isplitl [S1]; · iexact S1
      isplitl [S2]; · iexact S2
      iintro ⟨H0, H1, H2, S0, S1, S2⟩
      isplitl [S0 S1 S2 Hst Hg]
      · isplitl [S0]; · iexact S0
        isplitl [S1]; · iexact S1
        isplitl [S2]; · iexact S2
        isplitl [Hst]; · iexact Hst
        iexact Hg
      isplitl [Ho]; · iexact Ho
      isplitl [H0]; · iexact H0
      isplitl [H1]; · iexact H1
      iexact H2
    · have hL : ¬ isLast (grid0.coords t) := fun h => h1 ((isLast_iff t).mp h)
      rw [leaves0_2_idle V c t h1, accAt_next V c t h0]
      unfold stepFrom; dsimp only
      rw [PhiS0_pos V c _ _ hz]
      iintro ⟨⟨S0, S1, S2, Hst, Hg⟩, Ho, ⟨%d0, H0⟩, ⟨%d1, H1⟩, H2⟩
      iapply (run_mid c Set.univ (grid0.coords t) hF hL _ _ _ _ _ _ _ _ _ _ _ _ (lenBlk V c t) (xBlk V c t) _ _ _ _)
      isplitl [H0]; · iexact H0
      isplitl [H1]; · iexact H1
      isplitl [S0]; · iexact S0
      isplitl [S1]; · iexact S1
      isplitl [S2]; · iexact S2
      iintro ⟨H0, H1, S0, S1, S2⟩
      isplitl [S0 S1 S2 Hst Hg]
      · isplitl [S0]; · iexact S0
        isplitl [S1]; · iexact S1
        isplitl [S2]; · iexact S2
        isplitl [Hst]; · iexact Hst
        iexact Hg
      isplitl [Ho]; · iexact Ho
      isplitl [H0]; · iexact H0
      isplitl [H1]; · iexact H1
      iexact H2

/-- The body obligation of the reduction region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class invariant back: the sums' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 8 := N_0; omega)]
  refine BIBase.Entails.trans ?_ (PhiA0_join c)
  iintro ⟨H0, H1, H2, Ho, Hg⟩
  isplitl [H0]; · iexists _; iexact H0
  isplitl [H1]; · iexists _; iexact H1
  isplitl [H2]; · iexists _; iexact H2
  isplitl [Ho]; · iexact Ho
  iexact Hg

end Cert.Kernel.Hand

end
-- ==== Proof.K.R1.lean ====
/-
  The second kernel region (the two-layer perceptron on the 128 × 384 features): one grid point, every operand one
  whole block.  The output block is relu(feats · W1 + b1) · W2 + b2.
-/
import proofs.«421534_j64965675320093_2_alg».proof.Proof.Gen.Kernel.Launch
import proofs.«421534_j64965675320093_2_alg».proof.Proof.Gen.Kernel.Skeleton
import proofs.«421534_j64965675320093_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block: the perceptron of the five input blocks. -/
def mlpOut (c : Dev nD) (t : Fin cfg1.N) : Vec F S128x8 .f32 :=
  k1_pay1 (iblk1 V c 0 t) (iblk1 V c 1 t) (iblk1 V c 2 t) (iblk1 V c 3 t) (iblk1 V c 4 t)

/-- The proof data of the perceptron's pipeline on core c: the arrays as the region finds them; after the body each
    input's buffer at its block, the output's at mlpOut; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => mlpOut V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_5 (c : Dev nD) (t : Fin cfg1.N) : (dat1 V c).after 5 t = mlpOut V c t := by dsimp only [dat1]

/-! ## What the body finds in the input windows' buffers

The grid has one point and every input window is fetched there; its block is its whole array, nothing cut off: the
buffer the body reads holds the window's block. -/

theorem before1_0 (c : Dev nD) (t : Fin cfg1.N) (d) : (dat1 V c).before 0 t d = iblk1 V c 0 t :=
  ((dat1 V c).before_fetched 0 t (fetch1_0 t) d).trans (by unfold Dat.fetched Dat.blockOf iblk1; rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rfl)
theorem before1_2 (c : Dev nD) (t : Fin cfg1.N) (d) : (dat1 V c).before 2 t d = iblk1 V c 2 t :=
  ((dat1 V c).before_fetched 2 t (fetch1_2 t) d).trans (by unfold Dat.fetched Dat.blockOf iblk1; rfl)
theorem before1_3 (c : Dev nD) (t : Fin cfg1.N) (d) : (dat1 V c).before 3 t d = iblk1 V c 3 t :=
  ((dat1 V c).before_fetched 3 t (fetch1_3 t) d).trans (by unfold Dat.fetched Dat.blockOf iblk1; rfl)
theorem before1_4 (c : Dev nD) (t : Fin cfg1.N) (d) : (dat1 V c).before 4 t d = iblk1 V c 4 t :=
  ((dat1 V c).before_fetched 4 t (fetch1_4 t) d).trans (by unfold Dat.fetched Dat.blockOf iblk1; rfl)

/-! ## A rectangle that is the whole buffer

The body reads and writes every buffer through the rectangle of the buffer's own extents at offset zero. Such a
rectangle holds every index of the buffer, and its local indices are the buffer's: a read through it is the
contents, and one write through it leaves the written values. -/

private theorem zeros1 : (![0] : Fin 1 → Nat) = fun _ => 0 := funext fun a => by fin_cases a <;> rfl
private theorem zeros2 : (![0, 0] : Fin 2 → Nat) = fun _ => 0 := funext fun a => by fin_cases a <;> rfl

section Full
variable {S : Shape} {e : EltTy} {off : Fin S.rank → Nat}

private theorem full_emb (h : off = fun _ => 0) (inb : ∀ a, off a + S.size a ≤ S.size a)
    (x : (Rect.unit off S.size inb).shape.Idx) : (Rect.unit off S.size inb).emb x = x := by
  subst h; exact Rect.emb_whole_apply S x

private theorem full_mem (h : off = fun _ => 0) (inb : ∀ a, off a + S.size a ≤ S.size a) (y : S.Idx) :
    y ∈ (Rect.unit off S.size inb).set := by
  subst h; rw [Rect.mem_set_unit]; intro a; exact ⟨Nat.zero_le _, by rw [Nat.zero_add]; exact (y a).isLt⟩

private theorem full_ld (h : off = fun _ => 0) (inb : ∀ a, off a + S.size a ≤ S.size a) (X : S.Idx → Elt F e) :
    View.ld X (Rect.unit off S.size inb) = X :=
  funext fun x => congrArg X (full_emb h inb x)

private theorem full_canon (h : off = fun _ => 0) (inb : ∀ a, off a + S.size a ≤ S.size a) (w : S.Idx → Elt F e) :
    View.canon [(⟨Rect.unit off S.size inb, w⟩ : View.Piece (Elt F) S e)] = w :=
  funext fun y => by
    have := View.canon_cons_emb (Rect.unit off S.size inb) w [] y
    rwa [full_emb h inb] at this

end Full

/-! ## The body's one store

The body reads the five input buffers whole, computes the perceptron of what it read, reads the output buffer (a
value it does not use) and writes the output buffer whole, once. -/

/-- The whole output buffer as a rectangle. -/
private abbrev rOut : Rect S128x8 := Rect.unit (s := S128x8) ![0, 0] S128x8.size inb_S128x8_S128x8_0_0

/-- The one store covers the output buffer. -/
private theorem coverOut (p : Vec F S128x8 .f32) (y : S128x8.Idx) :
    ∃ pc ∈ ([⟨rOut, p⟩] : List (View.Piece (Elt F) S128x8 .f32)), y ∈ pc.1.set :=
  ⟨_, List.mem_singleton_self _, full_mem zeros2 inb_S128x8_S128x8_0_0 y⟩

set_option maxHeartbeats 1000000 in
/-- The body on whole buffers, the inputs' reading x0 … x4 and the output's anything, runs to the continuation
    holding the inputs' as they were and the output's at the perceptron of x0 … x4. -/
theorem sound_kernel1 (c : Dev nD) (E : Set ℕ) (i : grid1.Coords)
    (arg1 : Memref sig .tc .vmem S128x384 .f32) (harg1 : arg1.IsWhole) (arg2 : Memref sig .tc .vmem S384x64 .f32) (harg2 : arg2.IsWhole)
    (arg3 : Memref sig .tc .vmem S64 .f32) (harg3 : arg3.IsWhole) (arg4 : Memref sig .tc .vmem S64x8 .f32) (harg4 : arg4.IsWhole)
    (arg5 : Memref sig .tc .vmem S8 .f32) (harg5 : arg5.IsWhole) (arg6 : Memref sig .tc .vmem S128x8 .f32) (harg6 : arg6.IsWhole)
    (x0 : Vec F S128x384 .f32) (x1 : Vec F S384x64 .f32) (x2 : Vec F S64 .f32) (x3 : Vec F S64x8 .f32) (x4 : Vec F S8 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay1 x0 x1 x2 x3 x4)) -∗ K ⟨⟩))
      ⊢ wp frame (wpE (defs₀ (F := F)) Variants.none c none) E
          (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  refine (View.read_writes_eq_canon _ _ _ (coverOut _)).trans ?_
  rw [full_canon zeros2]
  simp only [View.readAt_eq_ld, full_ld (S := S128x384) zeros2, full_ld (S := S384x64) zeros2, full_ld (S := S64) zeros1,
    full_ld (S := S64x8) zeros2, full_ld (S := S8) zeros1]

/-! ## The body at the point

What the data say the body leaves, window by window; then the obligation with its windows written out one by one:
the five input buffers hold their blocks, so the body's triple applies, and the invariant and the core's debts pass
through untouched. -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

/-- What the body is handed at point t: the invariant, the core's debts, and each window's current buffer at what it
    then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back: the same invariant and debts, each buffer at what the data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold mlpOut
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the perceptron region, at its one point. -/
theorem body_obligation1 (c : Dev nD) : BodyObligation (dat1 (F := F) V c) (defs₀ (F := F)) Variants.none () Set.univ := by
  intro t
  rw [bigSep_W1, bigSep_W1]
  exact sound_body1 V c t

end Cert.Kernel.Hand

end
-- ==== Proof.K.Run.lean ====
/-
  The whole program as three segments — the reshape of the lengths on the host, the reduction region, the perceptron
  region — and its run: every weakly fair execution terminates, and at the end every unscoped buffer holds the last
  boundary's contents.  Between segments the core's buffers are a fold from the launch memory: the host stretch's
  result, then each region's arrays at what its write-backs leave.
-/
import proofs.«421534_j64965675320093_2_alg».proof.Proof.K.R0Dat
import proofs.«421534_j64965675320093_2_alg».proof.Proof.K.R1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the host reshape (the reduction region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the reduction region's exit (the perceptron region's entry): its arrays at what the pipeline leaves. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- At the perceptron region's exit. -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

/-! ## No segment writes an argument -/

/-- The host reshape writes the reshaped lengths' buffer and no other. -/
theorem W1_of_ne (c : Dev nD) (r : Ref sig .tc) (h : r ≠ main_v0) :
    W1 m ρ c (Proc.devRef .tc r) = W0 m ρ c (Proc.devRef .tc r) :=
  StableHlo.after_of_forall_not_mem (b := Proc.devRef .tc r) _ _ (List.forall_iff_forall_mem.mp (by
    simp only [hostOps0, List.Forall, StableHlo.reshape_writes, Finset.mem_singleton]
    exact StableHlo.devRef_ne_of_ne h))

/-- An input window's array of the reduction region leaves the region as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- An input window's array of the perceptron region leaves the region as it entered. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))

-- the reduction region reads the sequences through its second window; the perceptron region bypasses them
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_in m ρ c 1 rfl
    _ = W0 m ρ c (Proc.devRef .tc main_arg0) := W1_of_ne m ρ c main_arg0 (by decide)
    _ = m ((c : Thread nD τ).loc main_arg0) := rfl
-- the lengths as launched are read by the host reshape only, which writes its own result
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl
-- the perceptron's weights and biases: inputs of the second region (its windows 1 to 4), bypassed by the first
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_in m ρ c 1 rfl
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_in m ρ c 2 rfl
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_in m ρ c 3 rfl
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_in m ρ c 4 rfl
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-- The program's result buffer at the end: the perceptron region's output array after its write-back. -/
theorem W3_main_v2 (c : Dev nD) : W3 m ρ c (Proc.devRef .tc main_v2) = (dat1 (V2 m ρ) c).arrAt 5 cfg1.N :=
  W3_arr m ρ c 5

/-! ## The run -/

/-- At the reduction region's exit each of its arrays holds what the pipeline leaves and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- The same at the perceptron region's exit. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: the reduction's at the contents after the host
    reshape, the perceptron's at what the reduction leaves. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped buffers from the contents W, R riding along: it leaves them at
    the contents after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The host reshape allocates no buffer. -/
theorem hostOps0_fresh : (hostOps0 : List (HloOp τ sig (Elt F))).Forall fun op => op.fresh = ∅ := by
  simp only [List.Forall]; repeat' constructor
/-- The last thread state beside the core owing nothing: every unscoped buffer at the last boundary's contents, the
    generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The reduction region over the thread state: entered from every unscoped buffer at W1, left at W2.  Its arrays
    are split out of the unscoped buffers and put back at the exit contents; the generator register and the scoped
    rest make the class invariant, which is the region's invariant before the first point, and the invariant after
    the last point gives them back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine BIBase.Entails.trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The perceptron region over the thread state: entered from every unscoped buffer at W2 (no host operation stands
    between the regions), left at W3, which the launch reads at the end.  Its invariant is the class invariant at
    every point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the host reshape from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments: both are the same chain of items. -/
theorem main_run (c : Dev nD) : main (F := F) c = Pipeline.Seg.run (segs m ρ) := (main_chain c).trans (by chain_rfl)

set_option backward.isDefEq.respectTransparency.types false in
/-- Every weakly fair execution of the program terminates, nothing faulting, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run read at the result and the six arguments. -/
theorem run_value : θ_run defs (onTc (τ := τ) (main (F := F))) ⟨m, fun _ => 0, ρ⟩ (fun r => ∀ c : Dev nD,
      r.2.mem ((c.tc : Thread nD τ).loc main_v2) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

/-- The frame: the program runs to the end and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ)

end Cert.Kernel.Hand

end
-- ==== Proof.KI.R0Defs.lean ====
/-
  The first kernel region (the masked reduction over time), point by point.  A grid point (i0, j) holds a block of
  64 rows and 512 time steps.  Three running sums per (row, feature) live in scratch between points: the masked sum of
  x, the masked sum of x², and the sum of x against the indicator of the last valid step.  At j = 0 they restart from
  zero, at every point the block's contribution is added, and at j = 3 the features (mean, standard deviation, last
  valid row) are written to the output block.
-/
import proofs.«421534_j64965675320093_2_alg».proof.Proof.Gen.KernelIdeal.Launch
import proofs.«421534_j64965675320093_2_alg».proof.Proof.Gen.KernelIdeal.Skeleton
import proofs.«421534_j64965675320093_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The time axis restarts: the second grid coordinate is 0. -/
abbrev isFirst (i : grid0.Coords) : Prop :=
  (Scalar.cmpi .ne (Scalar.extui (Scalar.cmpi .eq (BitVec.ofNat 32 (i 1).val) 0#32)) 0#32) = 1#1
/-- The time axis ends: the second grid coordinate is 3. -/
abbrev isLast (i : grid0.Coords) : Prop := k0_cond2 i = 1#1

theorem isFirst_iff : ∀ t : Fin cfg0.N, isFirst (grid0.coords t) ↔ t.val % 4 = 0 :=
  (by decide +kernel : ∀ t : Fin grid0.N, isFirst (grid0.coords t) ↔ t.val % 4 = 0)
theorem isLast_iff : ∀ t : Fin cfg0.N, isLast (grid0.coords t) ↔ t.val % 4 = 3 :=
  (by decide +kernel : ∀ t : Fin grid0.N, isLast (grid0.coords t) ↔ t.val % 4 = 3)

/-- The running sums' start: all zeros. -/
def zeroAcc : Vec F S64x128 .f32 := k0_pay4 (F := F)

/-- The masked sum of x after one more block: a + Σ_t x[·,t,·]·[t < len]. -/
def sumStep (i : grid0.Coords) (L : Vec F S64x1 .i32) (X : Vec F S64x512x128 .f32) (a : Vec F S64x128 .f32) : Vec F S64x128 .f32 :=
  k0_pay12 i L X a
/-- The masked sum of x² after one more block: a + Σ_t x²·[t < len]. -/
def sqStep (i : grid0.Coords) (L : Vec F S64x1 .i32) (X : Vec F S64x512x128 .f32) (a : Vec F S64x128 .f32) : Vec F S64x128 .f32 :=
  k0_pay1 (k0_pay13 i L X a)
/-- The last-valid-step pick after one more block: a + Σ_t x·[t = len − 1]. -/
def lastStep (i : grid0.Coords) (L : Vec F S64x1 .i32) (X : Vec F S64x512x128 .f32) (a : Vec F S64x128 .f32) : Vec F S64x128 .f32 :=
  k0_pay2 X (k0_pay11 i L) a
/-- The features of 64 rows from the three finished sums: mean = s/n, std = √max((q − n·mean·mean)/(n − 1), 0), last. -/
def featsOf (L : Vec F S64x1 .i32) (s q l : Vec F S64x128 .f32) : Vec F S64x384 .f32 :=
  k0_pay3 (k0_pay8 L) s q l

/-- The three scratch operands as whole memrefs. -/
abbrev scM0 : Memref sig .tc .vmem S64x128 .f32 := Memref.whole cc0_scratch0
abbrev scM1 : Memref sig .tc .vmem S64x128 .f32 := Memref.whole cc0_scratch1
abbrev scM2 : Memref sig .tc .vmem S64x128 .f32 := Memref.whole cc0_scratch2

end Cert.KernelIdeal.Hand

end
-- ==== Proof.KI.R0Run.lean ====
/-
  The reduction kernel's body as a triple, in each of the three situations a grid point can be in: the first step of
  the time axis (the sums restart from zero), a middle step (the sums continue), the last step (the sums continue and
  the features are written).  In each, the scratch buffers end at the step functions of what they held.
-/
import proofs.«421534_j64965675320093_2_alg».proof.Proof.KI.R0Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 and of a rank-3 access, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- A store through the whole-shape rectangle at zero offsets, made last, read back through the view, is its payload,
    whatever was stored before it and whatever the buffer held. -/
private theorem read_store_whole {S : Shape} {e : EltTy} (v : View sig .tc .vmem S e) (f : v.ty.Contents (Elt F))
    {off : Fin S.rank → Nat} (h : off = fun _ => 0) (inb : ∀ a, off a + S.size a ≤ S.size a) (w : S.Idx → Elt F e)
    (Ls : List (View.Piece (Elt F) S e)) :
    v.read (Elt F) (v.writes (Elt F) f ((⟨Rect.unit off S.size inb, w⟩ : View.Piece (Elt F) S e) :: Ls)) = w := by
  rw [View.read_writes_eq_canon _ _ _ (fun y => ⟨_, List.mem_cons_self, View.mem_set_unit_zero h inb y⟩),
    View.canon_cons_unit_zero h]

/-- First step of the time axis: whatever the scratch held, it ends at one step from zero; the output buffer is not touched. -/
theorem run_first (c : Dev nD) (E : Set ℕ) (i : grid0.Coords) (hF : isFirst i) (hL : ¬ isLast i)
    (arg2 : Memref sig .tc .vmem S64x1 .i32) (harg2 : arg2.IsWhole) (arg3 : Memref sig .tc .vmem S64x512x128 .f32) (harg3 : arg3.IsWhole) (arg4 : Memref sig .tc .vmem S64x384 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole)
    (L : Vec F S64x1 .i32) (X : Vec F S64x512x128 .f32) (K : PUnit → sProp 𝕄) :
    iprop(owns (c : Thread nD τ) arg2 fullShare L ∗ owns (c : Thread nD τ) arg3 fullShare X
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare L ∗ owns (c : Thread nD τ) arg3 fullShare X
            ∗ owns (c : Thread nD τ) arg5 fullShare (sumStep i L X zeroAcc)
            ∗ owns (c : Thread nD τ) arg6 fullShare (sqStep i L X zeroAcc)
            ∗ owns (c : Thread nD τ) arg7 fullShare (lastStep i L X zeroAcc)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%d5, %f5, -, H5⟩, ⟨%d6, %f6, -, H6⟩, ⟨%d7, %f7, -, H7⟩, Hk⟩
  obtain rfl := harg2.eq_unread hf2; obtain rfl := harg3.eq_unread hf3
  sl_exec (disch := first | exact hF | exact hL)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; swap; · iexact H5
    ipureintro
    refine (read_store_whole _ _ hz2 _ _ _).trans ?_
    sl_unfold_words
    simp only [View.readAt_eq_ld, Memref.IsWhole.read_unread, View.ld_unit_zero (S := S64x1) hz2,
      View.ld_unit_zero (S := S64x128) hz2, View.ld_unit_zero (S := S64x512x128) hz3,
      View.readCov_unit_zero (S := S64x128) _ hz2]
    rfl
  isplitl [H6]
  · iexists _; isplitr; swap; · iexact H6
    ipureintro
    refine (read_store_whole _ _ hz2 _ _ _).trans ?_
    sl_unfold_words
    simp only [View.readAt_eq_ld, Memref.IsWhole.read_unread, View.ld_unit_zero (S := S64x1) hz2,
      View.ld_unit_zero (S := S64x128) hz2, View.ld_unit_zero (S := S64x512x128) hz3,
      View.readCov_unit_zero (S := S64x128) _ hz2]
    rfl
  · iexists _; isplitr; swap; · iexact H7
    ipureintro
    refine (read_store_whole _ _ hz2 _ _ _).trans ?_
    sl_unfold_words
    simp only [View.readAt_eq_ld, Memref.IsWhole.read_unread, View.ld_unit_zero (S := S64x1) hz2,
      View.ld_unit_zero (S := S64x128) hz2, View.ld_unit_zero (S := S64x512x128) hz3,
      View.readCov_unit_zero (S := S64x128) _ hz2]
    rfl

/-- A middle step: the scratch continues from what it held; the output buffer is not touched. -/
theorem run_mid (c : Dev nD) (E : Set ℕ) (i : grid0.Coords) (hF : ¬ isFirst i) (hL : ¬ isLast i)
    (arg2 : Memref sig .tc .vmem S64x1 .i32) (harg2 : arg2.IsWhole) (arg3 : Memref sig .tc .vmem S64x512x128 .f32) (harg3 : arg3.IsWhole) (arg4 : Memref sig .tc .vmem S64x384 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole)
    (L : Vec F S64x1 .i32) (X : Vec F S64x512x128 .f32) (a b l : Vec F S64x128 .f32) (K : PUnit → sProp 𝕄) :
    iprop(owns (c : Thread nD τ) arg2 fullShare L ∗ owns (c : Thread nD τ) arg3 fullShare X
        ∗ owns (c : Thread nD τ) arg5 fullShare a ∗ owns (c : Thread nD τ) arg6 fullShare b ∗ owns (c : Thread nD τ) arg7 fullShare l
        ∗ (iprop(owns (c : Thread nD τ) arg2 fullShare L ∗ owns (c : Thread nD τ) arg3 fullShare X
            ∗ owns (c : Thread nD τ) arg5 fullShare (sumStep i L X a)
            ∗ owns (c : Thread nD τ) arg6 fullShare (sqStep i L X b)
            ∗ owns (c : Thread nD τ) arg7 fullShare (lastStep i L X l)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%f5, %hf5, H5⟩, ⟨%f6, %hf6, H6⟩, ⟨%f7, %hf7, H7⟩, Hk⟩
  obtain rfl := harg2.eq_unread hf2; obtain rfl := harg3.eq_unread hf3
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; swap; · iexact H5
    ipureintro
    refine (read_store_whole _ _ hz2 _ _ _).trans ?_
    simp only [View.readAt_eq_ld, Memref.IsWhole.read_unread, View.ld_unit_zero (S := S64x1) hz2,
      View.ld_unit_zero (S := S64x128) hz2, View.ld_unit_zero (S := S64x512x128) hz3]
    rfl
  isplitl [H6]
  · iexists _; isplitr; swap; · iexact H6
    ipureintro
    refine (read_store_whole _ _ hz2 _ _ _).trans ?_
    sl_unfold_words
    simp only [View.readAt_eq_ld, Memref.IsWhole.read_unread, View.ld_unit_zero (S := S64x1) hz2,
      View.ld_unit_zero (S := S64x128) hz2, View.ld_unit_zero (S := S64x512x128) hz3]
    rfl
  · iexists _; isplitr; swap; · iexact H7
    ipureintro
    refine (read_store_whole _ _ hz2 _ _ _).trans ?_
    sl_unfold_words
    simp only [View.readAt_eq_ld, Memref.IsWhole.read_unread, View.ld_unit_zero (S := S64x1) hz2,
      View.ld_unit_zero (S := S64x128) hz2, View.ld_unit_zero (S := S64x512x128) hz3]
    rfl

/-- The last step: the scratch continues from what it held, and the output buffer ends at the features of the finished sums. -/
theorem run_last (c : Dev nD) (E : Set ℕ) (i : grid0.Coords) (hF : ¬ isFirst i) (hL : isLast i)
    (arg2 : Memref sig .tc .vmem S64x1 .i32) (harg2 : arg2.IsWhole) (arg3 : Memref sig .tc .vmem S64x512x128 .f32) (harg3 : arg3.IsWhole) (arg4 : Memref sig .tc .vmem S64x384 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole)
    (L : Vec F S64x1 .i32) (X : Vec F S64x512x128 .f32) (a b l : Vec F S64x128 .f32) (K : PUnit → sProp 𝕄) :
    iprop(owns (c : Thread nD τ) arg2 fullShare L ∗ owns (c : Thread nD τ) arg3 fullShare X
        ∗ (∃ d, owns (c : Thread nD τ) arg4 fullShare d)
        ∗ owns (c : Thread nD τ) arg5 fullShare a ∗ owns (c : Thread nD τ) arg6 fullShare b ∗ owns (c : Thread nD τ) arg7 fullShare l
        ∗ (iprop(owns (c : Thread nD τ) arg2 fullShare L ∗ owns (c : Thread nD τ) arg3 fullShare X
            ∗ owns (c : Thread nD τ) arg4 fullShare (featsOf L (sumStep i L X a) (sqStep i L X b) (lastStep i L X l))
            ∗ owns (c : Thread nD τ) arg5 fullShare (sumStep i L X a)
            ∗ owns (c : Thread nD τ) arg6 fullShare (sqStep i L X b)
            ∗ owns (c : Thread nD τ) arg7 fullShare (lastStep i L X l)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%d4, %f4, -, H4⟩, ⟨%f5, %hf5, H5⟩, ⟨%f6, %hf6, H6⟩, ⟨%f7, %hf7, H7⟩, Hk⟩
  obtain rfl := harg2.eq_unread hf2; obtain rfl := harg3.eq_unread hf3
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    refine (read_store_whole _ _ hz2 _ _ _).trans ?_
    sl_unfold_words
    simp only [View.readAt_eq_ld, Memref.IsWhole.read_unread, View.ld_unit_zero (S := S64x1) hz2,
      View.ld_unit_zero (S := S64x128) hz2, View.ld_unit_zero (S := S64x512x128) hz3,
      View.readCov_unit_zero (S := S64x128) _ hz2]
    rfl
  isplitl [H5]
  · iexists _; isplitr; swap; · iexact H5
    ipureintro
    sl_unfold_words
    refine (read_store_whole _ _ hz2 _ _ _).trans ?_
    simp only [View.readAt_eq_ld, Memref.IsWhole.read_unread, View.ld_unit_zero (S := S64x1) hz2,
      View.ld_unit_zero (S := S64x128) hz2, View.ld_unit_zero (S := S64x512x128) hz3,
      View.readCov_unit_zero (S := S64x128) _ hz2]
    rfl
  isplitl [H6]
  · iexists _; isplitr; swap; · iexact H6
    ipureintro
    sl_unfold_words
    refine (read_store_whole _ _ hz2 _ _ _).trans ?_
    simp only [View.readAt_eq_ld, Memref.IsWhole.read_unread, View.ld_unit_zero (S := S64x1) hz2,
      View.ld_unit_zero (S := S64x128) hz2, View.ld_unit_zero (S := S64x512x128) hz3,
      View.readCov_unit_zero (S := S64x128) _ hz2]
    rfl
  · iexists _; isplitr; swap; · iexact H7
    ipureintro
    sl_unfold_words
    refine (read_store_whole _ _ hz2 _ _ _).trans ?_
    simp only [View.readAt_eq_ld, Memref.IsWhole.read_unread, View.ld_unit_zero (S := S64x1) hz2,
      View.ld_unit_zero (S := S64x128) hz2, View.ld_unit_zero (S := S64x512x128) hz3,
      View.readCov_unit_zero (S := S64x128) _ hz2]
    rfl

end Cert.KernelIdeal.Hand

end
-- ==== Proof.KI.R0Dat.lean ====
/-
  The reduction region's proof data.  The grid has 8 points t = 4·i0 + j: two row blocks of 64 rows, four time
  blocks of 512 steps each.  After point t the three scratch buffers hold the running sums over the time blocks
  0..j of row block i0 (restarting at j = 0); the output block is written at j = 3 only, with the features of the
  finished sums, and is idle before.
-/
import proofs.«421534_j64965675320093_2_alg».proof.Proof.KI.R0Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 64 lengths of the point's row block. -/
abbrev lenBlk (c : Dev nD) (t : Fin cfg0.N) : Vec F S64x1 .i32 := iblk0 V c 0 t
/-- The point's 64 × 512 × 128 block of samples. -/
abbrev xBlk (c : Dev nD) (t : Fin cfg0.N) : Vec F S64x512x128 .f32 := iblk0 V c 1 t

/-- One point's update of the three running sums. -/
def stepFrom (c : Dev nD) (t : Fin cfg0.N) (p : Vec F S64x128 .f32 × Vec F S64x128 .f32 × Vec F S64x128 .f32) :
    Vec F S64x128 .f32 × Vec F S64x128 .f32 × Vec F S64x128 .f32 :=
  (sumStep (grid0.coords t) (lenBlk V c t) (xBlk V c t) p.1,
   sqStep (grid0.coords t) (lenBlk V c t) (xBlk V c t) p.2.1,
   lastStep (grid0.coords t) (lenBlk V c t) (xBlk V c t) p.2.2)

/-- The three running sums after point n: restarted from zero where the time axis restarts (n ≡ 0 mod 4), continued otherwise. -/
def accAt (c : Dev nD) : (n : ℕ) → n < cfg0.N → Vec F S64x128 .f32 × Vec F S64x128 .f32 × Vec F S64x128 .f32
  | 0, hn => stepFrom V c ⟨0, hn⟩ (zeroAcc, zeroAcc, zeroAcc)
  | n + 1, hn =>
    if (n + 1) % 4 = 0 then stepFrom V c ⟨n + 1, hn⟩ (zeroAcc, zeroAcc, zeroAcc)
    else stepFrom V c ⟨n + 1, hn⟩ (accAt c n (Nat.lt_of_succ_lt hn))

theorem accAt_first (c : Dev nD) (t : Fin cfg0.N) (h : t.val % 4 = 0) :
    accAt V c t.val t.isLt = stepFrom V c t (zeroAcc, zeroAcc, zeroAcc) := by
  obtain ⟨n, hn⟩ := t
  cases n with
  | zero => rfl
  | succ n => exact if_pos h

theorem accAt_next (c : Dev nD) (t : Fin cfg0.N) (h : ¬ t.val % 4 = 0) :
    accAt V c t.val t.isLt = stepFrom V c t (accAt V c (t.val - 1) (Nat.lt_of_le_of_lt (Nat.sub_le _ _) t.isLt)) := by
  obtain ⟨n, hn⟩ := t
  cases n with
  | zero => exact absurd (Nat.zero_mod _) h
  | succ n => exact if_neg h

/-- The features a point's sums give (written to the output block where the time axis ends). -/
def featsAt (c : Dev nD) (t : Fin cfg0.N) : Vec F S64x384 .f32 :=
  featsOf (lenBlk V c t) (accAt V c t.val t.isLt).1 (accAt V c t.val t.isLt).2.1 (accAt V c t.val t.isLt).2.2

/-- The second kernel's six staging buffers, which this region does not use, each whole at some contents. -/
def otherStage (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f))

/-- The class invariant (the scoped buffers that are no staging buffer of this region, the generator register) with
    the three scratch operands as memrefs owned at some contents. -/
theorem PhiA0_split (c : Dev nD) :
    (Pipeline.ΦA spec0 c : sProp 𝕄) ⊢ iprop((∃ d, owns (c : Thread nD τ) scM0 fullShare d) ∗ (∃ d, owns (c : Thread nD τ) scM1 fullShare d)
      ∗ (∃ d, owns (c : Thread nD τ) scM2 fullShare d) ∗ otherStage (F := F) c ∗ (∃ r, prngReg c r)) := by
  unfold Pipeline.ΦA otherStage; rw [scopedRest0_eq]; simp only [scM0, scM1, scM2, owns_whole]
  iintro ⟨⟨H0, H1, H2, H3, H4, H5, H6, H7, H8⟩, Hg⟩
  isplitl [H0]; · iexact H0
  isplitl [H1]; · iexact H1
  isplitl [H2]; · iexact H2
  isplitr [Hg]
  · isplitl [H3]; · iexact H3
    isplitl [H4]; · iexact H4
    isplitl [H5]; · iexact H5
    isplitl [H6]; · iexact H6
    isplitl [H7]; · iexact H7
    iexact H8
  iexact Hg
theorem PhiA0_join (c : Dev nD) :
    iprop((∃ d, owns (c : Thread nD τ) scM0 fullShare d) ∗ (∃ d, owns (c : Thread nD τ) scM1 fullShare d)
      ∗ (∃ d, owns (c : Thread nD τ) scM2 fullShare d) ∗ otherStage (F := F) c ∗ (∃ r, prngReg c r)) ⊢ (Pipeline.ΦA spec0 c : sProp 𝕄) := by
  unfold Pipeline.ΦA otherStage; rw [scopedRest0_eq]; simp only [scM0, scM1, scM2, owns_whole]
  iintro ⟨H0, H1, H2, ⟨H3, H4, H5, H6, H7, H8⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- The region's invariant before point n: at the start the class invariant; afterwards the three scratch buffers at
    the running sums the point before left, the other scoped buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (accAt V c n hn).1
      ∗ owns (c : Thread nD τ) scM1 fullShare (accAt V c n hn).2.1
      ∗ owns (c : Thread nD τ) scM2 fullShare (accAt V c n hn).2.2
      ∗ otherStage (F := F) c ∗ (∃ r, prngReg c r))

theorem PhiS0_zero (c : Dev nD) (n : ℕ) (h : n ≤ cfg0.N) (hz : n = 0) : PhiS0 V c n h = Pipeline.ΦA spec0 c := by
  subst hz; rfl

/-- Before a point that is not the first: the three scratch buffers at the running sums the point before left. -/
theorem PhiS0_pos (c : Dev nD) (n : ℕ) (h : n ≤ cfg0.N) (hz : n ≠ 0) :
    PhiS0 V c n h = iprop(owns (c : Thread nD τ) scM0 fullShare (accAt V c (n - 1) (by omega)).1
      ∗ owns (c : Thread nD τ) scM1 fullShare (accAt V c (n - 1) (by omega)).2.1
      ∗ owns (c : Thread nD τ) scM2 fullShare (accAt V c (n - 1) (by omega)).2.2
      ∗ otherStage (F := F) c ∗ (∃ r, prngReg c r)) := by
  cases n with
  | zero => exact absurd rfl hz
  | succ n => rfl

/-- After point n (before point n + 1): the three scratch buffers at that point's running sums. -/
theorem PhiS0_succ (c : Dev nD) (n : ℕ) (hn : n < cfg0.N) :
    PhiS0 V c (n + 1) hn = iprop(owns (c : Thread nD τ) scM0 fullShare (accAt V c n hn).1
      ∗ owns (c : Thread nD τ) scM1 fullShare (accAt V c n hn).2.1
      ∗ owns (c : Thread nD τ) scM2 fullShare (accAt V c n hn).2.2
      ∗ otherStage (F := F) c ∗ (∃ r, prngReg c r)) := rfl

/-- The proof data of the reduction's pipeline on core c: the arrays as the region finds them; after the body each
    input's buffer at its block, the output's at the features of the point's sums (consulted only where the time axis
    ends); the invariant PhiS0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => featsAt V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = featsAt V c t := by dsimp only [dat0]

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## Where the windows are live, where the output is idle -/

/-- The two inputs are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output is idle wherever the time axis does not end, and is not written back there. -/
theorem idleAt0_2 : ∀ t : Fin cfg0.N, ¬ isLast (grid0.coords t) → cfg0.idle 2 (grid0.coords t) = true := by decide +kernel
theorem noFlush0_2 : ∀ t : Fin cfg0.N, ¬ isLast (grid0.coords t) → (cfg0.win 2).flush t = false := by decide +kernel
/-- Where the time axis ends the output is live. -/
theorem liveAt0_2 : ∀ t : Fin cfg0.N, isLast (grid0.coords t) → cfg0.idle 2 (grid0.coords t) = false := by decide +kernel

/-! ## What the body finds in the inputs' buffers, what it leaves in the windows' -/

/-- The lengths' buffer holds the point's row block at every point, although it is fetched only where the time
    axis restarts: in between the block index does not move. -/
theorem before0_0 (c : Dev nD) (t : Fin cfg0.N) (d) : (dat0 V c).before 0 t d = iblk0 V c 0 t := by
  have hkeep : ∀ t, (cfg0.win 0).cut (cfg0.grid.coords t) ((dat0 V c).after 0 t) = (dat0 V c).blockOf 0 t := fun t => by
    rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The samples' buffer holds the point's block (it is fetched at every point). -/
theorem before0_1 (c : Dev nD) (t : Fin cfg0.N) (d) : (dat0 V c).before 1 t d = iblk0 V c 1 t := by
  have hkeep : ∀ t, (cfg0.win 1).cut (cfg0.grid.coords t) ((dat0 V c).after 1 t) = (dat0 V c).blockOf 1 t := fun t => by
    rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-- The body leaves each input's buffer at its block. -/
theorem leaves0_0 (c : Dev nD) (t : Fin cfg0.N) :
    (dat0 V c).leavesExact 0 t = owns (c : Thread nD τ) (win0_0.stage (cfg0.slots t 0)) fullShare (lenBlk V c t) := by
  unfold Dat.leavesExact; rw [liveAt0_0 t, after0_0]
theorem leaves0_1 (c : Dev nD) (t : Fin cfg0.N) :
    (dat0 V c).leavesExact 1 t = owns (c : Thread nD τ) (win0_1.stage (cfg0.slots t 1)) fullShare (xBlk V c t) := by
  unfold Dat.leavesExact; rw [liveAt0_1 t, after0_1]
/-- Where the time axis does not end the output's buffer is handed back as found. -/
theorem leaves0_2_idle (c : Dev nD) (t : Fin cfg0.N) (h : ¬ t.val % 4 = 3) :
    (dat0 V c).leavesExact 2 t = iprop(∃ d, owns (c : Thread nD τ) (win0_2.stage (cfg0.slots t 2)) fullShare ((dat0 V c).before 2 t d)) :=
  Dat.leavesExact_idle (dat0 V c) 2 t (idleAt0_2 t fun hl => h ((isLast_iff t).mp hl)) (noFlush0_2 t fun hl => h ((isLast_iff t).mp hl))
/-- Where it ends, the output's buffer is left at the features of the point's sums. -/
theorem leaves0_2_live (c : Dev nD) (t : Fin cfg0.N) (h : t.val % 4 = 3) :
    (dat0 V c).leavesExact 2 t = owns (c : Thread nD τ) (win0_2.stage (cfg0.slots t 2)) fullShare (featsAt V c t) := by
  unfold Dat.leavesExact; rw [liveAt0_2 t ((isLast_iff t).mpr h), after0_2]

/-! ## The body obligation, at a generic point -/

/-- What the body is called with at point t: the invariant, nothing owed, each window's current buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d)))

/-- What it returns: the next invariant, nothing owed, each window's current buffer at what the body leaves. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The body at any point.  The inputs' buffers hold the point's blocks.  Where the time axis restarts the scratch is
    handed over at whatever it holds (the class invariant at the very first point, the previous row block's finished
    sums afterwards, forgotten) and comes back one step from zero; elsewhere it is handed over at the running sums of
    the point before and comes back one step further; where the axis ends the output's buffer comes back at the
    features of the finished sums, and elsewhere it comes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, leaves0_0, leaves0_1, PhiS0_castSucc]
  have hN : t.val < 8 := lt_of_lt_of_eq t.isLt (show cfg0.N = 8 from N_0)
  by_cases h0 : t.val % 4 = 0
  · have h1 : ¬ t.val % 4 = 3 := by omega
    have hF : isFirst (grid0.coords t) := (isFirst_iff t).mpr h0
    have hL : ¬ isLast (grid0.coords t) := fun h => h1 ((isLast_iff t).mp h)
    rw [leaves0_2_idle V c t h1, accAt_first V c t h0]
    unfold stepFrom; dsimp only
    by_cases hz : t.val = 0
    · rw [PhiS0_zero V c _ _ hz]
      iintro ⟨HA, Ho, ⟨%d0, H0⟩, ⟨%d1, H1⟩, H2⟩
      icases (PhiA0_split c) $$ HA with ⟨S0, S1, S2, Hst, Hg⟩
      iapply (run_first c Set.univ (grid0.coords t) hF hL _ _ _ _ _ _ _ _ _ _ _ _ (lenBlk V c t) (xBlk V c t) _)
      isplitl [H0]; · iexact H0
      isplitl [H1]; · iexact H1
      isplitl [S0]; · iexact S0
      isplitl [S1]; · iexact S1
      isplitl [S2]; · iexact S2
      iintro ⟨H0, H1, S0, S1, S2⟩
      isplitl [S0 S1 S2 Hst Hg]
      · isplitl [S0]; · iexact S0
        isplitl [S1]; · iexact S1
        isplitl [S2]; · iexact S2
        isplitl [Hst]; · iexact Hst
        iexact Hg
      isplitl [Ho]; · iexact Ho
      isplitl [H0]; · iexact H0
      isplitl [H1]; · iexact H1
      iexact H2
    · rw [PhiS0_pos V c _ _ hz]
      iintro ⟨⟨S0, S1, S2, Hst, Hg⟩, Ho, ⟨%d0, H0⟩, ⟨%d1, H1⟩, H2⟩
      iapply (run_first c Set.univ (grid0.coords t) hF hL _ _ _ _ _ _ _ _ _ _ _ _ (lenBlk V c t) (xBlk V c t) _)
      isplitl [H0]; · iexact H0
      isplitl [H1]; · iexact H1
      isplitl [S0]; · iexists _; iexact S0
      isplitl [S1]; · iexists _; iexact S1
      isplitl [S2]; · iexists _; iexact S2
      iintro ⟨H0, H1, S0, S1, S2⟩
      isplitl [S0 S1 S2 Hst Hg]
      · isplitl [S0]; · iexact S0
        isplitl [S1]; · iexact S1
        isplitl [S2]; · iexact S2
        isplitl [Hst]; · iexact Hst
        iexact Hg
      isplitl [Ho]; · iexact Ho
      isplitl [H0]; · iexact H0
      isplitl [H1]; · iexact H1
      iexact H2
  · have hz : t.val ≠ 0 := fun hz => h0 (by rw [hz])
    have hF : ¬ isFirst (grid0.coords t) := fun h => h0 ((isFirst_iff t).mp h)
    by_cases h1 : t.val % 4 = 3
    · have hL : isLast (grid0.coords t) := (isLast_iff t).mpr h1
      rw [leaves0_2_live V c t h1]
      unfold featsAt
      rw [accAt_next V c t h0]
      unfold stepFrom; dsimp only
      rw [PhiS0_pos V c _ _ hz]
      iintro ⟨⟨S0, S1, S2, Hst, Hg⟩, Ho, ⟨%d0, H0⟩, ⟨%d1, H1⟩, ⟨%d2, H2⟩⟩
      iapply (run_last c Set.univ (grid0.coords t) hF hL _ _ _ _ _ _ _ _ _ _ _ _ (lenBlk V c t) (xBlk V c t) _ _ _ _)
      isplitl [H0]; · iexact H0
      isplitl [H1]; · iexact H1
      isplitl [H2]; · iexists _; iexact H2
      isplitl [S0]; · iexact S0
      isplitl [S1]; · iexact S1
      isplitl [S2]; · iexact S2
      iintro ⟨H0, H1, H2, S0, S1, S2⟩
      isplitl [S0 S1 S2 Hst Hg]
      · isplitl [S0]; · iexact S0
        isplitl [S1]; · iexact S1
        isplitl [S2]; · iexact S2
        isplitl [Hst]; · iexact Hst
        iexact Hg
      isplitl [Ho]; · iexact Ho
      isplitl [H0]; · iexact H0
      isplitl [H1]; · iexact H1
      iexact H2
    · have hL : ¬ isLast (grid0.coords t) := fun h => h1 ((isLast_iff t).mp h)
      rw [leaves0_2_idle V c t h1, accAt_next V c t h0]
      unfold stepFrom; dsimp only
      rw [PhiS0_pos V c _ _ hz]
      iintro ⟨⟨S0, S1, S2, Hst, Hg⟩, Ho, ⟨%d0, H0⟩, ⟨%d1, H1⟩, H2⟩
      iapply (run_mid c Set.univ (grid0.coords t) hF hL _ _ _ _ _ _ _ _ _ _ _ _ (lenBlk V c t) (xBlk V c t) _ _ _ _)
      isplitl [H0]; · iexact H0
      isplitl [H1]; · iexact H1
      isplitl [S0]; · iexact S0
      isplitl [S1]; · iexact S1
      isplitl [S2]; · iexact S2
      iintro ⟨H0, H1, S0, S1, S2⟩
      isplitl [S0 S1 S2 Hst Hg]
      · isplitl [S0]; · iexact S0
        isplitl [S1]; · iexact S1
        isplitl [S2]; · iexact S2
        isplitl [Hst]; · iexact Hst
        iexact Hg
      isplitl [Ho]; · iexact Ho
      isplitl [H0]; · iexact H0
      isplitl [H1]; · iexact H1
      iexact H2

/-- The body obligation of the reduction region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class invariant back: the sums' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 8 := N_0; omega)]
  refine BIBase.Entails.trans ?_ (PhiA0_join c)
  iintro ⟨H0, H1, H2, Ho, Hg⟩
  isplitl [H0]; · iexists _; iexact H0
  isplitl [H1]; · iexists _; iexact H1
  isplitl [H2]; · iexists _; iexact H2
  isplitl [Ho]; · iexact Ho
  iexact Hg

end Cert.KernelIdeal.Hand

end
-- ==== Proof.KI.R1.lean ====
/-
  The second kernel region (the two-layer perceptron on the 128 × 384 features): one grid point, every operand one
  whole block.  The output block is relu(feats · W1 + b1) · W2 + b2.
-/
import proofs.«421534_j64965675320093_2_alg».proof.Proof.Gen.KernelIdeal.Launch
import proofs.«421534_j64965675320093_2_alg».proof.Proof.Gen.KernelIdeal.Skeleton
import proofs.«421534_j64965675320093_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block: the perceptron of the five input blocks. -/
def mlpOut (c : Dev nD) (t : Fin cfg1.N) : Vec F S128x8 .f32 :=
  k1_pay1 (iblk1 V c 0 t) (iblk1 V c 1 t) (iblk1 V c 2 t) (iblk1 V c 3 t) (iblk1 V c 4 t)

/-- The proof data of the perceptron's pipeline on core c: the arrays as the region finds them; after the body each
    input's buffer at its block, the output's at mlpOut; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => mlpOut V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_5 (c : Dev nD) (t : Fin cfg1.N) : (dat1 V c).after 5 t = mlpOut V c t := by dsimp only [dat1]

/-! ## What the body finds in the input windows' buffers

The grid has one point and every input window is fetched there; its block is its whole array, nothing cut off: the
buffer the body reads holds the window's block. -/

theorem before1_0 (c : Dev nD) (t : Fin cfg1.N) (d) : (dat1 V c).before 0 t d = iblk1 V c 0 t :=
  ((dat1 V c).before_fetched 0 t (fetch1_0 t) d).trans (by unfold Dat.fetched Dat.blockOf iblk1; rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rfl)
theorem before1_2 (c : Dev nD) (t : Fin cfg1.N) (d) : (dat1 V c).before 2 t d = iblk1 V c 2 t :=
  ((dat1 V c).before_fetched 2 t (fetch1_2 t) d).trans (by unfold Dat.fetched Dat.blockOf iblk1; rfl)
theorem before1_3 (c : Dev nD) (t : Fin cfg1.N) (d) : (dat1 V c).before 3 t d = iblk1 V c 3 t :=
  ((dat1 V c).before_fetched 3 t (fetch1_3 t) d).trans (by unfold Dat.fetched Dat.blockOf iblk1; rfl)
theorem before1_4 (c : Dev nD) (t : Fin cfg1.N) (d) : (dat1 V c).before 4 t d = iblk1 V c 4 t :=
  ((dat1 V c).before_fetched 4 t (fetch1_4 t) d).trans (by unfold Dat.fetched Dat.blockOf iblk1; rfl)

/-! ## A rectangle that is the whole buffer

The body reads and writes every buffer through the rectangle of the buffer's own extents at offset zero. Such a
rectangle holds every index of the buffer, and its local indices are the buffer's: a read through it is the
contents, and one write through it leaves the written values. -/

private theorem zeros1 : (![0] : Fin 1 → Nat) = fun _ => 0 := funext fun a => by fin_cases a <;> rfl
private theorem zeros2 : (![0, 0] : Fin 2 → Nat) = fun _ => 0 := funext fun a => by fin_cases a <;> rfl

section Full
variable {S : Shape} {e : EltTy} {off : Fin S.rank → Nat}

private theorem full_emb (h : off = fun _ => 0) (inb : ∀ a, off a + S.size a ≤ S.size a)
    (x : (Rect.unit off S.size inb).shape.Idx) : (Rect.unit off S.size inb).emb x = x := by
  subst h; exact Rect.emb_whole_apply S x

private theorem full_mem (h : off = fun _ => 0) (inb : ∀ a, off a + S.size a ≤ S.size a) (y : S.Idx) :
    y ∈ (Rect.unit off S.size inb).set := by
  subst h; rw [Rect.mem_set_unit]; intro a; exact ⟨Nat.zero_le _, by rw [Nat.zero_add]; exact (y a).isLt⟩

private theorem full_ld (h : off = fun _ => 0) (inb : ∀ a, off a + S.size a ≤ S.size a) (X : S.Idx → Elt F e) :
    View.ld X (Rect.unit off S.size inb) = X :=
  funext fun x => congrArg X (full_emb h inb x)

private theorem full_canon (h : off = fun _ => 0) (inb : ∀ a, off a + S.size a ≤ S.size a) (w : S.Idx → Elt F e) :
    View.canon [(⟨Rect.unit off S.size inb, w⟩ : View.Piece (Elt F) S e)] = w :=
  funext fun y => by
    have := View.canon_cons_emb (Rect.unit off S.size inb) w [] y
    rwa [full_emb h inb] at this

end Full

/-! ## The body's one store

The body reads the five input buffers whole, computes the perceptron of what it read, reads the output buffer (a
value it does not use) and writes the output buffer whole, once. -/

/-- The whole output buffer as a rectangle. -/
private abbrev rOut : Rect S128x8 := Rect.unit (s := S128x8) ![0, 0] S128x8.size inb_S128x8_S128x8_0_0

/-- The one store covers the output buffer. -/
private theorem coverOut (p : Vec F S128x8 .f32) (y : S128x8.Idx) :
    ∃ pc ∈ ([⟨rOut, p⟩] : List (View.Piece (Elt F) S128x8 .f32)), y ∈ pc.1.set :=
  ⟨_, List.mem_singleton_self _, full_mem zeros2 inb_S128x8_S128x8_0_0 y⟩

set_option maxHeartbeats 1000000 in
/-- The body on whole buffers, the inputs' reading x0 … x4 and the output's anything, runs to the continuation
    holding the inputs' as they were and the output's at the perceptron of x0 … x4. -/
theorem sound_kernel1 (c : Dev nD) (E : Set ℕ) (i : grid1.Coords)
    (arg1 : Memref sig .tc .vmem S128x384 .f32) (harg1 : arg1.IsWhole) (arg2 : Memref sig .tc .vmem S384x64 .f32) (harg2 : arg2.IsWhole)
    (arg3 : Memref sig .tc .vmem S64 .f32) (harg3 : arg3.IsWhole) (arg4 : Memref sig .tc .vmem S64x8 .f32) (harg4 : arg4.IsWhole)
    (arg5 : Memref sig .tc .vmem S8 .f32) (harg5 : arg5.IsWhole) (arg6 : Memref sig .tc .vmem S128x8 .f32) (harg6 : arg6.IsWhole)
    (x0 : Vec F S128x384 .f32) (x1 : Vec F S384x64 .f32) (x2 : Vec F S64 .f32) (x3 : Vec F S64x8 .f32) (x4 : Vec F S8 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay1 x0 x1 x2 x3 x4)) -∗ K ⟨⟩))
      ⊢ wp frame (wpE (defs₀ (F := F)) Variants.none c none) E
          (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  refine (View.read_writes_eq_canon _ _ _ (coverOut _)).trans ?_
  rw [full_canon zeros2]
  simp only [View.readAt_eq_ld, full_ld (S := S128x384) zeros2, full_ld (S := S384x64) zeros2, full_ld (S := S64) zeros1,
    full_ld (S := S64x8) zeros2, full_ld (S := S8) zeros1]

/-! ## The body at the point

What the data say the body leaves, window by window; then the obligation with its windows written out one by one:
the five input buffers hold their blocks, so the body's triple applies, and the invariant and the core's debts pass
through untouched. -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

/-- What the body is handed at point t: the invariant, the core's debts, and each window's current buffer at what it
    then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back: the same invariant and debts, each buffer at what the data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold mlpOut
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the perceptron region, at its one point. -/
theorem body_obligation1 (c : Dev nD) : BodyObligation (dat1 (F := F) V c) (defs₀ (F := F)) Variants.none () Set.univ := by
  intro t
  rw [bigSep_W1, bigSep_W1]
  exact sound_body1 V c t

end Cert.KernelIdeal.Hand

end
-- ==== Proof.KI.Run.lean ====
/-
  The whole program as three segments — the reshape of the lengths on the host, the reduction region, the perceptron
  region — and its run: every weakly fair execution terminates, and at the end every unscoped buffer holds the last
  boundary's contents.  Between segments the core's buffers are a fold from the launch memory: the host stretch's
  result, then each region's arrays at what its write-backs leave.
-/
import proofs.«421534_j64965675320093_2_alg».proof.Proof.KI.R0Dat
import proofs.«421534_j64965675320093_2_alg».proof.Proof.KI.R1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the host reshape (the reduction region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the reduction region's exit (the perceptron region's entry): its arrays at what the pipeline leaves. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- At the perceptron region's exit. -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

/-! ## No segment writes an argument -/

/-- The host reshape writes the reshaped lengths' buffer and no other. -/
theorem W1_of_ne (c : Dev nD) (r : Ref sig .tc) (h : r ≠ main_v0) :
    W1 m ρ c (Proc.devRef .tc r) = W0 m ρ c (Proc.devRef .tc r) :=
  StableHlo.after_of_forall_not_mem (b := Proc.devRef .tc r) _ _ (List.forall_iff_forall_mem.mp (by
    simp only [hostOps0, List.Forall, StableHlo.reshape_writes, Finset.mem_singleton]
    exact StableHlo.devRef_ne_of_ne h))

/-- An input window's array of the reduction region leaves the region as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- An input window's array of the perceptron region leaves the region as it entered. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))

-- the reduction region reads the sequences through its second window; the perceptron region bypasses them
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_in m ρ c 1 rfl
    _ = W0 m ρ c (Proc.devRef .tc main_arg0) := W1_of_ne m ρ c main_arg0 (by decide)
    _ = m ((c : Thread nD τ).loc main_arg0) := rfl
-- the lengths as launched are read by the host reshape only, which writes its own result
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl
-- the perceptron's weights and biases: inputs of the second region (its windows 1 to 4), bypassed by the first
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_in m ρ c 1 rfl
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_in m ρ c 2 rfl
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_in m ρ c 3 rfl
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_in m ρ c 4 rfl
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-- The program's result buffer at the end: the perceptron region's output array after its write-back. -/
theorem W3_main_v2 (c : Dev nD) : W3 m ρ c (Proc.devRef .tc main_v2) = (dat1 (V2 m ρ) c).arrAt 5 cfg1.N :=
  W3_arr m ρ c 5

/-! ## The run -/

/-- At the reduction region's exit each of its arrays holds what the pipeline leaves and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- The same at the perceptron region's exit. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: the reduction's at the contents after the host
    reshape, the perceptron's at what the reduction leaves. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped buffers from the contents W, R riding along: it leaves them at
    the contents after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The host reshape allocates no buffer. -/
theorem hostOps0_fresh : (hostOps0 : List (HloOp τ sig (Elt F))).Forall fun op => op.fresh = ∅ := by
  simp only [List.Forall]; repeat' constructor
/-- The last thread state beside the core owing nothing: every unscoped buffer at the last boundary's contents, the
    generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The reduction region over the thread state: entered from every unscoped buffer at W1, left at W2.  Its arrays
    are split out of the unscoped buffers and put back at the exit contents; the generator register and the scoped
    rest make the class invariant, which is the region's invariant before the first point, and the invariant after
    the last point gives them back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine BIBase.Entails.trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The perceptron region over the thread state: entered from every unscoped buffer at W2 (no host operation stands
    between the regions), left at W3, which the launch reads at the end.  Its invariant is the class invariant at
    every point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the host reshape from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments: both are the same chain of items. -/
theorem main_run (c : Dev nD) : main (F := F) c = Pipeline.Seg.run (segs m ρ) := (main_chain c).trans (by chain_rfl)

set_option backward.isDefEq.respectTransparency.types false in
/-- Every weakly fair execution of the program terminates, nothing faulting, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run read at the result and the six arguments. -/
theorem run_value : θ_run defs (onTc (τ := τ) (main (F := F))) ⟨m, fun _ => 0, ρ⟩ (fun r => ∀ c : Dev nD,
      r.2.mem ((c.tc : Thread nD τ).loc main_v2) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

/-- The frame: the program runs to the end and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ)

end Cert.KernelIdeal.Hand

end
-- ==== Proof.KI.ValueA.lean ====
/-
  What the two regions' output arrays hold after their runs, as functions of the buffers each region is entered from.
  The perceptron region has one point whose block is the whole array: its output array ends at the perceptron of the
  five input arrays.  The reduction region writes its output back at the two points where the time axis ends
  (points 3 and 7): rows 0..63 of the feature array come from point 3, rows 64..127 from point 7.
-/
import proofs.«421534_j64965675320093_2_alg».proof.Proof.KI.R0Dat
import proofs.«421534_j64965675320093_2_alg».proof.Proof.KI.R1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The 128 × 384 feature array the reduction leaves: row block 0 from point 3, row block 1 from point 7. -/
def featsArr (c : Dev nD) : Vec F S128x384 .f32 := fun idx =>
  if h : (idx 0).val < 64 then
    featsAt V c t0_3 (ix2 (⟨(idx 0).val, h⟩ : Fin 64) (⟨(idx 1).val, idx2_lt1 idx⟩ : Fin 384))
  else
    featsAt V c t0_7 (ix2 (⟨(idx 0).val - 64, by have := idx2_lt0 idx; omega⟩ : Fin 64) (⟨(idx 1).val, idx2_lt1 idx⟩ : Fin 384))

/-! ## The reduction region: the output written back at points 3 and 7, one row block each -/

/-- The output's block index at the two points that write back: row block 0 at point 3, row block 1 at point 7,
    column block 0 at both. -/
theorem idx0_out : win0_2.index t0_3 (0 : Fin 2) = 0 ∧ win0_2.index t0_3 (1 : Fin 2) = 0
    ∧ win0_2.index t0_7 (0 : Fin 2) = 1 ∧ win0_2.index t0_7 (1 : Fin 2) = 0 := by decide +kernel

/-- The feature array on its first 64 rows is point 3's features. -/
theorem featsArr_lo (c : Dev nD) (idx : S128x384.Idx) (y : S64x384.Idx)
    (h0 : (idx 0).val = (y 0).val) (h1 : (idx 1).val = (y 1).val) : featsArr V c idx = featsAt V c t0_3 y := by
  have hy : (y 0).val < 64 := idx2_lt0 y
  have hlt : (idx 0).val < 64 := by omega
  unfold featsArr
  rw [dif_pos hlt]
  congr 1
  funext a
  match a with
  | ⟨0, _⟩ => exact Fin.ext h0
  | ⟨1, _⟩ => exact Fin.ext h1

/-- The feature array on its last 64 rows is point 7's features. -/
theorem featsArr_hi (c : Dev nD) (idx : S128x384.Idx) (y : S64x384.Idx)
    (h0 : (idx 0).val = 64 + (y 0).val) (h1 : (idx 1).val = (y 1).val) : featsArr V c idx = featsAt V c t0_7 y := by
  have hge : ¬ (idx 0).val < 64 := by omega
  unfold featsArr
  rw [dif_neg hge]
  congr 1
  funext a
  match a with
  | ⟨0, _⟩ => exact Fin.ext (by show (idx 0).val - 64 = (y 0).val; omega)
  | ⟨1, _⟩ => exact Fin.ext h1

/-- The output's window is not cut: the part of the staging buffer the write-back moves is all of it. -/
theorem cut0_2 (t : Fin cfg0.N) (X : Vec F S64x384 .f32) : (cfg0.win 2).cut (grid0.coords t) X = X := rfl

/-- What a point that writes back writes is its block of the feature array. -/
theorem flushed0_eq (c : Dev nD) (t : Fin cfg0.N) (hf : (cfg0.win 2).flush t = true) :
    (dat0 V c).flushed 2 t = ((cfg0.win 2).blk t).view.read (Elt F) (featsArr V c) := by
  have hN : cfg0.N = 8 := N_0
  have h3 : t.val % 4 = 3 := (flush0_2 t).mp hf
  have ht : t.val = 3 ∨ t.val = 7 := by have := t.isLt; omega
  obtain ⟨e30, e31, e70, e71⟩ := idx0_out
  show (cfg0.win 2).cut (grid0.coords t) ((dat0 V c).after 2 t) = _
  rw [after0_2]
  rcases ht with h | h
  · obtain rfl : t = t0_3 := Fin.ext h
    refine (cut0_2 t0_3 _).trans ?_
    funext y
    rw [View.read_apply]
    show featsAt V c t0_3 y = featsArr V c _
    refine (featsArr_lo V c _ y ?_ ?_).symm
    · show win0_2.index t0_3 (0 : Fin 2) * 64 + 1 * (y 0).val = (y 0).val; rw [e30]; omega
    · show win0_2.index t0_3 (1 : Fin 2) * 384 + 1 * (y 1).val = (y 1).val; rw [e31]; omega
  · obtain rfl : t = t0_7 := Fin.ext h
    refine (cut0_2 t0_7 _).trans ?_
    funext y
    rw [View.read_apply]
    show featsAt V c t0_7 y = featsArr V c _
    refine (featsArr_hi V c _ y ?_ ?_).symm
    · show win0_2.index t0_7 (0 : Fin 2) * 64 + 1 * (y 0).val = 64 + (y 0).val; rw [e70]; omega
    · show win0_2.index t0_7 (1 : Fin 2) * 384 + 1 * (y 1).val = (y 1).val; rw [e71]; omega

/-- Every index of the feature array lies in the block of point 3 (rows below 64) or of point 7 (the others). -/
theorem cover0 (i : S128x384.Idx) :
    ∃ t : Fin cfg0.N, (cfg0.win 2).flush t = true ∧ i ∈ ((cfg0.win 2).blk t).view.set := by
  obtain ⟨e30, e31, e70, e71⟩ := idx0_out
  have h0 : (i 0).val < 128 := idx2_lt0 i
  have h1 : (i 1).val < 384 := idx2_lt1 i
  by_cases hlt : (i 0).val < 64
  · refine ⟨t0_3, (flush0_2 t0_3).mpr rfl, ?_⟩
    show i ∈ ((View.whole main_v1).slice (win0_2.rect t0_3)).set
    rw [View.set_slice_whole, Rect.mem_set_unit]
    intro a
    match a with
    | ⟨0, _⟩ => show win0_2.index t0_3 (0 : Fin 2) * 64 ≤ (i 0).val ∧ (i 0).val < win0_2.index t0_3 (0 : Fin 2) * 64 + 64; rw [e30]; omega
    | ⟨1, _⟩ => show win0_2.index t0_3 (1 : Fin 2) * 384 ≤ (i 1).val ∧ (i 1).val < win0_2.index t0_3 (1 : Fin 2) * 384 + 384; rw [e31]; omega
  · refine ⟨t0_7, (flush0_2 t0_7).mpr rfl, ?_⟩
    show i ∈ ((View.whole main_v1).slice (win0_2.rect t0_7)).set
    rw [View.set_slice_whole, Rect.mem_set_unit]
    intro a
    match a with
    | ⟨0, _⟩ => show win0_2.index t0_7 (0 : Fin 2) * 64 ≤ (i 0).val ∧ (i 0).val < win0_2.index t0_7 (0 : Fin 2) * 64 + 64; rw [e70]; omega
    | ⟨1, _⟩ => show win0_2.index t0_7 (1 : Fin 2) * 384 ≤ (i 1).val ∧ (i 1).val < win0_2.index t0_7 (1 : Fin 2) * 384 + 384; rw [e71]; omega

/-- The reduction region's output array after the run. -/
theorem arrAt0_out (c : Dev nD) : (dat0 V c).arrAt 2 cfg0.N = featsArr V c :=
  (dat0 V c).arrAt_eq_of_cover 2 (featsArr V c) (flushed0_eq V c) cover0

/-! ## The perceptron region: one point, every block the whole array -/

/-- Every window of the one-point region sits at block index zero on every axis. -/
theorem idx1_zero : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0 :=
  (by decide +kernel : ∀ t : Fin grid1.N, _)

/-- The features' block is the whole feature array. -/
theorem iblk1_0_eq (c : Dev nD) (t : Fin cfg1.N) : iblk1 V c 0 t = V c main_v1 := by
  obtain ⟨e0, e1, -⟩ := idx1_zero t
  funext y
  unfold iblk1
  rw [View.read_apply]
  show V c main_v1 _ = V c main_v1 y
  congr 1
  funext a; apply Fin.ext
  match a with
  | ⟨0, _⟩ => show win1_0.index t (0 : Fin 2) * 128 + 1 * (y 0).val = (y 0).val; rw [e0]; omega
  | ⟨1, _⟩ => show win1_0.index t (1 : Fin 2) * 384 + 1 * (y 1).val = (y 1).val; rw [e1]; omega

/-- The first layer's weights' block is the whole array. -/
theorem iblk1_1_eq (c : Dev nD) (t : Fin cfg1.N) : iblk1 V c 1 t = V c main_arg2 := by
  obtain ⟨-, -, e0, e1, -⟩ := idx1_zero t
  funext y
  unfold iblk1
  rw [View.read_apply]
  show V c main_arg2 _ = V c main_arg2 y
  congr 1
  funext a; apply Fin.ext
  match a with
  | ⟨0, _⟩ => show win1_1.index t (0 : Fin 2) * 384 + 1 * (y 0).val = (y 0).val; rw [e0]; omega
  | ⟨1, _⟩ => show win1_1.index t (1 : Fin 2) * 64 + 1 * (y 1).val = (y 1).val; rw [e1]; omega

/-- The first layer's bias' block is the whole array. -/
theorem iblk1_2_eq (c : Dev nD) (t : Fin cfg1.N) : iblk1 V c 2 t = V c main_arg3 := by
  obtain ⟨-, -, -, -, e0, -⟩ := idx1_zero t
  funext y
  unfold iblk1
  rw [View.read_apply]
  show V c main_arg3 _ = V c main_arg3 y
  congr 1
  funext a; apply Fin.ext
  match a with
  | ⟨0, _⟩ => show win1_2.index t (0 : Fin 1) * 64 + 1 * (y 0).val = (y 0).val; rw [e0]; omega

/-- The second layer's weights' block is the whole array. -/
theorem iblk1_3_eq (c : Dev nD) (t : Fin cfg1.N) : iblk1 V c 3 t = V c main_arg4 := by
  obtain ⟨-, -, -, -, -, e0, e1, -⟩ := idx1_zero t
  funext y
  unfold iblk1
  rw [View.read_apply]
  show V c main_arg4 _ = V c main_arg4 y
  congr 1
  funext a; apply Fin.ext
  match a with
  | ⟨0, _⟩ => show win1_3.index t (0 : Fin 2) * 64 + 1 * (y 0).val = (y 0).val; rw [e0]; omega
  | ⟨1, _⟩ => show win1_3.index t (1 : Fin 2) * 8 + 1 * (y 1).val = (y 1).val; rw [e1]; omega

/-- The second layer's bias' block is the whole array. -/
theorem iblk1_4_eq (c : Dev nD) (t : Fin cfg1.N) : iblk1 V c 4 t = V c main_arg5 := by
  obtain ⟨-, -, -, -, -, -, -, e0, -⟩ := idx1_zero t
  funext y
  unfold iblk1
  rw [View.read_apply]
  show V c main_arg5 _ = V c main_arg5 y
  congr 1
  funext a; apply Fin.ext
  match a with
  | ⟨0, _⟩ => show win1_4.index t (0 : Fin 1) * 8 + 1 * (y 0).val = (y 0).val; rw [e0]; omega

/-- The output's block at the one point, read off any 128 × 8 array, is that array. -/
theorem read_blk1_5 (t : Fin cfg1.N) (G : Vec F S128x8 .f32) :
    ((cfg1.win 5).blk t).view.read (Elt F) G = G := by
  obtain ⟨-, -, -, -, -, -, -, -, e0, e1⟩ := idx1_zero t
  funext y
  rw [View.read_apply]
  show G _ = G y
  congr 1
  funext a; apply Fin.ext
  match a with
  | ⟨0, _⟩ => show win1_5.index t (0 : Fin 2) * 128 + 1 * (y 0).val = (y 0).val; rw [e0]; omega
  | ⟨1, _⟩ => show win1_5.index t (1 : Fin 2) * 8 + 1 * (y 1).val = (y 1).val; rw [e1]; omega

/-- The output's window is not cut: the part of the staging buffer the write-back moves is all of it. -/
theorem cut1_5 (t : Fin cfg1.N) (X : Vec F S128x8 .f32) : (cfg1.win 5).cut (grid1.coords t) X = X := rfl

/-- What the one point writes back is the perceptron of the five input arrays, read through the output's block. -/
theorem flushed1_eq (c : Dev nD) (t : Fin cfg1.N) :
    (dat1 V c).flushed 5 t = ((cfg1.win 5).blk t).view.read (Elt F)
      (k1_pay1 (V c main_v1) (V c main_arg2) (V c main_arg3) (V c main_arg4) (V c main_arg5)) := by
  show (cfg1.win 5).cut (grid1.coords t) ((dat1 V c).after 5 t) = _
  rw [after1_5, read_blk1_5]
  unfold mlpOut
  rw [iblk1_0_eq, iblk1_1_eq, iblk1_2_eq, iblk1_3_eq, iblk1_4_eq]
  exact cut1_5 t _

/-- Every index of the output array lies in the one point's block. -/
theorem cover1 (i : S128x8.Idx) :
    ∃ t : Fin cfg1.N, (cfg1.win 5).flush t = true ∧ i ∈ ((cfg1.win 5).blk t).view.set := by
  refine ⟨t1_0, flush1_5 t1_0, ?_⟩
  obtain ⟨-, -, -, -, -, -, -, -, e0, e1⟩ := idx1_zero t1_0
  show i ∈ ((View.whole main_v2).slice (win1_5.rect t1_0)).set
  rw [View.set_slice_whole, Rect.mem_set_unit]
  intro a
  have h0 : (i 0).val < 128 := (i 0).isLt
  have h1 : (i 1).val < 8 := (i 1).isLt
  match a with
  | ⟨0, _⟩ => show win1_5.index t1_0 (0 : Fin 2) * 128 ≤ (i 0).val ∧ (i 0).val < win1_5.index t1_0 (0 : Fin 2) * 128 + 128; rw [e0]; omega
  | ⟨1, _⟩ => show win1_5.index t1_0 (1 : Fin 2) * 8 ≤ (i 1).val ∧ (i 1).val < win1_5.index t1_0 (1 : Fin 2) * 8 + 8; rw [e1]; omega

/-- The perceptron region's output array after the run. -/
theorem arrAt1_out (c : Dev nD) :
    (dat1 V c).arrAt 5 cfg1.N = k1_pay1 (V c main_v1) (V c main_arg2) (V c main_arg3) (V c main_arg4) (V c main_arg5) :=
  (dat1 V c).arrAt_eq_of_cover 5 _ (fun t _ => flushed1_eq V c t) cover1

end Cert.KernelIdeal.Hand

end
-- ==== Proof.Spec.lean ====
/-
  One (row, feature) pair of the ragged reduction, as functions of the 2048 time samples f and the row's length n.
  The mask is [t < n].  Two roads to the unbiased standard deviation: the sufficient-statistics road
  √max((Σ f²·mask − n·μ·μ)/(n − 1), 0) and the centred road √(Σ (f − μ)²·mask/(n − 1)), with μ = Σ f·mask / n.
  Two roads to the last valid sample: Σ f·[t = n − 1] and f (n − 1).
-/
import Idealize.ShloMosaic.PureOps.Ideal
import Idealize.ShloMosaic.PureOps.Ideal.Laws

noncomputable section

namespace Cert.Spec

open Idealize.ShloMosaic

/-- [t < n] as an extended real. -/
def maskE (n : ℤ) (t : ℕ) : EReal := if (t : ℤ) < n then 1 else 0
/-- [t = n − 1] as an extended real. -/
def lastMaskE (n : ℤ) (t : ℕ) : EReal := if (t : ℤ) = n - 1 then 1 else 0
/-- The row length as an extended real. -/
def cntE (n : ℤ) : EReal := ((n : ℝ) : EReal)

/-- Σ_t f t · [t < n]. -/
def sumE (f : Fin 2048 → EReal) (n : ℤ) : EReal := ∑ t : Fin 2048, f t * maskE n t.val
/-- Σ_t f t · f t · [t < n]. -/
def sqSumE (f : Fin 2048 → EReal) (n : ℤ) : EReal := ∑ t : Fin 2048, (f t * f t) * maskE n t.val
/-- The masked mean. -/
def meanE (f : Fin 2048 → EReal) (n : ℤ) : EReal := Ideal.div (sumE f n) (cntE n)

/-- The variance by sufficient statistics (the kernel's road), before the clamp. -/
def varStat (f : Fin 2048 → EReal) (n : ℤ) : EReal :=
  Ideal.div (sqSumE f n - (cntE n * meanE f n) * meanE f n) (cntE n - 1)
/-- The kernel's standard deviation: clamp at zero, then the square root. -/
def stdStat (f : Fin 2048 → EReal) (n : ℤ) : EReal := Ideal.sqrt (max (varStat f n) 0)

/-- The variance by centring (the reference's road). -/
def varCentred (f : Fin 2048 → EReal) (n : ℤ) : EReal :=
  Ideal.div (∑ t : Fin 2048, ((f t - meanE f n) * (f t - meanE f n)) * maskE n t.val) (cntE n - 1)
/-- The reference's standard deviation. -/
def stdCentred (f : Fin 2048 → EReal) (n : ℤ) : EReal := Ideal.sqrt (varCentred f n)

/-- The last valid sample by a masked sum (the kernel's road). -/
def lastSum (f : Fin 2048 → EReal) (n : ℤ) : EReal := ∑ t : Fin 2048, f t * lastMaskE n t.val

/-- The last valid sample by position (the reference's road): f (n − 1) where that is a time step. -/
def lastAt (f : Fin 2048 → EReal) (n : ℤ) : EReal :=
  if h : 0 ≤ n - 1 ∧ n - 1 < 2048 then f ⟨(n - 1).toNat, by omega⟩ else 0

/-- The kernel's 384 features of row b: the mean of each of the 128 channels, then their standard deviations by
    sufficient statistics, then the last valid sample by a masked sum. -/
def featsK (x : Fin 128 → Fin 2048 → Fin 128 → EReal) (len : Fin 128 → ℤ) (b : Fin 128) (k : Fin 384) : EReal :=
  if h : k.val < 128 then meanE (fun t => x b t ⟨k.val, h⟩) (len b)
  else if h2 : k.val < 256 then stdStat (fun t => x b t ⟨k.val - 128, by omega⟩) (len b)
  else lastSum (fun t => x b t ⟨k.val - 256, by omega⟩) (len b)

/-- The reference's 384 features of row b: the means, the centred standard deviations, the sample at step n − 1. -/
def featsR (x : Fin 128 → Fin 2048 → Fin 128 → EReal) (len : Fin 128 → ℤ) (b : Fin 128) (k : Fin 384) : EReal :=
  if h : k.val < 128 then meanE (fun t => x b t ⟨k.val, h⟩) (len b)
  else if h2 : k.val < 256 then stdCentred (fun t => x b t ⟨k.val - 128, by omega⟩) (len b)
  else lastAt (fun t => x b t ⟨k.val - 256, by omega⟩) (len b)

/-- The perceptron on a feature matrix: relu(f · W1 + b1) · W2 + b2, entry (b, o). -/
def tailSpec (f : Fin 128 → Fin 384 → EReal) (w1 : Fin 384 → Fin 64 → EReal) (b1 : Fin 64 → EReal)
    (w2 : Fin 64 → Fin 8 → EReal) (b2 : Fin 8 → EReal) (b : Fin 128) (o : Fin 8) : EReal :=
  (∑ n : Fin 64, max ((∑ k : Fin 384, f b k * w1 k n) + b1 n) 0 * w2 n o) + b2 o

end Cert.Spec

end
-- ==== Proof.KI.Steps.lean ====
/-
  One grid point's contribution to the three running sums, entry by entry, on the extended reals.  At the point with
  time-block coordinate j the block's time step t' is the global step 512·j + t'; the mask entry is [512·j + t' < n]
  (respectively [512·j + t' = n − 1]) for the row's length n, and the lane reduction over the block's time axis is the
  plain sum of the 512 products.
-/
import proofs.«421534_j64965675320093_2_alg».proof.Proof.KI.R0Defs
import proofs.«421534_j64965675320093_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-- The block's time step t' at time-block jb, as a 32-bit word, is the word of the global step 512·jb + t'. -/
private theorem step_word (jb t : ℕ) :
    IntOp.addi (BitVec.ofNat 32 t) (Scalar.muli (BitVec.ofNat 32 jb) 512#32) = BitVec.ofNat 32 (512 * jb + t) := by
  unfold IntOp.addi Scalar.muli IntOp.muli
  apply BitVec.eq_of_toNat_eq
  simp only [BitVec.toNat_add, BitVec.toNat_mul, BitVec.toNat_ofNat]
  omega

/-- A natural below 2³¹, as a 32-bit word read signed, is itself. -/
private theorem toInt_small (n : ℕ) (h : n < 2 ^ 31) : (BitVec.ofNat 32 n).toInt = (n : ℤ) := by
  rw [BitVec.toInt_eq_toNat_cond, BitVec.toNat_ofNat]
  split <;> omega

/-- A step below 2048 is the word L − 1 exactly when it is the signed value of L less one: the wrap of L − 1 at the
    least word gives the greatest, which no such step is. -/
private theorem eq_pred_iff (n : ℕ) (hn : n < 2048) (L : BitVec 32) :
    (BitVec.ofNat 32 n = L - 1#32) ↔ ((n : ℤ) = L.toInt - 1) := by
  rw [BitVec.toInt_eq_toNat_cond]
  constructor
  · intro h
    have := congrArg BitVec.toNat h
    simp only [BitVec.toNat_sub, BitVec.toNat_ofNat] at this
    split <;> omega
  · intro h
    apply BitVec.eq_of_toNat_eq
    simp only [BitVec.toNat_sub, BitVec.toNat_ofNat]
    split at h <;> omega

/-- A one-bit word widened and converted is 1 or 0. -/
private theorem sitofp_bit (p : Bool) :
    FloatOps.sitofp (F := Ideal) .f32 ((BitVec.ofBool p).setWidth 32) = if p then (1 : EReal) else 0 := by
  cases p
  · show (((0#32).toInt : ℝ) : EReal) = _
    simp
  · show (((1#32).toInt : ℝ) : EReal) = _
    simp

/-- The validity mask's entry: [512·jb + t' < n] for the row's length word read signed. -/
private theorem mask_word (jb t : ℕ) (hj : jb ≤ 3) (ht : t < 512) (L : BitVec 32) :
    FloatOps.sitofp (F := Ideal) .f32
        ((IntOp.cmpi .slt (IntOp.addi (BitVec.ofNat 32 t) (Scalar.muli (BitVec.ofNat 32 jb) 512#32)) L).setWidth 32)
      = Cert.Spec.maskE L.toInt (512 * jb + t) := by
  rw [step_word]
  unfold IntOp.cmpi
  simp only [BitVec.slt]
  rw [sitofp_bit, toInt_small _ (by omega)]
  unfold Cert.Spec.maskE
  simp only [decide_eq_true_eq]

/-- The last-step mask's entry: [512·jb + t' = n − 1]. -/
private theorem lastMask_word (jb t : ℕ) (hj : jb ≤ 3) (ht : t < 512) (L : BitVec 32) :
    FloatOps.sitofp (F := Ideal) .f32
        ((IntOp.cmpi .eq (IntOp.addi (BitVec.ofNat 32 t) (Scalar.muli (BitVec.ofNat 32 jb) 512#32)) (IntOp.subi L 1#32)).setWidth 32)
      = Cert.Spec.lastMaskE L.toInt (512 * jb + t) := by
  rw [step_word]
  unfold IntOp.cmpi IntOp.subi
  simp only []
  rw [sitofp_bit]
  unfold Cert.Spec.lastMaskE
  simp only [beq_iff_eq, eq_pred_iff _ (show 512 * jb + t < 2048 by omega)]

/-- The lane reduction over the block's time axis, read at (row, feature): the plain sum over the 512 steps. -/
private theorem laneSum_apply (v : FVec Ideal S64x512x128 .f32) (r : Fin 64) (d : Fin 128) :
    multiReduction .add [1] S64x128 v 0x00000000#32 reduces_S64x512x128_S64x128 (.inl rfl) rfl (ix2 r d)
      = ∑ t : Fin 512, v (ix3 r t d) := by
  refine (Ideal.multiReduction_add_single v _ reduces_S64x512x128_S64x128 _ _ (ix2 r d)).trans ?_
  refine Finset.sum_congr rfl fun t _ => congrArg v ?_
  funext a
  match a with
  | ⟨0, _⟩ => rfl
  | ⟨1, _⟩ => rfl
  | ⟨2, _⟩ => rfl

/-- The time-block coordinate is at most 3. -/
private theorem tb_le (i : grid0.Coords) : (i 1).val ≤ 3 := by
  have h : (i 1).val < 4 := (i 1).isLt
  omega

/-- The row's length word, as the body reads it. -/
private theorem pay7_apply (L : Vec Ideal S64x1 .i32) (r : Fin 64) (u : Fin 1) :
    k0_pay7 (F := Ideal) L (ix2 r u) = L (ix2 r u) := by
  unfold k0_pay7
  rw [shapeCast_self]

/-- The global step's word at (row, block step). -/
private theorem pay9_apply (i : grid0.Coords) (r : Fin 64) (t : Fin 512) :
    k0_pay9 i (ix2 r t) = IntOp.addi (BitVec.ofNat 32 t.val) (Scalar.muli (BitVec.ofNat 32 (i 1).val) 512#32) := by
  unfold k0_pay9
  show IntOp.addi (iota .tc S64x512 32 [1] iota_S64x512_d1_w32 (ix2 r t)) _ = _
  rw [iota_single_apply]
  rfl

/-- A per-row column broadcast along the time axis reads the row's entry. -/
private theorem bcast_row_apply {α : Type} (v : S64x1.Idx → α) (r : Fin 64) (t : Fin 512) :
    broadcastTo S64x512 v broadcasts_S64x1_S64x512 (ix2 r t) = v (ix2 r (0 : Fin 1)) := by
  refine broadcastTo_apply v _ (ix2 r t) (ix2 r (0 : Fin 1)) fun a => ?_
  match a with
  | ⟨0, _⟩ => rfl
  | ⟨1, _⟩ => rfl

/-- A per-(row, step) column broadcast along the feature axis reads the (row, step) entry. -/
private theorem bcast_col_apply {α : Type} (v : S64x512x1.Idx → α) (r : Fin 64) (t : Fin 512) (d : Fin 128) :
    broadcastTo S64x512x128 v broadcasts_S64x512x1_S64x512x128 (ix3 r t d) = v (ix3 r t (0 : Fin 1)) := by
  refine broadcastTo_apply v _ (ix3 r t d) (ix3 r t (0 : Fin 1)) fun a => ?_
  match a with
  | ⟨0, _⟩ => rfl
  | ⟨1, _⟩ => rfl
  | ⟨2, _⟩ => rfl

/-- A (row, step) array given a trailing unit axis reads the (row, step) entry. -/
private theorem cast_col_apply {α : Type} (v : S64x512.Idx → α) (r : Fin 64) (t : Fin 512) (u : Fin 1) :
    shapeCast S64x512x1 v shapeCasts_S64x512_S64x512x1 (ix3 r t u) = v (ix2 r t) := by
  refine shapeCast_apply v _ (ix3 r t u) (ix2 r t) ?_
  rw [Shape.rowMajor_val_three, Shape.rowMajor_val_two]
  show r.val * 512 + t.val = (r.val * 512 + t.val) * 1 + u.val
  omega

/-- The validity mask at (row, block step): [512·j + t' < n]. -/
private theorem pay10_apply (i : grid0.Coords) (L : Vec Ideal S64x1 .i32) (r : Fin 64) (t : Fin 512) (u : Fin 1) :
    k0_pay10 (F := Ideal) i L (ix3 r t u)
      = Cert.Spec.maskE (L (ix2 r (0 : Fin 1))).toInt (512 * (i 1).val + t.val) := by
  unfold k0_pay10
  refine (cast_col_apply _ r t u).trans ?_
  show FloatOps.sitofp (F := Ideal) .f32 ((IntOp.cmpi .slt (k0_pay9 i (ix2 r t))
      (broadcastTo S64x512 (k0_pay7 (F := Ideal) L) broadcasts_S64x1_S64x512 (ix2 r t))).setWidth 32) = _
  rw [pay9_apply, bcast_row_apply, pay7_apply]
  exact mask_word _ _ (tb_le i) t.isLt _

/-- The last-step mask at (row, block step): [512·j + t' = n − 1]. -/
private theorem pay11_apply (i : grid0.Coords) (L : Vec Ideal S64x1 .i32) (r : Fin 64) (t : Fin 512) (u : Fin 1) :
    k0_pay11 (F := Ideal) i L (ix3 r t u)
      = Cert.Spec.lastMaskE (L (ix2 r (0 : Fin 1))).toInt (512 * (i 1).val + t.val) := by
  unfold k0_pay11
  refine (cast_col_apply _ r t u).trans ?_
  show FloatOps.sitofp (F := Ideal) .f32 ((IntOp.cmpi .eq (k0_pay9 i (ix2 r t))
      (broadcastTo S64x512 (subi (k0_pay7 (F := Ideal) L) (broadcast S64x1 1#32)) broadcasts_S64x1_S64x512 (ix2 r t))).setWidth 32) = _
  rw [pay9_apply, bcast_row_apply]
  show FloatOps.sitofp (F := Ideal) .f32 ((IntOp.cmpi .eq _ (IntOp.subi (k0_pay7 (F := Ideal) L (ix2 r (0 : Fin 1))) 1#32)).setWidth 32) = _
  rw [pay7_apply]
  exact lastMask_word _ _ (tb_le i) t.isLt _

/-- The running sums start from zero. -/
theorem zeroAcc_apply (j : S64x128.Idx) : zeroAcc (F := Ideal) j = 0 := by
  unfold zeroAcc k0_pay4
  rw [shapeCast_self]
  exact Ideal.ofBits_zero_f32

/-- The masked sum of the samples after one more block. -/
theorem sumStep_apply (i : grid0.Coords) (L : Vec Ideal S64x1 .i32) (X : Vec Ideal S64x512x128 .f32) (a : Vec Ideal S64x128 .f32)
    (r : Fin 64) (d : Fin 128) :
    sumStep (F := Ideal) i L X a (ix2 r d)
      = a (ix2 r d) + ∑ t : Fin 512, X (ix3 r t d) * Cert.Spec.maskE ((L (ix2 r (0 : Fin 1))).toInt) (512 * (i 1).val + t.val) := by
  unfold sumStep k0_pay12
  rw [shapeCast_self]
  refine congrArg (a (ix2 r d) + ·) ?_
  refine (laneSum_apply _ r d).trans ?_
  refine Finset.sum_congr rfl fun t _ => ?_
  refine congrArg (X (ix3 r t d) * ·) ?_
  exact (bcast_col_apply _ r t d).trans (pay10_apply i L r t 0)

/-- The masked sum of the squared samples after one more block. -/
theorem sqStep_apply (i : grid0.Coords) (L : Vec Ideal S64x1 .i32) (X : Vec Ideal S64x512x128 .f32) (a : Vec Ideal S64x128 .f32)
    (r : Fin 64) (d : Fin 128) :
    sqStep (F := Ideal) i L X a (ix2 r d)
      = a (ix2 r d) + ∑ t : Fin 512, (X (ix3 r t d) * X (ix3 r t d)) * Cert.Spec.maskE ((L (ix2 r (0 : Fin 1))).toInt) (512 * (i 1).val + t.val) := by
  unfold sqStep k0_pay1 k0_pay13
  rw [shapeCast_self]
  refine congrArg (a (ix2 r d) + ·) ?_
  refine (laneSum_apply _ r d).trans ?_
  refine Finset.sum_congr rfl fun t _ => ?_
  refine congrArg ((X (ix3 r t d) * X (ix3 r t d)) * ·) ?_
  exact (bcast_col_apply _ r t d).trans (pay10_apply i L r t 0)

/-- The last-valid-sample pick after one more block. -/
theorem lastStep_apply (i : grid0.Coords) (L : Vec Ideal S64x1 .i32) (X : Vec Ideal S64x512x128 .f32) (a : Vec Ideal S64x128 .f32)
    (r : Fin 64) (d : Fin 128) :
    lastStep (F := Ideal) i L X a (ix2 r d)
      = a (ix2 r d) + ∑ t : Fin 512, X (ix3 r t d) * Cert.Spec.lastMaskE ((L (ix2 r (0 : Fin 1))).toInt) (512 * (i 1).val + t.val) := by
  unfold lastStep k0_pay2
  rw [shapeCast_self]
  refine congrArg (a (ix2 r d) + ·) ?_
  refine (laneSum_apply _ r d).trans ?_
  refine Finset.sum_congr rfl fun t _ => ?_
  refine congrArg (X (ix3 r t d) * ·) ?_
  exact (bcast_col_apply _ r t d).trans (pay11_apply i L r t 0)

end Cert.KernelIdeal.Hand

end
-- ==== Proof.KI.Sums.lean ====
/-
  The three running sums where the time axis ends, entry by entry, on the extended reals.  Row block i0 ∈ {0, 1}
  finishes at point 4·i0 + 3; the four time blocks' contributions, added from zero, are the sums over all 2048
  time steps of the row's samples against the mask [t < n] (for the sum and the sum of squares) and against
  [t = n − 1] (for the last valid sample), n the row's length.
-/
import proofs.«421534_j64965675320093_2_alg».proof.Proof.KI.R0Dat
import proofs.«421534_j64965675320093_2_alg».proof.Proof.KI.Steps
import proofs.«421534_j64965675320093_2_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic
import Mathlib.Data.Fintype.BigOperators

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The point where row block i0's time axis ends. -/
def endPt (i0 : Fin 2) : Fin cfg0.N := ⟨4 * i0.val + 3, by rw [show cfg0.N = 8 from N_0]; omega⟩

/-- Row b's samples of channel d, as a function of the time step. -/
def rowOf (X : Vec Ideal S128x2048x128 .f32) (b : Fin 128) (d : Fin 128) : Fin 2048 → EReal :=
  fun t => X (ix3 b t d)

/-- The length of row b as the region reads it (the lengths reshaped to a column). -/
def lenOf (Lc : Vec Ideal S128x1 .i32) (b : Fin 128) : ℤ := (Lc (ix2 b (0 : Fin 1))).toInt

/-! ## Four block sums make the whole sum -/

/-- A sum over the 2048 time steps is the sum over the four time blocks of the sums over each block's 512 steps:
    step 512·j + t' of block j. -/
theorem sum_blocks (g : Fin 2048 → EReal) :
    (∑ t : Fin 2048, g t) = ∑ j : Fin 4, ∑ t' : Fin 512, g ⟨512 * j.val + t'.val, by omega⟩ := by
  rw [← Fintype.sum_prod_type' (f := fun (j : Fin 4) (t' : Fin 512) => g ⟨512 * j.val + t'.val, by omega⟩)]
  refine (Fintype.sum_equiv (finProdFinEquiv (m := 4) (n := 512)) _ _ (fun p => ?_)).symm
  refine congrArg g (Fin.ext ?_)
  show 512 * p.1.val + p.2.val = p.2.val + 512 * p.1.val
  omega

/-- Four block sums added one after the other from zero make the whole sum. -/
theorem regroup (g : Fin 2048 → EReal) (s0 s1 s2 s3 : EReal)
    (h0 : s0 = ∑ t' : Fin 512, g ⟨512 * (0 : Fin 4).val + t'.val, by omega⟩)
    (h1 : s1 = ∑ t' : Fin 512, g ⟨512 * (1 : Fin 4).val + t'.val, by omega⟩)
    (h2 : s2 = ∑ t' : Fin 512, g ⟨512 * (2 : Fin 4).val + t'.val, by omega⟩)
    (h3 : s3 = ∑ t' : Fin 512, g ⟨512 * (3 : Fin 4).val + t'.val, by omega⟩) :
    0 + s0 + s1 + s2 + s3 = ∑ t : Fin 2048, g t := by
  rw [sum_blocks g, Fin.sum_univ_four, zero_add, h0, h1, h2, h3]

/-! ## The blocks read off the arrays -/

/-- The block index maps over the grid: at point t = 4·i0 + j the lengths' block is (i0, 0), the samples' block is
    (i0, j, 0), and the grid coordinate along time is j. -/
theorem idx_facts0 : ∀ t : Fin cfg0.N,
    win0_0.index t (0 : Fin 2) = t.val / 4 ∧ win0_0.index t (1 : Fin 2) = 0
    ∧ win0_1.index t (0 : Fin 3) = t.val / 4 ∧ win0_1.index t (1 : Fin 3) = t.val % 4 ∧ win0_1.index t (2 : Fin 3) = 0
    ∧ ((grid0.coords t) 1).val = t.val % 4 :=
  (by decide +kernel : ∀ t : Fin grid0.N, _)

/-- Entry (r, t', d) of the samples' block at point p is the array's entry (64·(p / 4) + r, 512·(p % 4) + t', d). -/
theorem xBlk_apply (c : Dev nD) (p : Fin cfg0.N) (r : Fin 64) (t : Fin 512) (d : Fin 128) (b : Fin 128) (s : Fin 2048)
    (hb : b.val = 64 * (p.val / 4) + r.val) (hs : s.val = 512 * (p.val % 4) + t.val) :
    xBlk V c p (ix3 r t d) = V c main_arg0 (ix3 b s d) := by
  obtain ⟨_, _, e0, e1, e2, _⟩ := idx_facts0 p
  show V c main_arg0 (((cfg0.win 1).blk p).view.emb (ix3 r t d)) = V c main_arg0 (ix3 b s d)
  refine congrArg _ ?_
  funext a; apply Fin.ext
  match a with
  | ⟨0, _⟩ => show win0_1.index p (0 : Fin 3) * 64 + 1 * r.val = b.val; omega
  | ⟨1, _⟩ => show win0_1.index p (1 : Fin 3) * 512 + 1 * t.val = s.val; omega
  | ⟨2, _⟩ => show win0_1.index p (2 : Fin 3) * 128 + 1 * d.val = d.val; omega

/-- Entry (r, 0) of the lengths' block at point p is the array's entry (64·(p / 4) + r, 0). -/
theorem lenBlk_apply (c : Dev nD) (p : Fin cfg0.N) (r : Fin 64) (b : Fin 128)
    (hb : b.val = 64 * (p.val / 4) + r.val) :
    lenBlk V c p (ix2 r (0 : Fin 1)) = V c main_v0 (ix2 b (0 : Fin 1)) := by
  obtain ⟨e0, e1, _⟩ := idx_facts0 p
  show V c main_v0 (((cfg0.win 0).blk p).view.emb (ix2 r (0 : Fin 1))) = V c main_v0 (ix2 b (0 : Fin 1))
  refine congrArg _ ?_
  funext a; apply Fin.ext
  match a with
  | ⟨0, _⟩ => show win0_0.index p (0 : Fin 2) * 64 + 1 * r.val = b.val; omega
  | ⟨1, _⟩ => show win0_0.index p (1 : Fin 2) * 1 + 1 * (0 : Fin 1).val = (0 : Fin 1).val; omega

/-! ## One point's step, read on the arrays -/

/-- One point's step at entry (r, d), with the blocks read on the arrays: at point p = 4·i0 + j the three sums of row
    b = 64·i0 + r grow by the block's 512 products, time step 512·j + t' against the row's masks. -/
theorem step_at (c : Dev nD) (p : Fin cfg0.N)
    (a : Vec Ideal S64x128 .f32 × Vec Ideal S64x128 .f32 × Vec Ideal S64x128 .f32)
    (r : Fin 64) (d : Fin 128) (b : Fin 128) (j : Fin 4)
    (hb : b.val = 64 * (p.val / 4) + r.val) (hj : j.val = p.val % 4) :
    (stepFrom V c p a).1 (ix2 r d)
        = a.1 (ix2 r d) + ∑ t : Fin 512, rowOf (V c main_arg0) b d ⟨512 * j.val + t.val, by omega⟩
            * Cert.Spec.maskE (lenOf (V c main_v0) b) (512 * j.val + t.val)
    ∧ (stepFrom V c p a).2.1 (ix2 r d)
        = a.2.1 (ix2 r d) + ∑ t : Fin 512, (rowOf (V c main_arg0) b d ⟨512 * j.val + t.val, by omega⟩
            * rowOf (V c main_arg0) b d ⟨512 * j.val + t.val, by omega⟩)
            * Cert.Spec.maskE (lenOf (V c main_v0) b) (512 * j.val + t.val)
    ∧ (stepFrom V c p a).2.2 (ix2 r d)
        = a.2.2 (ix2 r d) + ∑ t : Fin 512, rowOf (V c main_arg0) b d ⟨512 * j.val + t.val, by omega⟩
            * Cert.Spec.lastMaskE (lenOf (V c main_v0) b) (512 * j.val + t.val) := by
  have hc : ((grid0.coords p) 1).val = j.val := by rw [hj]; exact (idx_facts0 p).2.2.2.2.2
  have hL : (lenBlk V c p (ix2 r (0 : Fin 1))).toInt = lenOf (V c main_v0) b := by
    unfold lenOf; rw [lenBlk_apply V c p r b hb]
  have hX : ∀ t : Fin 512, xBlk V c p (ix3 r t d) = rowOf (V c main_arg0) b d ⟨512 * j.val + t.val, by omega⟩ := fun t => by
    unfold rowOf
    exact xBlk_apply V c p r t d b _ hb (by show 512 * j.val + t.val = _; rw [hj])
  unfold stepFrom
  refine ⟨?_, ?_, ?_⟩
  · refine (sumStep_apply (grid0.coords p) (lenBlk V c p) (xBlk V c p) a.1 r d).trans ?_
    rw [hL, hc]
    exact congrArg _ (Finset.sum_congr rfl fun t _ => by rw [hX t])
  · refine (sqStep_apply (grid0.coords p) (lenBlk V c p) (xBlk V c p) a.2.1 r d).trans ?_
    rw [hL, hc]
    exact congrArg _ (Finset.sum_congr rfl fun t _ => by rw [hX t])
  · refine (lastStep_apply (grid0.coords p) (lenBlk V c p) (xBlk V c p) a.2.2 r d).trans ?_
    rw [hL, hc]
    exact congrArg _ (Finset.sum_congr rfl fun t _ => by rw [hX t])

/-! ## The four points of a row block -/

/-- Point (i0, j) of the grid: 4·i0 + j. -/
def ptOf (i0 : Fin 2) (j : Fin 4) : Fin cfg0.N := ⟨4 * i0.val + j.val, by rw [show cfg0.N = 8 from N_0]; omega⟩

theorem ptOf_val (i0 : Fin 2) (j : Fin 4) : (ptOf i0 j).val = 4 * i0.val + j.val := rfl

/-- The running sums depend on the point's number only. -/
theorem accAt_congr (c : Dev nD) {n m : ℕ} (h : n = m) (hn : n < cfg0.N) (hm : m < cfg0.N) :
    accAt V c n hn = accAt V c m hm := by
  subst h; rfl

/-- Where the row block's time axis starts the sums are one step from zero. -/
theorem acc_pt_first (c : Dev nD) (i0 : Fin 2) :
    accAt V c (ptOf i0 0).val (ptOf i0 0).isLt = stepFrom V c (ptOf i0 0) (zeroAcc, zeroAcc, zeroAcc) :=
  accAt_first V c (ptOf i0 0) (by rw [ptOf_val]; show (4 * i0.val + 0) % 4 = 0; omega)

/-- Further along the row block's time axis the sums are one step from the point before. -/
theorem acc_pt_next (c : Dev nD) (i0 : Fin 2) (j j' : Fin 4) (h : j.val = j'.val + 1) :
    accAt V c (ptOf i0 j).val (ptOf i0 j).isLt
      = stepFrom V c (ptOf i0 j) (accAt V c (ptOf i0 j').val (ptOf i0 j').isLt) := by
  rw [accAt_next V c (ptOf i0 j) (by rw [ptOf_val]; have := j'.isLt; omega)]
  exact congrArg (stepFrom V c (ptOf i0 j)) (accAt_congr V c (by rw [ptOf_val, ptOf_val]; omega) _ _)

/-- The finished sums of row 64·i0 + r, channel d. -/
theorem sums_at (c : Dev nD) (i0 : Fin 2) (r : Fin 64) (d : Fin 128) :
    (accAt V c (endPt i0).val (endPt i0).isLt).1 (ix2 r d)
        = Cert.Spec.sumE (rowOf (V c main_arg0) ⟨64 * i0.val + r.val, by omega⟩ d) (lenOf (V c main_v0) ⟨64 * i0.val + r.val, by omega⟩)
    ∧ (accAt V c (endPt i0).val (endPt i0).isLt).2.1 (ix2 r d)
        = Cert.Spec.sqSumE (rowOf (V c main_arg0) ⟨64 * i0.val + r.val, by omega⟩ d) (lenOf (V c main_v0) ⟨64 * i0.val + r.val, by omega⟩)
    ∧ (accAt V c (endPt i0).val (endPt i0).isLt).2.2 (ix2 r d)
        = Cert.Spec.lastSum (rowOf (V c main_arg0) ⟨64 * i0.val + r.val, by omega⟩ d) (lenOf (V c main_v0) ⟨64 * i0.val + r.val, by omega⟩) := by
  have he : accAt V c (endPt i0).val (endPt i0).isLt = accAt V c (ptOf i0 3).val (ptOf i0 3).isLt :=
    accAt_congr V c (by rw [ptOf_val]; show 4 * i0.val + 3 = 4 * i0.val + 3; rfl) _ _
  have hb : ∀ j : Fin 4, (⟨64 * i0.val + r.val, by omega⟩ : Fin 128).val = 64 * ((ptOf i0 j).val / 4) + r.val := fun j => by
    rw [ptOf_val]; show 64 * i0.val + r.val = _; have := j.isLt; omega
  have hj : ∀ j : Fin 4, j.val = (ptOf i0 j).val % 4 := fun j => by rw [ptOf_val]; have := j.isLt; omega
  rw [he, acc_pt_next V c i0 3 2 rfl, acc_pt_next V c i0 2 1 rfl, acc_pt_next V c i0 1 0 rfl, acc_pt_first V c i0]
  refine ⟨?_, ?_, ?_⟩
  · rw [(step_at V c (ptOf i0 3) _ r d _ 3 (hb 3) (hj 3)).1, (step_at V c (ptOf i0 2) _ r d _ 2 (hb 2) (hj 2)).1,
      (step_at V c (ptOf i0 1) _ r d _ 1 (hb 1) (hj 1)).1, (step_at V c (ptOf i0 0) _ r d _ 0 (hb 0) (hj 0)).1]
    dsimp only
    rw [zeroAcc_apply]
    exact regroup (fun s : Fin 2048 => rowOf (V c main_arg0) ⟨64 * i0.val + r.val, by omega⟩ d s
      * Cert.Spec.maskE (lenOf (V c main_v0) ⟨64 * i0.val + r.val, by omega⟩) s.val) _ _ _ _ rfl rfl rfl rfl
  · rw [(step_at V c (ptOf i0 3) _ r d _ 3 (hb 3) (hj 3)).2.1, (step_at V c (ptOf i0 2) _ r d _ 2 (hb 2) (hj 2)).2.1,
      (step_at V c (ptOf i0 1) _ r d _ 1 (hb 1) (hj 1)).2.1, (step_at V c (ptOf i0 0) _ r d _ 0 (hb 0) (hj 0)).2.1]
    dsimp only
    rw [zeroAcc_apply]
    exact regroup (fun s : Fin 2048 => (rowOf (V c main_arg0) ⟨64 * i0.val + r.val, by omega⟩ d s
      * rowOf (V c main_arg0) ⟨64 * i0.val + r.val, by omega⟩ d s)
      * Cert.Spec.maskE (lenOf (V c main_v0) ⟨64 * i0.val + r.val, by omega⟩) s.val) _ _ _ _ rfl rfl rfl rfl
  · rw [(step_at V c (ptOf i0 3) _ r d _ 3 (hb 3) (hj 3)).2.2, (step_at V c (ptOf i0 2) _ r d _ 2 (hb 2) (hj 2)).2.2,
      (step_at V c (ptOf i0 1) _ r d _ 1 (hb 1) (hj 1)).2.2, (step_at V c (ptOf i0 0) _ r d _ 0 (hb 0) (hj 0)).2.2]
    dsimp only
    rw [zeroAcc_apply]
    exact regroup (fun s : Fin 2048 => rowOf (V c main_arg0) ⟨64 * i0.val + r.val, by omega⟩ d s
      * Cert.Spec.lastMaskE (lenOf (V c main_v0) ⟨64 * i0.val + r.val, by omega⟩) s.val) _ _ _ _ rfl rfl rfl rfl

/-- The lengths block of the end point of row block i0: entry r is row 64·i0 + r's length. -/
theorem lenBlk_at (c : Dev nD) (i0 : Fin 2) (r : Fin 64) :
    ((lenBlk V c (endPt i0)) (ix2 r (0 : Fin 1))).toInt = lenOf (V c main_v0) ⟨64 * i0.val + r.val, by omega⟩ := by
  unfold lenOf
  rw [lenBlk_apply V c (endPt i0) r ⟨64 * i0.val + r.val, by omega⟩
    (by show 64 * i0.val + r.val = 64 * ((4 * i0.val + 3) / 4) + r.val; omega)]

end Cert.KernelIdeal.Hand

end
-- ==== Proof.KI.Feats.lean ====
/-
  The feature block at an entry.  From the finished sums s, q, l of a row block and the rows' lengths n, column k of
  row r is: for k < 128 the mean s/n; for 128 ≤ k < 256 the standard deviation √max((q − (n·μ)·μ)/(n − 1), 0) of
  channel k − 128; for k ≥ 256 the last-valid pick l of channel k − 256.  With the sums read as sums over all time
  steps, the feature array is the specification's featsK of the samples and the lengths.
-/
import proofs.«421534_j64965675320093_2_alg».proof.Proof.KI.ValueA
import proofs.«421534_j64965675320093_2_alg».proof.Proof.KI.Sums
import Idealize.ShloMosaic.Lib.IdealHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- A column broadcast over many: an [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A square root at an index is the square root of the element. -/
theorem sqrt_apply {s : Shape} {φ : FTy} (a : FVec Ideal s φ) (i : s.Idx) : sqrt a i = Ideal.sqrt (a i) := rfl

/-- Three 64 × 128 pieces laid side by side, read at (r, k): piece k / 128 at column k mod 128. -/
theorem concat3_apply {α : Type} (x0 x1 x2 : S64x128.Idx → α) (r : Fin 64) (k : Fin 384) :
    concatenate S64x384 1 [⟨S64x128, x0⟩, ⟨S64x128, x1⟩, ⟨S64x128, x2⟩]
        concatenates_S64x128_S64x128_S64x128_S64x384_d1 (ix2 r k)
      = if h : k.val < 128 then x0 (ix2 r (⟨k.val, h⟩ : Fin 128))
        else if h2 : k.val < 256 then x1 (ix2 r (⟨k.val - 128, by omega⟩ : Fin 128))
        else x2 (ix2 r (⟨k.val - 256, by have := k.isLt; omega⟩ : Fin 128)) := by
  have hoff : ∀ (c : Fin 128) (b : Fin S64x128.rank), b.cast (rfl : S64x128.rank = S64x384.rank) ≠ (1 : Fin 2) →
      ((ix2 r c : S64x128.Idx) b).val = ((ix2 r k : S64x384.Idx) (b.cast rfl)).val := by
    intro c b hb
    match b with
    | ⟨0, _⟩ => rfl
    | ⟨1, _⟩ => exact absurd rfl hb
  by_cases h : k.val < 128
  · rw [dif_pos h]
    exact concatenate_apply_piece (1 : Fin 2) [⟨S64x128, x0⟩, ⟨S64x128, x1⟩, ⟨S64x128, x2⟩] _ (ix2 r k) 0 (by show 0 < 3; omega) S64x128 x0 rfl rfl 0 rfl
      (ix2 r (⟨k.val, h⟩ : Fin 128)) (hoff _) (by show 0 + k.val = k.val; omega)
  · rw [dif_neg h]
    by_cases h2 : k.val < 256
    · rw [dif_pos h2]
      exact concatenate_apply_piece (1 : Fin 2) [⟨S64x128, x0⟩, ⟨S64x128, x1⟩, ⟨S64x128, x2⟩] _ (ix2 r k) 1 (by show 1 < 3; omega) S64x128 x1 rfl rfl 128 rfl
        (ix2 r (⟨k.val - 128, by omega⟩ : Fin 128)) (hoff _) (by show 128 + (k.val - 128) = k.val; omega)
    · rw [dif_neg h2]
      exact concatenate_apply_piece (1 : Fin 2) [⟨S64x128, x0⟩, ⟨S64x128, x1⟩, ⟨S64x128, x2⟩] _ (ix2 r k) 2 (by show 2 < 3; omega) S64x128 x2 rfl rfl 256 rfl
        (ix2 r (⟨k.val - 256, by have := k.isLt; omega⟩ : Fin 128)) (hoff _) (by show 256 + (k.val - 256) = k.val; omega)

/-- The features of 64 rows, entry (r, k), from the three finished sums and the lengths. -/
theorem featsOf_apply (L : Vec Ideal S64x1 .i32) (s q l : Vec Ideal S64x128 .f32) (r : Fin 64) (k : Fin 384) :
    featsOf (F := Ideal) L s q l (ix2 r k) =
      if h : k.val < 128 then
        Ideal.div (s (ix2 r (⟨k.val, h⟩ : Fin 128))) ((((L (ix2 r (0 : Fin 1))).toInt : ℝ) : EReal))
      else if h2 : k.val < 256 then
        Ideal.sqrt (max (Ideal.div
          (q (ix2 r (⟨k.val - 128, by omega⟩ : Fin 128))
            - ((((L (ix2 r (0 : Fin 1))).toInt : ℝ) : EReal)
                * Ideal.div (s (ix2 r (⟨k.val - 128, by omega⟩ : Fin 128))) ((((L (ix2 r (0 : Fin 1))).toInt : ℝ) : EReal)))
              * Ideal.div (s (ix2 r (⟨k.val - 128, by omega⟩ : Fin 128))) ((((L (ix2 r (0 : Fin 1))).toInt : ℝ) : EReal)))
          ((((L (ix2 r (0 : Fin 1))).toInt : ℝ) : EReal) - 1)) 0)
      else l (ix2 r (⟨k.val - 256, by have := k.isLt; omega⟩ : Fin 128)) := by
  unfold featsOf k0_pay3 k0_pay8 k0_pay7
  dsimp only
  rw [concat3_apply]
  simp only [sqrt_apply, maximumf_apply, divf_apply, subf_apply, mulf_apply, broadcast_apply,
    broadcastTo_a1_ab_apply, sitofp_apply, shapeCast_self, Ideal.ofBits_def]
  have hn : (FloatOps.sitofp (F := Ideal) FTy.f32 (L (ix2 r (0 : Fin 1))) : EReal)
      = (((L (ix2 r (0 : Fin 1))).toInt : ℝ) : EReal) := rfl
  rw [hn, Ideal.ofBits_one_f32, Ideal.ofBits_zero_f32]

/-- The features written where row block i0's time axis ends, entry (r, k), are the specification's features of row
    64·i0 + r. -/
theorem featsAt_end (c : Dev nD) (i0 : Fin 2) (r : Fin 64) (k : Fin 384) :
    featsAt V c (endPt i0) (ix2 r k)
      = Cert.Spec.featsK (fun b t d => (V c main_arg0 : Vec Ideal S128x2048x128 .f32) (ix3 b t d))
          (fun b => lenOf (V c main_v0) b) (⟨64 * i0.val + r.val, by omega⟩ : Fin 128) k := by
  unfold featsAt
  rw [featsOf_apply, lenBlk_at V c i0 r]
  unfold Cert.Spec.featsK
  by_cases h : k.val < 128
  · rw [dif_pos h, dif_pos h, (sums_at V c i0 r ⟨k.val, h⟩).1]
    rfl
  · rw [dif_neg h, dif_neg h]
    by_cases h2 : k.val < 256
    · rw [dif_pos h2, dif_pos h2, (sums_at V c i0 r ⟨k.val - 128, by omega⟩).1,
        (sums_at V c i0 r ⟨k.val - 128, by omega⟩).2.1]
      rfl
    · rw [dif_neg h2, dif_neg h2, (sums_at V c i0 r ⟨k.val - 256, by have := k.isLt; omega⟩).2.2]
      rfl

/-- The feature array the reduction leaves, entry (b, k), is the specification's kernel-side features of the sample
    array and the lengths column the region was entered with. -/
theorem featsArr_apply (c : Dev nD) (b : Fin 128) (k : Fin 384) :
    featsArr V c (ix2 b k)
      = Cert.Spec.featsK (fun b t d => (V c main_arg0 : Vec Ideal S128x2048x128 .f32) (ix3 b t d))
          (fun b => lenOf (V c main_v0) b) b k := by
  have e3 : (t0_3 : Fin cfg0.N) = endPt 0 := Fin.ext rfl
  have e7 : (t0_7 : Fin cfg0.N) = endPt 1 := Fin.ext rfl
  have hdef : featsArr V c (ix2 b k)
      = if h : b.val < 64 then featsAt V c t0_3 (ix2 (⟨b.val, h⟩ : Fin 64) k)
        else featsAt V c t0_7 (ix2 (⟨b.val - 64, by have := b.isLt; omega⟩ : Fin 64) k) := rfl
  rw [hdef]
  by_cases hb : b.val < 64
  · rw [dif_pos hb, e3, featsAt_end V c 0 ⟨b.val, hb⟩ k]
    congr 1
    exact Fin.ext (by show 64 * 0 + b.val = b.val; omega)
  · rw [dif_neg hb, e7, featsAt_end V c 1 ⟨b.val - 64, by have := b.isLt; omega⟩ k]
    congr 1
    exact Fin.ext (by show 64 * 1 + (b.val - 64) = b.val; omega)

end Cert.KernelIdeal.Hand

end
-- ==== Proof.KI.Tail.lean ====
/-
  The perceptron's payload at an entry, on the extended reals: with a zero accumulator each matrix product is the
  plain sum over the contracted axis, the bias rows are broadcast along the batch axis, relu is the maximum with zero.
-/
import proofs.«421534_j64965675320093_2_alg».proof.Proof.Gen.KernelIdeal.Skeleton
import proofs.«421534_j64965675320093_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## The two matrix products' operand indices

Both products contract the left operand's second axis with the right operand's first: at output entry (i₀, i₁) and
contraction step q the left operand is read at (i₀, q) and the right at (q, i₁). -/

theorem lhs_first_0 (i : S128x64.Idx) (q : dot_S128x384_S384x64_S128x64_1_0_0_1_n_n.contr.Idx) :
    (dot_S128x384_S384x64_S128x64_1_0_0_1_n_n.lhsIdx i q 0).val = (i 0).val := by
  unfold DotDims.lhsIdx
  rw [dif_neg (show ¬(0 : Fin S128x384.rank) ∈ dot_S128x384_S384x64_S128x64_1_0_0_1_n_n.lhsBatch by decide),
    dif_pos (show (0 : Fin S128x384.rank) ∈ dot_S128x384_S384x64_S128x64_1_0_0_1_n_n.lhsNonContracting by decide)]
  rfl
theorem lhs_first_1 (i : S128x64.Idx) (q : dot_S128x384_S384x64_S128x64_1_0_0_1_n_n.contr.Idx) :
    (dot_S128x384_S384x64_S128x64_1_0_0_1_n_n.lhsIdx i q 1).val = (q ⟨0, by decide⟩).val :=
  dot_S128x384_S384x64_S128x64_1_0_0_1_n_n.lhsIdx_val_of_single rfl i q
theorem rhs_first_0 (i : S128x64.Idx) (q : dot_S128x384_S384x64_S128x64_1_0_0_1_n_n.contr.Idx) :
    (dot_S128x384_S384x64_S128x64_1_0_0_1_n_n.rhsIdx i q 0).val = (q ⟨0, by decide⟩).val :=
  dot_S128x384_S384x64_S128x64_1_0_0_1_n_n.rhsIdx_val_of_single rfl i q
theorem rhs_first_1 (i : S128x64.Idx) (q : dot_S128x384_S384x64_S128x64_1_0_0_1_n_n.contr.Idx) :
    (dot_S128x384_S384x64_S128x64_1_0_0_1_n_n.rhsIdx i q 1).val = (i 1).val := by
  unfold DotDims.rhsIdx
  rw [dif_neg (show ¬(1 : Fin S384x64.rank) ∈ dot_S128x384_S384x64_S128x64_1_0_0_1_n_n.rhsBatch by decide),
    dif_pos (show (1 : Fin S384x64.rank) ∈ dot_S128x384_S384x64_S128x64_1_0_0_1_n_n.rhsNonContracting by decide)]
  rfl

theorem lhs_second_0 (i : S128x8.Idx) (q : dot_S128x64_S64x8_S128x8_1_0_0_1_n_n.contr.Idx) :
    (dot_S128x64_S64x8_S128x8_1_0_0_1_n_n.lhsIdx i q 0).val = (i 0).val := by
  unfold DotDims.lhsIdx
  rw [dif_neg (show ¬(0 : Fin S128x64.rank) ∈ dot_S128x64_S64x8_S128x8_1_0_0_1_n_n.lhsBatch by decide),
    dif_pos (show (0 : Fin S128x64.rank) ∈ dot_S128x64_S64x8_S128x8_1_0_0_1_n_n.lhsNonContracting by decide)]
  rfl
theorem lhs_second_1 (i : S128x8.Idx) (q : dot_S128x64_S64x8_S128x8_1_0_0_1_n_n.contr.Idx) :
    (dot_S128x64_S64x8_S128x8_1_0_0_1_n_n.lhsIdx i q 1).val = (q ⟨0, by decide⟩).val :=
  dot_S128x64_S64x8_S128x8_1_0_0_1_n_n.lhsIdx_val_of_single rfl i q
theorem rhs_second_0 (i : S128x8.Idx) (q : dot_S128x64_S64x8_S128x8_1_0_0_1_n_n.contr.Idx) :
    (dot_S128x64_S64x8_S128x8_1_0_0_1_n_n.rhsIdx i q 0).val = (q ⟨0, by decide⟩).val :=
  dot_S128x64_S64x8_S128x8_1_0_0_1_n_n.rhsIdx_val_of_single rfl i q
theorem rhs_second_1 (i : S128x8.Idx) (q : dot_S128x64_S64x8_S128x8_1_0_0_1_n_n.contr.Idx) :
    (dot_S128x64_S64x8_S128x8_1_0_0_1_n_n.rhsIdx i q 1).val = (i 1).val := by
  unfold DotDims.rhsIdx
  rw [dif_neg (show ¬(1 : Fin S64x8.rank) ∈ dot_S128x64_S64x8_S128x8_1_0_0_1_n_n.rhsBatch by decide),
    dif_pos (show (1 : Fin S64x8.rank) ∈ dot_S128x64_S64x8_S128x8_1_0_0_1_n_n.rhsNonContracting by decide)]
  rfl

/-! ## Each product into a zero accumulator is the plain sum over the contracted axis -/

/-- (x · y)(b, n) = Σ_k x(b, k) · y(k, n), the 384-step product. -/
theorem first_product (x : FVec Ideal S128x384 .f32) (y : FVec Ideal S384x64 .f32) (b : Fin 128) (n : Fin 64) :
    matmul dot_S128x384_S384x64_S128x64_1_0_0_1_n_n none x y (constant (F := Ideal) S128x64 .f32 0x00000000#32) (ix2 b n)
      = ∑ k : Fin 384, x (ix2 b k) * y (ix2 k n) := by
  refine (Ideal.matmul_constant_zero_apply dot_S128x384_S384x64_S128x64_1_0_0_1_n_n none x y (ix2 b n)).trans ?_
  rw [← Equiv.sum_comp (contrEquiv1 dot_S128x384_S384x64_S128x64_1_0_0_1_n_n 384 rfl rfl).symm]
  refine Finset.sum_congr rfl fun k _ => ?_
  have hk := contrEquiv1_symm_val dot_S128x384_S384x64_S128x64_1_0_0_1_n_n 384 rfl rfl k
  have el : dot_S128x384_S384x64_S128x64_1_0_0_1_n_n.lhsIdx (ix2 b n) ((contrEquiv1 dot_S128x384_S384x64_S128x64_1_0_0_1_n_n 384 rfl rfl).symm k) = ix2 b k :=
    funext fun a => Fin.ext (by
      match a with
      | ⟨0, _⟩ => exact lhs_first_0 _ _
      | ⟨1, _⟩ => exact (lhs_first_1 _ _).trans hk)
  have er : dot_S128x384_S384x64_S128x64_1_0_0_1_n_n.rhsIdx (ix2 b n) ((contrEquiv1 dot_S128x384_S384x64_S128x64_1_0_0_1_n_n 384 rfl rfl).symm k) = ix2 k n :=
    funext fun a => Fin.ext (by
      match a with
      | ⟨0, _⟩ => exact (rhs_first_0 _ _).trans hk
      | ⟨1, _⟩ => exact rhs_first_1 _ _)
  rw [el, er]

/-- (x · y)(b, o) = Σ_n x(b, n) · y(n, o), the 64-step product. -/
theorem second_product (x : FVec Ideal S128x64 .f32) (y : FVec Ideal S64x8 .f32) (b : Fin 128) (o : Fin 8) :
    matmul dot_S128x64_S64x8_S128x8_1_0_0_1_n_n none x y (constant (F := Ideal) S128x8 .f32 0x00000000#32) (ix2 b o)
      = ∑ n : Fin 64, x (ix2 b n) * y (ix2 n o) := by
  refine (Ideal.matmul_constant_zero_apply dot_S128x64_S64x8_S128x8_1_0_0_1_n_n none x y (ix2 b o)).trans ?_
  rw [← Equiv.sum_comp (contrEquiv1 dot_S128x64_S64x8_S128x8_1_0_0_1_n_n 64 rfl rfl).symm]
  refine Finset.sum_congr rfl fun n _ => ?_
  have hn := contrEquiv1_symm_val dot_S128x64_S64x8_S128x8_1_0_0_1_n_n 64 rfl rfl n
  have el : dot_S128x64_S64x8_S128x8_1_0_0_1_n_n.lhsIdx (ix2 b o) ((contrEquiv1 dot_S128x64_S64x8_S128x8_1_0_0_1_n_n 64 rfl rfl).symm n) = ix2 b n :=
    funext fun a => Fin.ext (by
      match a with
      | ⟨0, _⟩ => exact lhs_second_0 _ _
      | ⟨1, _⟩ => exact (lhs_second_1 _ _).trans hn)
  have er : dot_S128x64_S64x8_S128x8_1_0_0_1_n_n.rhsIdx (ix2 b o) ((contrEquiv1 dot_S128x64_S64x8_S128x8_1_0_0_1_n_n 64 rfl rfl).symm n) = ix2 n o :=
    funext fun a => Fin.ext (by
      match a with
      | ⟨0, _⟩ => exact (rhs_second_0 _ _).trans hn
      | ⟨1, _⟩ => exact rhs_second_1 _ _)
  rw [el, er]

/-! ## The bias rows and the hidden layer

A bias vector is read as a one-row matrix and that row repeated down the batch axis: at (b, n) it is the vector's
entry n. The hidden layer at (b, n) is the maximum with zero of the first product plus the bias. -/

/-- The first bias, as the body spreads it over the 128 rows, at (b, n). -/
theorem bias_first (v : FVec Ideal S64 .f32) (b : Fin 128) (n : Fin 64) :
    broadcastTo S128x64 (shapeCast S1x64 v shapeCasts_S64_S1x64) broadcasts_S1x64_S128x64 (ix2 b n) = v (ix1 n) :=
  (broadcastTo_1b_ab_apply (shapeCast S1x64 v shapeCasts_S64_S1x64) broadcasts_S1x64_S128x64 b n).trans
    (shapeCast_a_1a_apply v shapeCasts_S64_S1x64 (0 : Fin 1) n)

/-- The second bias, likewise, at (b, o). -/
theorem bias_second (v : FVec Ideal S8 .f32) (b : Fin 128) (o : Fin 8) :
    broadcastTo S128x8 (shapeCast S1x8 v shapeCasts_S8_S1x8) broadcasts_S1x8_S128x8 (ix2 b o) = v (ix1 o) :=
  (broadcastTo_1b_ab_apply (shapeCast S1x8 v shapeCasts_S8_S1x8) broadcasts_S1x8_S128x8 b o).trans
    (shapeCast_a_1a_apply v shapeCasts_S8_S1x8 (0 : Fin 1) o)

/-- The hidden layer as the body computes it: relu(f · W1 + b1). -/
def hiddenLayer (f : FVec Ideal S128x384 .f32) (w1 : FVec Ideal S384x64 .f32) (b1 : FVec Ideal S64 .f32) : FVec Ideal S128x64 .f32 :=
  maximumf
    (addf
      (matmul dot_S128x384_S384x64_S128x64_1_0_0_1_n_n none (shapeCast S128x384 f shapeCasts_S128x384_S128x384) w1
        (constant (F := Ideal) S128x64 .f32 0x00000000#32))
      (broadcastTo S128x64 (shapeCast S1x64 b1 shapeCasts_S64_S1x64) broadcasts_S1x64_S128x64))
    (broadcast S128x64 (Scalar.ofBits (F := Ideal) .f32 0x00000000#32))

/-- The hidden layer at (b, n): max(Σ_k f(b, k) · W1(k, n) + b1(n), 0). -/
theorem hiddenLayer_apply (f : FVec Ideal S128x384 .f32) (w1 : FVec Ideal S384x64 .f32) (b1 : FVec Ideal S64 .f32)
    (b : Fin 128) (n : Fin 64) :
    hiddenLayer f w1 b1 (ix2 b n) = max ((∑ k : Fin 384, f (ix2 b k) * w1 (ix2 k n)) + b1 (ix1 n)) 0 := by
  unfold hiddenLayer
  rw [maximumf_apply, addf_apply, broadcast_apply, shapeCast_self, first_product, bias_first]
  show max _ (Ideal.ofBits .f32 0x00000000#32) = _
  rw [Ideal.ofBits_zero_f32]

/-- The body's result is the second product of the hidden layer, plus the second bias. -/
theorem payload_eq (f : FVec Ideal S128x384 .f32) (w1 : FVec Ideal S384x64 .f32) (b1 : FVec Ideal S64 .f32)
    (w2 : FVec Ideal S64x8 .f32) (b2 : FVec Ideal S8 .f32) :
    k1_pay1 (F := Ideal) f w1 b1 w2 b2
      = addf (matmul dot_S128x64_S64x8_S128x8_1_0_0_1_n_n none (hiddenLayer f w1 b1) w2 (constant (F := Ideal) S128x8 .f32 0x00000000#32))
          (broadcastTo S128x8 (shapeCast S1x8 b2 shapeCasts_S8_S1x8) broadcasts_S1x8_S128x8) := rfl

/-- relu(f · W1 + b1) · W2 + b2 at entry (b, o). -/
theorem mlp_apply (f : Vec Ideal S128x384 .f32) (w1 : Vec Ideal S384x64 .f32) (b1 : Vec Ideal S64 .f32)
    (w2 : Vec Ideal S64x8 .f32) (b2 : Vec Ideal S8 .f32) (b : Fin 128) (o : Fin 8) :
    k1_pay1 (F := Ideal) f w1 b1 w2 b2 (ix2 b o)
      = Cert.Spec.tailSpec (fun b k => f (ix2 b k)) (fun k n => w1 (ix2 k n)) (fun n => b1 (ix1 n))
          (fun n o => w2 (ix2 n o)) (fun o => b2 (ix1 o)) b o := by
  rw [payload_eq, addf_apply, second_product, bias_second]
  unfold Cert.Spec.tailSpec
  refine congrArg (· + b2 (ix1 o)) (Finset.sum_congr rfl fun n _ => ?_)
  rw [hiddenLayer_apply]

end Cert.KernelIdeal.Hand

end
-- ==== Proof.KI.Value.lean ====
/-
  The program's result as a function of its six arguments, entry by entry, on the extended reals: the perceptron of
  the feature matrix the reduction leaves, which is the specification's kernel-side features of the samples and the
  lengths.  Between the segments: the host stretch only reshapes the lengths into a column (entry (b, 0) is length b)
  and leaves the samples alone; the reduction leaves the weights and biases alone.
-/
import proofs.«421534_j64965675320093_2_alg».proof.Proof.KI.Run
import proofs.«421534_j64965675320093_2_alg».proof.Proof.KI.ValueA
import proofs.«421534_j64965675320093_2_alg».proof.Proof.KI.Feats
import proofs.«421534_j64965675320093_2_alg».proof.Proof.KI.Tail
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (ρ : Dev nD → PrngReg)

/-- The samples reach the reduction as launched. -/
theorem V1_main_arg0 (c : Dev nD) : V1 m ρ c main_arg0 = m ((c : Thread nD τ).loc main_arg0) :=
  (W1_of_ne m ρ c main_arg0 (by decide)).trans rfl

/-- The lengths column the reduction reads is the reshape of the lengths. -/
theorem V1_main_v0 (c : Dev nD) :
    (V1 m ρ c main_v0 : Vec Ideal S128x1 .i32) = shapeCast S128x1 (m ((c : Thread nD τ).loc main_arg1)) Facts₀.shapeCasts_S128_S128x1 := by
  show StableHlo.after hostOps0 (W0 m ρ c) (Proc.devRef .tc main_v0) = _
  after_results
  rfl

/-- Entry (b, 0) of the column is length b. -/
theorem lenOf_V1 (c : Dev nD) (b : Fin 128) :
    lenOf (V1 m ρ c main_v0) b = ((m ((c : Thread nD τ).loc main_arg1) : Vec Ideal S128 .i32) (ix1 b)).toInt := by
  unfold lenOf
  rw [V1_main_v0]
  refine congrArg BitVec.toInt ?_
  refine shapeCast_apply _ _ (ix2 b (0 : Fin 1)) (ix1 b) ?_
  rw [Shape.rowMajor_val_one, Shape.rowMajor_val_two]
  show b.val = b.val * 1 + 0
  omega

/-- The feature matrix reaches the perceptron as the reduction left it. -/
theorem V2_main_v1 (c : Dev nD) : V2 m ρ c main_v1 = (dat0 (V1 m ρ) c).arrAt 2 cfg0.N := W2_arr m ρ c 2

theorem V2_main_arg2 (c : Dev nD) : V2 m ρ c main_arg2 = m ((c : Thread nD τ).loc main_arg2) :=
  (W2_of_ne m ρ c main_arg2 (by decide)).trans ((W1_of_ne m ρ c main_arg2 (by decide)).trans rfl)
theorem V2_main_arg3 (c : Dev nD) : V2 m ρ c main_arg3 = m ((c : Thread nD τ).loc main_arg3) :=
  (W2_of_ne m ρ c main_arg3 (by decide)).trans ((W1_of_ne m ρ c main_arg3 (by decide)).trans rfl)
theorem V2_main_arg4 (c : Dev nD) : V2 m ρ c main_arg4 = m ((c : Thread nD τ).loc main_arg4) :=
  (W2_of_ne m ρ c main_arg4 (by decide)).trans ((W1_of_ne m ρ c main_arg4 (by decide)).trans rfl)
theorem V2_main_arg5 (c : Dev nD) : V2 m ρ c main_arg5 = m ((c : Thread nD τ).loc main_arg5) :=
  (W2_of_ne m ρ c main_arg5 (by decide)).trans ((W1_of_ne m ρ c main_arg5 (by decide)).trans rfl)

/-- The program's result, entry (b, o): the perceptron of the kernel-side features. -/
theorem kernel_out_apply (c : Dev nD) (b : Fin 128) (o : Fin 8) :
    ((dat1 (V2 m ρ) c).arrAt 5 cfg1.N : Vec Ideal S128x8 .f32) (ix2 b o)
      = Cert.Spec.tailSpec
          (Cert.Spec.featsK (fun b t d => (m ((c : Thread nD τ).loc main_arg0) : Vec Ideal S128x2048x128 .f32) (ix3 b t d))
            (fun b => ((m ((c : Thread nD τ).loc main_arg1) : Vec Ideal S128 .i32) (ix1 b)).toInt))
          (fun k n => (m ((c : Thread nD τ).loc main_arg2) : Vec Ideal S384x64 .f32) (ix2 k n))
          (fun n => (m ((c : Thread nD τ).loc main_arg3) : Vec Ideal S64 .f32) (ix1 n))
          (fun n o => (m ((c : Thread nD τ).loc main_arg4) : Vec Ideal S64x8 .f32) (ix2 n o))
          (fun o => (m ((c : Thread nD τ).loc main_arg5) : Vec Ideal S8 .f32) (ix1 o)) b o := by
  rw [arrAt1_out (V2 m ρ) c, mlp_apply]
  rw [V2_main_arg2, V2_main_arg3, V2_main_arg4, V2_main_arg5, V2_main_v1, arrAt0_out (V1 m ρ) c]
  congr 1
  funext b' k'
  rw [featsArr_apply (V1 m ρ) c b' k', V1_main_arg0]
  congr 1
  funext b''
  exact lenOf_V1 m ρ c b''

end Cert.KernelIdeal.Hand

end
-- ==== Proof.RefFeats.lean ====
/-
  The reference's feature matrix at an entry.  It is the concatenation along the columns of the masked means, the
  centred standard deviations and the gathered row x[b, n_b − 1, ·]; for a length 1 ≤ n_b ≤ 2048 the gather's index is
  in range and is not wrapped, so column k ≥ 256 reads the sample at time step n_b − 1.
-/
import proofs.«421534_j64965675320093_2_alg».proof.Proof.Gen.ReferenceIdeal.Read
import proofs.«421534_j64965675320093_2_alg».proof.Proof.Spec
import Idealize.ShloMosaic.Lib.ValueLayout
import Idealize.ShloMosaic.Lib.IdealHost
import Idealize.ShloMosaic.Lib.WordArith

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## Words: the mask bit, the length, the gather's two index words -/

/-- The bit of "t < n" on signed 32-bit words, for a time step t < 2048, read as a float: the mask [t < n]. -/
theorem mask_word (t : ℕ) (ht : t < 2048) (n : BitVec 32) :
    FloatOps.uitofp (F := Ideal) .f32 (IntOp.cmpi .slt (BitVec.ofNat 32 t) n) = Cert.Spec.maskE n.toInt t := by
  have ht' : (BitVec.ofNat 32 t).toInt = (t : ℤ) := WordArith.toInt_ofNat_small t (by omega)
  have hb : (BitVec.ofNat 32 t).slt n = decide ((t : ℤ) < n.toInt) := by
    show decide ((BitVec.ofNat 32 t).toInt < n.toInt) = _
    rw [ht']
  show (((BitVec.ofBool ((BitVec.ofNat 32 t).slt n)).toNat : ℝ) : EReal) = if (t : ℤ) < n.toInt then 1 else 0
  rw [hb]
  by_cases h : (t : ℤ) < n.toInt
  · rw [decide_eq_true h, if_pos h]; simp
  · rw [decide_eq_false h, if_neg h]; simp

/-- A length word converted to a float is the length. -/
theorem cnt_word (n : BitVec 32) : FloatOps.sitofp (F := Ideal) .f32 n = Cert.Spec.cntE n.toInt := rfl

/-- For a length 1 ≤ n ≤ 2048 the word n − 1 does not wrap: it reads signed as n − 1. -/
theorem toInt_pred (n : BitVec 32) (h1 : 1 ≤ n.toInt) (h2 : n.toInt ≤ 2048) :
    (IntOp.subi n 1#32).toInt = n.toInt - 1 := by
  have e1 : (1#32 : BitVec 32).toInt = 1 := by decide
  show (n - 1#32).toInt = _
  rw [WordArith.toInt_sub_of_bounds n 1#32 (by rw [e1]; omega) (by rw [e1]; omega), e1]

/-- The wrap of a negative index (add the extent where the word is negative) leaves a non-negative word alone. -/
theorem wrap_of_nonneg (w d : BitVec 32) (h : 0 ≤ w.toInt) :
    Scalar.select (IntOp.cmpi .slt w 0#32) (IntOp.addi w d) w = w := by
  have hlt : w.slt 0#32 = false := by
    simp only [BitVec.slt, BitVec.toInt_zero, decide_eq_false_iff_not, Int.not_lt]
    exact h
  show (if BitVec.ofBool (w.slt 0#32) = 1 then _ else _) = _
  rw [hlt]
  rfl

/-! ## The mask and the length at an entry -/

/-- The mask of row b at time step t. -/
theorem mask2_apply (x1 : (⟨S128, .i32⟩ : BufTy).Contents (Elt Ideal)) (b : Fin 128) (t : Fin 2048) :
    Read.val_main_v6 (F := Ideal) x1 (ix2 b t) = Cert.Spec.maskE (x1 (ix1 b)).toInt t.val := by
  rw [Read.val_main_v6_apply, Read.val_main_v5_apply, Read.val_main_v3_apply, Read.val_main_v1_apply, Read.val_main_v0_apply,
    Read.val_main_v4_apply, Read.val_main_v2_apply]
  have e : Read.idx_main_v2 (Read.idx_main_v4 (ix2 b t)) = ix1 b :=
    funext fun a => Fin.ext (by match a with | ⟨0, _⟩ => rfl)
  rw [e]
  exact mask_word t.val t.isLt _

/-- The mask broadcast over the channels (its first use, in the masked sum). -/
theorem mask3_apply (x1 : (⟨S128, .i32⟩ : BufTy).Contents (Elt Ideal)) (b : Fin 128) (t : Fin 2048) (d : Fin 128) :
    Read.val_main_v10 (F := Ideal) x1 (ix3 b t d) = Cert.Spec.maskE (x1 (ix1 b)).toInt t.val := by
  rw [Read.val_main_v10_apply, Read.val_main_v7_apply]
  have e : Read.idx_main_v7 (Read.idx_main_v10 (ix3 b t d)) = ix2 b t :=
    funext fun a => Fin.ext (by match a with | ⟨0, _⟩ => rfl | ⟨1, _⟩ => rfl)
  rw [e]
  exact mask2_apply x1 b t

/-- The mask broadcast over the channels (its second use, in the centred sum). -/
theorem mask3'_apply (x1 : (⟨S128, .i32⟩ : BufTy).Contents (Elt Ideal)) (b : Fin 128) (t : Fin 2048) (d : Fin 128) :
    Read.val_main_v19 (F := Ideal) x1 (ix3 b t d) = Cert.Spec.maskE (x1 (ix1 b)).toInt t.val := by
  rw [Read.val_main_v19_apply, Read.val_main_v7_apply]
  have e : Read.idx_main_v7 (Read.idx_main_v19 (ix3 b t d)) = ix2 b t :=
    funext fun a => Fin.ext (by match a with | ⟨0, _⟩ => rfl | ⟨1, _⟩ => rfl)
  rw [e]
  exact mask2_apply x1 b t

/-- The length of row b as a float, broadcast over the channels. -/
theorem cnt_apply (x1 : (⟨S128, .i32⟩ : BufTy).Contents (Elt Ideal)) (b d : Fin 128) :
    Read.val_main_v13 (F := Ideal) x1 (ix2 b d) = Cert.Spec.cntE (x1 (ix1 b)).toInt := by
  rw [Read.val_main_v13_apply, Read.val_main_v9_apply, Read.val_main_v8_apply]
  have e : Read.idx_main_v9 (Read.idx_main_v13 (ix2 b d)) = ix1 b :=
    funext fun a => Fin.ext (by match a with | ⟨0, _⟩ => rfl)
  rw [e]
  rfl

/-- The length of row b less one, broadcast over the channels. -/
theorem cnt1_apply (x1 : (⟨S128, .i32⟩ : BufTy).Contents (Elt Ideal)) (b d : Fin 128) :
    Read.val_main_v24 (F := Ideal) x1 (ix2 b d) = Cert.Spec.cntE (x1 (ix1 b)).toInt - 1 := by
  rw [Read.val_main_v24_apply, Read.val_main_v23_apply, Read.val_main_v9_apply, Read.val_main_v8_apply, Read.val_main_v22_apply,
    Read.val_main_cst_1_apply, Ideal.subf_def, Ideal.ofBits_def, Ideal.ofBits_one_f32]
  have e : Read.idx_main_v9 (Read.idx_main_v24 (ix2 b d)) = ix1 b :=
    funext fun a => Fin.ext (by match a with | ⟨0, _⟩ => rfl)
  rw [e]
  rfl

/-! ## The mean and the centred standard deviation at an entry -/

/-- The masked sum of channel d of row b. -/
theorem sum_apply (x0 : (⟨S128x2048x128, .f32⟩ : BufTy).Contents (Elt Ideal)) (x1 : (⟨S128, .i32⟩ : BufTy).Contents (Elt Ideal))
    (b d : Fin 128) :
    Read.val_main_v12 (F := Ideal) x0 x1 (ix2 b d) = Cert.Spec.sumE (fun t => x0 (ix3 b t d)) (x1 (ix1 b)).toInt := by
  rw [Read.val_main_v12_apply, Read.val_main_cst_apply, Ideal.ofBits_def, Ideal.ofBits_zero_f32, zero_add]
  unfold Cert.Spec.sumE
  refine Finset.sum_congr rfl fun t _ => ?_
  have e : Read.idx_main_v12 (ix2 b d) t = ix3 b t d :=
    funext fun a => Fin.ext (by match a with | ⟨0, _⟩ => rfl | ⟨1, _⟩ => rfl | ⟨2, _⟩ => rfl)
  rw [e, Read.val_main_v11_apply, mask3_apply, Ideal.mulf_def]

/-- The masked mean of channel d of row b. -/
theorem mean_apply (x0 : (⟨S128x2048x128, .f32⟩ : BufTy).Contents (Elt Ideal)) (x1 : (⟨S128, .i32⟩ : BufTy).Contents (Elt Ideal))
    (b d : Fin 128) :
    Read.val_main_v14 (F := Ideal) x0 x1 (ix2 b d) = Cert.Spec.meanE (fun t => x0 (ix3 b t d)) (x1 (ix1 b)).toInt := by
  rw [Read.val_main_v14_apply, Ideal.hostDivf_def, sum_apply, cnt_apply]
  rfl

/-- The masked sum of the squared deviations from the mean. -/
theorem csum_apply (x0 : (⟨S128x2048x128, .f32⟩ : BufTy).Contents (Elt Ideal)) (x1 : (⟨S128, .i32⟩ : BufTy).Contents (Elt Ideal))
    (b d : Fin 128) :
    Read.val_main_v21 (F := Ideal) x0 x1 (ix2 b d)
      = ∑ t : Fin 2048, ((x0 (ix3 b t d) - Cert.Spec.meanE (fun t => x0 (ix3 b t d)) (x1 (ix1 b)).toInt)
          * (x0 (ix3 b t d) - Cert.Spec.meanE (fun t => x0 (ix3 b t d)) (x1 (ix1 b)).toInt)) * Cert.Spec.maskE (x1 (ix1 b)).toInt t.val := by
  rw [Read.val_main_v21_apply, Read.val_main_cst_0_apply, Ideal.ofBits_def, Ideal.ofBits_zero_f32, zero_add]
  refine Finset.sum_congr rfl fun t _ => ?_
  have e : Read.idx_main_v21 (ix2 b d) t = ix3 b t d :=
    funext fun a => Fin.ext (by match a with | ⟨0, _⟩ => rfl | ⟨1, _⟩ => rfl | ⟨2, _⟩ => rfl)
  have e2 : Read.idx_main_v15 (Read.idx_main_v16 (ix3 b t d)) = ix2 b d :=
    funext fun a => Fin.ext (by match a with | ⟨0, _⟩ => rfl | ⟨1, _⟩ => rfl)
  rw [e, Read.val_main_v20_apply, Read.val_main_v18_apply, Read.val_main_v17_apply, Read.val_main_v16_apply, Read.val_main_v15_apply,
    e2, mean_apply, mask3'_apply]
  simp only [Ideal.mulf_def, Ideal.subf_def]

/-- The centred standard deviation of channel d of row b. -/
theorem std_apply (x0 : (⟨S128x2048x128, .f32⟩ : BufTy).Contents (Elt Ideal)) (x1 : (⟨S128, .i32⟩ : BufTy).Contents (Elt Ideal))
    (b d : Fin 128) :
    Read.val_main_v26 (F := Ideal) x0 x1 (ix2 b d) = Cert.Spec.stdCentred (fun t => x0 (ix3 b t d)) (x1 (ix1 b)).toInt := by
  rw [Read.val_main_v26_apply, Ideal.hostUnary_sqrt_def, Read.val_main_v25_apply, Ideal.hostDivf_def, csum_apply, cnt1_apply]
  rfl

/-! ## The gather at an entry

Result entry (b, d) reads the samples at (the first index word of row b, the second index word of row b, d): the two
leading axes are collapsed and take their starts from the index array's two columns, each read signed and clamped into
its axis, and the channel axis is the slice's offset. -/

/-- Axis 0 of the index the gather reads: the first index word of row b, clamped into the 128 rows. -/
theorem gather_axis0 (idx : IVec S128x2 32) (b d : Fin 128) :
    gather_S128x2048x128_S128x2_S128x128_1_01_n_n_01_1_11128.start (ix2 b d) idx 0 + gather_S128x2048x128_S128x2_S128x128_1_01_n_n_01_1_11128.batchCoord (ix2 b d) 0 + gather_S128x2048x128_S128x2_S128x128_1_01_n_n_01_1_11128.offCoord (ix2 b d) 0
      = min (idx (ix2 b (0 : Fin 2))).toInt.toNat 127 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S128x2048x128.rank) ∈ gather_S128x2048x128_S128x2_S128x128_1_01_n_n_01_1_11128.startIndexMap by decide)]
  have hsi : gather_S128x2048x128_S128x2_S128x128_1_01_n_n_01_1_11128.siIdx (ix2 b d) ⟨List.idxOf (0 : Fin S128x2048x128.rank) gather_S128x2048x128_S128x2_S128x128_1_01_n_n_01_1_11128.startIndexMap,
      List.idxOf_lt_length_iff.2 (by decide)⟩ = ix2 b (0 : Fin 2) := by
    funext c; refine Fin.ext ?_
    match c with
    | ⟨0, _⟩ => rfl
    | ⟨1, _⟩ => rfl
  rw [hsi]
  rfl

/-- Axis 1: the second index word of row b, clamped into the 2048 time steps. -/
theorem gather_axis1 (idx : IVec S128x2 32) (b d : Fin 128) :
    gather_S128x2048x128_S128x2_S128x128_1_01_n_n_01_1_11128.start (ix2 b d) idx 1 + gather_S128x2048x128_S128x2_S128x128_1_01_n_n_01_1_11128.batchCoord (ix2 b d) 1 + gather_S128x2048x128_S128x2_S128x128_1_01_n_n_01_1_11128.offCoord (ix2 b d) 1
      = min (idx (ix2 b (1 : Fin 2))).toInt.toNat 2047 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin S128x2048x128.rank) ∈ gather_S128x2048x128_S128x2_S128x128_1_01_n_n_01_1_11128.startIndexMap by decide)]
  have hsi : gather_S128x2048x128_S128x2_S128x128_1_01_n_n_01_1_11128.siIdx (ix2 b d) ⟨List.idxOf (1 : Fin S128x2048x128.rank) gather_S128x2048x128_S128x2_S128x128_1_01_n_n_01_1_11128.startIndexMap,
      List.idxOf_lt_length_iff.2 (by decide)⟩ = ix2 b (1 : Fin 2) := by
    funext c; refine Fin.ext ?_
    match c with
    | ⟨0, _⟩ => rfl
    | ⟨1, _⟩ => rfl
  rw [hsi]
  rfl

/-- Axis 2: the channel d. -/
theorem gather_axis2 (idx : IVec S128x2 32) (b d : Fin 128) :
    gather_S128x2048x128_S128x2_S128x128_1_01_n_n_01_1_11128.start (ix2 b d) idx 2 + gather_S128x2048x128_S128x2_S128x128_1_01_n_n_01_1_11128.batchCoord (ix2 b d) 2 + gather_S128x2048x128_S128x2_S128x128_1_01_n_n_01_1_11128.offCoord (ix2 b d) 2 = d.val := by
  rw [GatherDims.batchCoord_eq_zero _ _ _ List.not_mem_nil]
  unfold GatherDims.start GatherDims.offCoord
  rw [dif_neg (show ¬(2 : Fin S128x2048x128.rank) ∈ gather_S128x2048x128_S128x2_S128x128_1_01_n_n_01_1_11128.startIndexMap by decide),
    dif_pos (show (2 : Fin S128x2048x128.rank) ∈ gather_S128x2048x128_S128x2_S128x128_1_01_n_n_01_1_11128.sKept by decide)]
  simp only [Nat.add_zero, Nat.zero_add]
  rfl

/-- The gather at entry (b, d), given the rows' two clamped index words. -/
theorem gather_apply {α : Type} (x : S128x2048x128.Idx → α) (idx : IVec S128x2 32) (b d : Fin 128) (r : Fin 128) (s : Fin 2048)
    (hr : min (idx (ix2 b (0 : Fin 2))).toInt.toNat 127 = r.val)
    (hs : min (idx (ix2 b (1 : Fin 2))).toInt.toNat 2047 = s.val) :
    Host.gather gather_S128x2048x128_S128x2_S128x128_1_01_n_n_01_1_11128 x idx (ix2 b d) = x (ix3 r s d) := by
  unfold Host.gather
  refine congrArg x (funext fun a => Fin.ext ?_)
  match a with
  | ⟨0, _⟩ => exact (gather_axis0 idx b d).trans hr
  | ⟨1, _⟩ => exact (gather_axis1 idx b d).trans hs
  | ⟨2, _⟩ => exact gather_axis2 idx b d

/-! ## The index array: its two columns at row b -/

/-- Column 0 of the index array is the row number b: a non-negative word, which the wrap leaves alone. -/
theorem idx_col0 (x1 : (⟨S128, .i32⟩ : BufTy).Contents (Elt Ideal)) (b : Fin 128) :
    Read.val_main_v42 (F := Ideal) x1 (ix2 b (0 : Fin 2)) = BitVec.ofNat 32 b.val := by
  have hb := b.isLt
  have e0 : Read.val_main_v42 (F := Ideal) x1 (ix2 b (0 : Fin 2)) = Read.val_main_v40 (F := Ideal) (ix2 b (0 : Fin 1)) := by
    unfold Read.val_main_v42
    exact concatenate_pair_apply_left (t := S128x2) (s₁ := S128x1) (s₂ := S128x1) 1 _ _ _ _ rfl _ (fun c => by
      match c with
      | ⟨0, _⟩ => rfl
      | ⟨1, _⟩ => rfl)
  rw [e0, Read.val_main_v40_apply, Read.val_main_v34_apply, Read.val_main_v31_apply, Read.val_main_v33_apply, Read.val_main_v27_apply,
    Read.val_main_v30_apply, Read.val_main_c_2_apply, Read.val_main_v32_apply, Read.val_main_c_3_apply]
  exact wrap_of_nonneg (BitVec.ofNat 32 b.val) 128#32 (by rw [WordArith.toInt_ofNat_small _ (by omega)]; omega)

/-- Column 1 of the index array is n_b − 1 for a length 1 ≤ n_b ≤ 2048: the difference does not wrap and is not
    negative, so the wrap leaves it alone. -/
theorem idx_col1 (x1 : (⟨S128, .i32⟩ : BufTy).Contents (Elt Ideal)) (b : Fin 128)
    (h1 : 1 ≤ (x1 (ix1 b)).toInt) (h2 : (x1 (ix1 b)).toInt ≤ 2048) :
    Read.val_main_v42 (F := Ideal) x1 (ix2 b (1 : Fin 2)) = IntOp.subi (x1 (ix1 b)) 1#32 := by
  have e0 : Read.val_main_v42 (F := Ideal) x1 (ix2 b (1 : Fin 2)) = Read.val_main_v41 (F := Ideal) x1 (ix2 b (0 : Fin 1)) := by
    unfold Read.val_main_v42
    exact concatenate_pair_apply_right (t := S128x2) (s₁ := S128x1) (s₂ := S128x1) 1 _ _ _ _ rfl rfl _
      (fun c hc => by
        match c with
        | ⟨0, _⟩ => rfl
        | ⟨1, _⟩ => exact absurd rfl hc)
      rfl
  have e : Read.idx_main_v41 (ix2 b (0 : Fin 1)) = ix1 b :=
    funext fun a => Fin.ext (by match a with | ⟨0, _⟩ => rfl)
  rw [e0, Read.val_main_v41_apply, Read.val_main_v39_apply, Read.val_main_v36_apply, Read.val_main_v38_apply, Read.val_main_v29_apply,
    Read.val_main_v28_apply, Read.val_main_c_apply, Read.val_main_v35_apply, Read.val_main_c_4_apply, Read.val_main_v37_apply,
    Read.val_main_c_5_apply, e]
  exact wrap_of_nonneg _ 2048#32 (by rw [toInt_pred _ h1 h2]; omega)

/-- The gathered sample at entry (b, d) is the sample of row b at time step n_b − 1. -/
theorem last_apply (x0 : (⟨S128x2048x128, .f32⟩ : BufTy).Contents (Elt Ideal)) (x1 : (⟨S128, .i32⟩ : BufTy).Contents (Elt Ideal))
    (b d : Fin 128) (h1 : 1 ≤ (x1 (ix1 b)).toInt) (h2 : (x1 (ix1 b)).toInt ≤ 2048) :
    Read.val_main_v43 (F := Ideal) x0 x1 (ix2 b d) = Cert.Spec.lastAt (fun t => x0 (ix3 b t d)) (x1 (ix1 b)).toInt := by
  have hb := b.isLt
  have hp := toInt_pred _ h1 h2
  unfold Cert.Spec.lastAt
  rw [dif_pos ⟨by omega, by omega⟩]
  unfold Read.val_main_v43
  refine gather_apply x0 _ b d b ⟨((x1 (ix1 b)).toInt - 1).toNat, by omega⟩ ?_ ?_
  · rw [idx_col0, WordArith.toInt_ofNat_small _ (by omega)]
    show min ((b.val : ℤ)).toNat 127 = b.val
    omega
  · rw [idx_col1 x1 b h1 h2, hp]
    show min ((x1 (ix1 b)).toInt - 1).toNat 2047 = ((x1 (ix1 b)).toInt - 1).toNat
    omega

/-! ## The feature matrix at an entry -/

/-- The reference's 128 × 384 features, entry (b, k), in the specification's terms. -/
theorem ref_feats_apply (x0 : (⟨S128x2048x128, .f32⟩ : BufTy).Contents (Elt Ideal)) (x1 : (⟨S128, .i32⟩ : BufTy).Contents (Elt Ideal))
    (hlen : ∀ b : Fin 128, 1 ≤ (x1 (ix1 b)).toInt ∧ (x1 (ix1 b)).toInt ≤ 2048) (b : Fin 128) (k : Fin 384) :
    Read.val_main_v44 (F := Ideal) x0 x1 (ix2 b k)
      = Cert.Spec.featsR (fun b t d => x0 (ix3 b t d)) (fun b => (x1 (ix1 b)).toInt) b k := by
  have hk := k.isLt
  unfold Cert.Spec.featsR Read.val_main_v44
  by_cases hk1 : k.val < 128
  · rw [dif_pos hk1]
    refine (concatenate_apply_piece (t := S128x384) 1 _ _ (ix2 b k) 0 (by show (0 : ℕ) < 3; omega) S128x128 _ rfl rfl 0 rfl
      (ix2 b (⟨k.val, hk1⟩ : Fin 128)) (fun c hc => ?_) ?_).trans (mean_apply x0 x1 b ⟨k.val, hk1⟩)
    · match c with
      | ⟨0, _⟩ => rfl
      | ⟨1, _⟩ => exact absurd rfl hc
    · show 0 + k.val = k.val
      omega
  · rw [dif_neg hk1]
    by_cases hk2 : k.val < 256
    · rw [dif_pos hk2]
      refine (concatenate_apply_piece (t := S128x384) 1 _ _ (ix2 b k) 1 (by show (1 : ℕ) < 3; omega) S128x128 _ rfl rfl 128 rfl
        (ix2 b (⟨k.val - 128, by omega⟩ : Fin 128)) (fun c hc => ?_) ?_).trans (std_apply x0 x1 b ⟨k.val - 128, by omega⟩)
      · match c with
        | ⟨0, _⟩ => rfl
        | ⟨1, _⟩ => exact absurd rfl hc
      · show 128 + (k.val - 128) = k.val
        omega
    · rw [dif_neg hk2]
      refine (concatenate_apply_piece (t := S128x384) 1 _ _ (ix2 b k) 2 (by show (2 : ℕ) < 3; omega) S128x128 _ rfl rfl 256 rfl
        (ix2 b (⟨k.val - 256, by omega⟩ : Fin 128)) (fun c hc => ?_) ?_).trans
        (last_apply x0 x1 b ⟨k.val - 256, by omega⟩ (hlen b).1 (hlen b).2)
      · match c with
        | ⟨0, _⟩ => rfl
        | ⟨1, _⟩ => exact absurd rfl hc
      · show 256 + (k.val - 256) = k.val
        omega

end Cert.ReferenceIdeal.Hand

end
-- ==== Proof.RefTail.lean ====
/-
  The reference's result at an entry, as the perceptron of its feature matrix: two contractions, two broadcast bias
  rows, one maximum with zero.
-/
import proofs.«421534_j64965675320093_2_alg».proof.Proof.Gen.ReferenceIdeal.Read
import proofs.«421534_j64965675320093_2_alg».proof.Proof.Spec
import Idealize.ShloMosaic.Lib.ValueLayout

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! The two contractions' and the two bias rows' index functions at an entry, as coordinates. -/

theorem tail_lidx50 (b : Fin 128) (o : Fin 8) (n : Fin 64) : Read.lidx_main_v50 (ix2 b o) n = ix2 b n :=
  funext fun a => Fin.ext (by match a with | ⟨0, _⟩ => rfl | ⟨1, _⟩ => rfl)
theorem tail_ridx50 (b : Fin 128) (o : Fin 8) (n : Fin 64) : Read.ridx_main_v50 (ix2 b o) n = ix2 n o :=
  funext fun a => Fin.ext (by match a with | ⟨0, _⟩ => rfl | ⟨1, _⟩ => rfl)
theorem tail_lidx45 (b : Fin 128) (n : Fin 64) (k : Fin 384) : Read.lidx_main_v45 (ix2 b n) k = ix2 b k :=
  funext fun a => Fin.ext (by match a with | ⟨0, _⟩ => rfl | ⟨1, _⟩ => rfl)
theorem tail_ridx45 (b : Fin 128) (n : Fin 64) (k : Fin 384) : Read.ridx_main_v45 (ix2 b n) k = ix2 k n :=
  funext fun a => Fin.ext (by match a with | ⟨0, _⟩ => rfl | ⟨1, _⟩ => rfl)
theorem tail_idx47 (b : Fin 128) (n : Fin 64) : Read.idx_main_v46 (Read.idx_main_v47 (ix2 b n)) = ix1 n :=
  funext fun a => Fin.ext (by match a with | ⟨0, _⟩ => rfl)
theorem tail_idx52 (b : Fin 128) (o : Fin 8) : Read.idx_main_v51 (Read.idx_main_v52 (ix2 b o)) = ix1 o :=
  funext fun a => Fin.ext (by match a with | ⟨0, _⟩ => rfl)

/-- The reference's 128 × 8 result, entry (b, o): relu(feats · W1 + b1) · W2 + b2 over its own feature matrix. -/
theorem ref_out_apply (x0 : (⟨S128x2048x128, .f32⟩ : BufTy).Contents (Elt Ideal)) (x1 : (⟨S128, .i32⟩ : BufTy).Contents (Elt Ideal))
    (x2 : (⟨S384x64, .f32⟩ : BufTy).Contents (Elt Ideal)) (x3 : (⟨S64, .f32⟩ : BufTy).Contents (Elt Ideal))
    (x4 : (⟨S64x8, .f32⟩ : BufTy).Contents (Elt Ideal)) (x5 : (⟨S8, .f32⟩ : BufTy).Contents (Elt Ideal)) (b : Fin 128) (o : Fin 8) :
    Read.val_main_v53 (F := Ideal) x0 x1 x2 x3 x4 x5 (ix2 b o)
      = Cert.Spec.tailSpec (fun b k => Read.val_main_v44 (F := Ideal) x0 x1 (ix2 b k)) (fun k n => x2 (ix2 k n)) (fun n => x3 (ix1 n))
          (fun n o => x4 (ix2 n o)) (fun o => x5 (ix1 o)) b o := by
  unfold Cert.Spec.tailSpec
  rw [Read.val_main_v53_apply, Read.val_main_v50_apply, Read.val_main_v52_apply, Read.val_main_v51_apply]
  simp only [Read.val_main_v49_apply, Read.val_main_v48_apply, Read.val_main_v45_apply, Read.val_main_v47_apply, Read.val_main_v46_apply,
    Read.val_main_call0_v0_apply, Read.val_main_call0_cst_apply,
    tail_lidx50, tail_ridx50, tail_lidx45, tail_ridx45, tail_idx47, tail_idx52,
    Ideal.addf_def, Ideal.maximumf_def, Ideal.mulf_def, Ideal.ofBits_def, Ideal.ofBits_zero_f32]

end Cert.ReferenceIdeal.Hand

end
-- ==== Proof.Algebra.lean ====
/-
  The two roads to the features agree on finite samples and a length 2 ≤ n ≤ 2048.  With μ = S/n and S = Σ f·mask,
  Σ (f − μ)²·mask = Σ f²·mask − 2μS + μ²·n = Σ f²·mask − n·μ·μ, because exactly n time steps lie below n; the common
  value is a sum of squares over n − 1 > 0, hence nonnegative, so the clamp at zero does nothing; and exactly one
  time step equals n − 1, so the masked sum picks that sample.
-/
import proofs.«421534_j64965675320093_2_alg».proof.Proof.Spec

noncomputable section

namespace Cert.Spec

open Idealize.ShloMosaic

/-- A coerced finite sum of reals is the sum of the coerced reals. -/
private theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Exactly n of the 2048 time steps lie below n, for 0 ≤ n ≤ 2048. -/
private theorem count_lt (n : ℤ) (h0 : 0 ≤ n) (hT : n ≤ 2048) :
    ∑ t : Fin 2048, (if (t.val : ℤ) < n then (1 : ℝ) else 0) = (n : ℝ) := by
  lift n to ℕ using h0
  have hk : n ≤ 2048 := by exact_mod_cast hT
  simp only [Nat.cast_lt, Int.cast_natCast]
  rw [Fin.sum_univ_eq_sum_range (fun i => if i < n then (1 : ℝ) else 0) 2048, Finset.sum_boole]
  have : (Finset.range 2048).filter (fun i => i < n) = Finset.range n := by
    ext i; simp only [Finset.mem_filter, Finset.mem_range]; omega
  rw [this, Finset.card_range]

/-- With μ = S/N and Σ m = N: Σ (g − μ)²·m = Σ g²·m − N·μ·μ. -/
private theorem centred_eq (g m : Fin 2048 → ℝ) (N : ℝ) (hN : N ≠ 0) (hcount : ∑ t, m t = N) (μ : ℝ)
    (hμ : μ = (∑ t, g t * m t) * (1 / N)) :
    ∑ t, (g t - μ) * (g t - μ) * m t = (∑ t, g t * g t * m t) - N * μ * μ := by
  have hS : ∑ t, g t * m t = μ * N := by rw [hμ]; field_simp
  have e : ∀ t, (g t - μ) * (g t - μ) * m t = g t * g t * m t - 2 * μ * (g t * m t) + μ * μ * m t := fun t => by ring
  simp only [e, Finset.sum_add_distrib, Finset.sum_sub_distrib, ← Finset.mul_sum, hcount, hS]
  ring

/-- The standard deviation by sufficient statistics is the centred one. -/
theorem stdStat_eq_stdCentred (f : Fin 2048 → EReal) (n : ℤ) (hf : ∀ t, ∃ r : ℝ, f t = (r : EReal)) (h2 : 2 ≤ n) (hT : n ≤ 2048) :
    stdStat f n = stdCentred f n := by
  choose g hg using hf
  obtain rfl : f = fun t => (g t : EReal) := funext hg
  have h2r : (2 : ℝ) ≤ (n : ℝ) := by exact_mod_cast h2
  have hn0 : (n : ℝ) ≠ 0 := by linarith
  have hn1 : (n : ℝ) - 1 ≠ 0 := by intro h; linarith
  -- the mask as a real
  obtain ⟨m, hm⟩ : ∃ m : Fin 2048 → ℝ, m = fun t => if (t.val : ℤ) < n then (1 : ℝ) else 0 := ⟨_, rfl⟩
  have hmask : ∀ t : Fin 2048, maskE n t.val = ((m t : ℝ) : EReal) := by
    intro t; rw [hm]; unfold maskE; dsimp only; split_ifs <;> simp
  have hm0 : ∀ t, 0 ≤ m t := by intro t; rw [hm]; dsimp only; split_ifs <;> norm_num
  have hcount : ∑ t, m t = (n : ℝ) := by rw [hm]; exact count_lt n (by omega) hT
  -- the sums, the mean and the two variances are coerced reals
  obtain ⟨μ, hμ⟩ : ∃ μ : ℝ, μ = (∑ t, g t * m t) * (1 / (n : ℝ)) := ⟨_, rfl⟩
  have hsum : sumE (fun t => (g t : EReal)) n = ((∑ t, g t * m t : ℝ) : EReal) := by
    unfold sumE; rw [coe_sum]; exact Finset.sum_congr rfl fun t _ => by rw [hmask, EReal.coe_mul]
  have hsq : sqSumE (fun t => (g t : EReal)) n = ((∑ t, g t * g t * m t : ℝ) : EReal) := by
    unfold sqSumE; rw [coe_sum]; exact Finset.sum_congr rfl fun t _ => by rw [hmask, EReal.coe_mul, EReal.coe_mul]
  have hmean : meanE (fun t => (g t : EReal)) n = (μ : EReal) := by
    unfold meanE cntE; rw [hsum, Ideal.div_coe hn0, ← EReal.coe_mul, hμ]
  have hden : cntE n - 1 = (((n : ℝ) - 1 : ℝ) : EReal) := by unfold cntE; simp
  have hvs : varStat (fun t => (g t : EReal)) n
      = ((((∑ t, g t * g t * m t) - (n : ℝ) * μ * μ) * (1 / ((n : ℝ) - 1)) : ℝ) : EReal) := by
    unfold varStat; rw [hden, hsq, hmean, Ideal.div_coe hn1]; unfold cntE
    rw [← EReal.coe_mul, ← EReal.coe_mul, ← EReal.coe_sub, ← EReal.coe_mul]
  have hvc : varCentred (fun t => (g t : EReal)) n
      = (((∑ t, (g t - μ) * (g t - μ) * m t) * (1 / ((n : ℝ) - 1)) : ℝ) : EReal) := by
    unfold varCentred; rw [hden, hmean, Ideal.div_coe hn1, EReal.coe_mul, coe_sum]
    refine congrArg (fun z : EReal => z * ((1 / ((n : ℝ) - 1) : ℝ) : EReal)) (Finset.sum_congr rfl fun t _ => ?_)
    rw [hmask, EReal.coe_mul, EReal.coe_mul, EReal.coe_sub]
  have halg := centred_eq g m (n : ℝ) hn0 hcount μ hμ
  have hnn : 0 ≤ (∑ t, (g t - μ) * (g t - μ) * m t) * (1 / ((n : ℝ) - 1)) :=
    mul_nonneg (Finset.sum_nonneg fun t _ => mul_nonneg (mul_self_nonneg _) (hm0 t)) (one_div_nonneg.2 (by linarith))
  unfold stdStat stdCentred
  rw [hvs, hvc, ← halg, max_eq_left (EReal.coe_nonneg.2 hnn)]

/-- The masked sum against [t = n − 1] is the sample at n − 1. -/
theorem lastSum_eq_lastAt (f : Fin 2048 → EReal) (n : ℤ) (h1 : 1 ≤ n) (hT : n ≤ 2048) :
    lastSum f n = lastAt f n := by
  have hr : 0 ≤ n - 1 ∧ n - 1 < 2048 := by omega
  unfold lastSum lastAt
  rw [dif_pos hr, Finset.sum_eq_single (⟨(n - 1).toNat, by omega⟩ : Fin 2048)]
  · -- the one time step equal to n − 1 carries the mask 1
    unfold lastMaskE
    rw [if_pos (by dsimp only; omega), mul_one]
  · -- every other time step carries the mask 0, and anything times 0 is 0
    intro t _ hne
    unfold lastMaskE
    rw [if_neg (fun h => hne (Fin.ext (by dsimp only; omega))), mul_zero]
  · intro h; exact absurd (Finset.mem_univ _) h

/-- The kernel's features are the reference's, on finite samples and lengths in [2, 2048]. -/
theorem featsK_eq_featsR (x : Fin 128 → Fin 2048 → Fin 128 → EReal) (len : Fin 128 → ℤ)
    (hx : ∀ b t d, ∃ r : ℝ, x b t d = (r : EReal)) (hlen : ∀ b, 2 ≤ len b ∧ len b ≤ 2048) :
    featsK x len = featsR x len := by
  funext b k
  unfold featsK featsR
  split_ifs with h h2
  · rfl
  · exact stdStat_eq_stdCentred _ _ (fun t => hx b t _) (hlen b).1 (hlen b).2
  · exact lastSum_eq_lastAt _ _ (by have := (hlen b).1; omega) (hlen b).2

end Cert.Spec

end
-- ==== Proof.PreFacts.lean ====
/-
  What the precondition says: every sample is a finite real, and every length lies in [2, 2048].
-/
import proofs.«421534_j64965675320093_2_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.Pre_finite_inputs.Hand

open Idealize.ShloMosaic Idealize.ShloMosaic.ValueIdx Cert.Pre_finite_inputs

variable [Cert.Pre_finite_inputs.Facts]

/-- The scalar shape has exactly one index. -/
instance : Subsingleton S_.Idx := ⟨fun a b => funext fun d => d.elim0⟩

/-- From the printed predicate being all ones: the samples are finite and the lengths are in range. -/
theorem decode (x0 : FVec Ideal S128x2048x128 .f32) (x1 : IVec S128 32) (x2 : FVec Ideal S384x64 .f32)
    (x3 : FVec Ideal S64 .f32) (x4 : FVec Ideal S64x8 .f32) (x5 : FVec Ideal S8 .f32)
    (h : Cert.Pre_finite_inputs.fn (F := Ideal) x0 x1 x2 x3 x4 x5 = fun _ => 1#1) :
    (∀ i : S128x2048x128.Idx, ∃ r : ℝ, x0 i = (r : EReal))
      ∧ (∀ b : Fin 128, 2 ≤ (x1 (ix1 b)).toInt ∧ (x1 (ix1 b)).toInt ≤ 2048) := by
  -- the predicate at its one index is a six-fold conjunction of one-bit words; it is 1, so each conjunct is 1
  have h0 := congrFun h ValueIdx.ix0
  dsimp only [fn, fn_part1] at h0
  obtain ⟨h1, hI⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨hF, -⟩ := IntOp.andi_eq_one.1 h4
  clear h0 h1 h2 h3 h4 h
  -- the pattern 0x7F800000 (exponent all ones, fraction zero, sign clear) denotes +∞
  have hinf : Ideal.ofBits .f32 0x7F800000#32 = (⊤ : EReal) := by
    simp [Ideal.ofBits, Ideal.ieee]
  refine ⟨fun i => ?_, fun b => ?_⟩
  · -- a conjunction over all entries that is 1 is 1 at entry i: max (x, -x) < +∞, so x is neither +∞ nor -∞
    have e := Host.reduce_andi_all _ _ _ _ _ hF i
    change Ideal.cmp .olt (max (x0 i) (-(x0 i))) (Ideal.ofBits .f32 0x7F800000#32) = 1#1 at e
    rw [hinf] at e
    simp only [Ideal.cmp, StableHlo.Predicate.ofBool_eq_one_iff, decide_eq_true_eq] at e
    generalize x0 i = y at e ⊢
    induction y using EReal.rec with
    | bot => simp at e
    | coe r => exact ⟨r, rfl⟩
    | top => simp at e
  · -- likewise at row b: both signed comparisons hold there, against the words 2 and 2048
    have e := Host.reduce_andi_all _ _ _ _ _ hI (ix1 b)
    obtain ⟨e1, e2⟩ := IntOp.andi_eq_one.1 e
    change IntOp.cmpi .sge (x1 (ix1 b)) 2#32 = 1#1 at e1
    change IntOp.cmpi .sle (x1 (ix1 b)) 2048#32 = 1#1 at e2
    simp only [IntOp.cmpi, StableHlo.Predicate.ofBool_eq_one_iff, BitVec.sle, decide_eq_true_eq] at e1 e2
    have c2 : (2#32 : BitVec 32).toInt = 2 := by decide
    have c2048 : (2048#32 : BitVec 32).toInt = 2048 := by decide
    rw [c2] at e1
    rw [c2048] at e2
    exact ⟨e1, e2⟩

end Cert.Pre_finite_inputs.Hand

end
-- ==== Proof.Bridge.lean ====
/-
  The two idealized programs compute the same 128 × 8 result.  Both are the perceptron relu(F · W1 + b1) · W2 + b2 of a
  128 × 384 feature matrix F of the samples and the lengths; the kernel's F has the standard deviation by sufficient
  statistics (clamped at zero) and the last valid sample by a masked sum, the reference's has the centred standard
  deviation and the sample gathered at step n − 1.  On finite samples and lengths in [2, 2048] the two feature matrices
  are equal, entry by entry.
-/
import proofs.«421534_j64965675320093_2_alg».proof.Defs
import proofs.«421534_j64965675320093_2_alg».proof.Proof.KI.Value
import proofs.«421534_j64965675320093_2_alg».proof.Proof.RefFeats
import proofs.«421534_j64965675320093_2_alg».proof.Proof.RefTail
import proofs.«421534_j64965675320093_2_alg».proof.Proof.Algebra
import proofs.«421534_j64965675320093_2_alg».proof.Proof.PreFacts
import proofs.«421534_j64965675320093_2_alg».proof.Proof.Gen.Pre_finite_inputs

set_option maxRecDepth 16384

noncomputable section

namespace Cert.Proof.Hand

open Idealize.ShloMosaic Idealize.ShloMosaic.TcCoe Idealize.SL.Sem Idealize.ShloMosaic.ValueIdx

/-- With the reference's arguments equal to the kernel's and the precondition on them, the reference's result term is
    the kernel's result array. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v53 m' c
      = (Cert.KernelIdeal.Hand.dat1 (Cert.KernelIdeal.Hand.V2 m ρ) c).arrAt 5 Cert.KernelIdeal.cfg1.N := by
  obtain ⟨hfin, hlen⟩ := Cert.Pre_finite_inputs.Hand.decode _ _ _ _ _ _ hpre
  rw [Cert.ReferenceIdeal.Read.val_main_v53_eq, h0, h1, h2, h3, h4, h5]
  funext idx
  obtain ⟨b, o, rfl⟩ : ∃ (b : Fin 128) (o : Fin 8), idx = ix2 b o := ⟨idx 0, idx 1, eq_ix2 idx⟩
  refine (Cert.ReferenceIdeal.Hand.ref_out_apply _ _ _ _ _ _ b o).trans ?_
  refine Eq.trans ?_ (Cert.KernelIdeal.Hand.kernel_out_apply m ρ c b o).symm
  refine congrArg (fun F => Cert.Spec.tailSpec F _ _ _ _ b o) ?_
  funext b' k'
  rw [Cert.ReferenceIdeal.Hand.ref_feats_apply _ _ (fun b => ⟨by have := (hlen b).1; omega, (hlen b).2⟩) b' k']
  exact (congrFun (congrFun (Cert.Spec.featsK_eq_featsR _ _ (fun b t d => hfin (ix3 b t d)) hlen) b') k').symm

end Cert.Proof.Hand

end
-- ==== Proof.lean ====
/-
  The certificate of the ragged-sequence classifier: a masked mean / standard deviation / last-valid-sample reduction
  over time, streamed through a 2 × 4 grid with three running sums carried in scratch, followed by a two-layer
  perceptron, against the plain jnp reference.

  Frames: each kernel program is three segments (the host reshape of the lengths, the reduction region, the
  perceptron region) run over the several-regions launch; the reduction's invariant carries the running sums between
  grid points.  The reference's frame is its run with the result dropped.

  Values: on the extended reals both programs are the perceptron of a 128 × 384 feature matrix.  The precondition
  (finite samples, every length in [2, 2048]: the reference indexes the time axis at length − 1 and divides by
  length − 1) makes the kernel's sufficient-statistics variance Σx²·mask − n·μ·μ equal to the reference's centred
  Σ(x − μ)²·mask, nonnegative so that the kernel's clamp at zero is the identity, and the kernel's masked-sum pick
  of the last valid sample equal to the reference's gather.
-/
import proofs.«421534_j64965675320093_2_alg».proof.Defs
import proofs.«421534_j64965675320093_2_alg».proof.Proof.Gen.Kernel
import proofs.«421534_j64965675320093_2_alg».proof.Proof.Gen.KernelIdeal
import proofs.«421534_j64965675320093_2_alg».proof.Proof.Gen.ReferenceIdeal
import proofs.«421534_j64965675320093_2_alg».proof.Proof.Gen.Pre_finite_inputs
import proofs.«421534_j64965675320093_2_alg».proof.Proof.Gen.ReferenceIdeal.Run
import proofs.«421534_j64965675320093_2_alg».proof.Proof.K.Run
import proofs.«421534_j64965675320093_2_alg».proof.Proof.KI.Run
import proofs.«421534_j64965675320093_2_alg».proof.Proof.Bridge

noncomputable section

namespace Cert.Proof

open Idealize.ShloMosaic Idealize.SL.Sem

/-- The word-level kernel runs to the end and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text. -/
theorem preserves : Cert.preserves_Kernel_KernelIdeal := trivial

/-- Both idealized programs run, and end with the same 128 × 8 result. -/
theorem algebraic : Cert.algebraic_KernelIdeal_ReferenceIdeal := by
  intro m ρ m' ρ' hpre hagree
  refine ⟨fun c => (Cert.KernelIdeal.Hand.dat1 (Cert.KernelIdeal.Hand.V2 m ρ) c).arrAt 5 Cert.KernelIdeal.cfg1.N,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Proof.Hand.results_agree m ρ m' c (hpre c) (hagree c).1 (hagree c).2.1 (hagree c).2.2.1 (hagree c).2.2.2.1
    (hagree c).2.2.2.2.1 (hagree c).2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
